-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S1600000 : Shape := ⟨1, ![1600000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S1600000 : S_.BroadcastsInDim S1600000 (![] : Fin 0 → Fin S1600000.rank)
  reducesTo_S1600000_S_d0 : S1600000.ReducesTo [0] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg1 : IVec S2000000 32) (main_v32 : IVec S_ 1) (main_c_12 : IVec S_ 32) : IVec S_ 1 :=
  let main_v33 : IVec S2000000 32 := broadcastInDim S2000000 ![] bcast_S_S2000000 main_c_12
  let main_v34 : IVec S2000000 1 := cmpi .sge main_arg1 main_v33
  let main_c_13 : IVec S_ 1 := constantI S_ 1 1#1
  let main_v35 : IVec S_ 1 := (fun x v => Host.reduce IntOp.andi x v reducesTo_S2000000_S_d0 h_S_) main_v34 main_c_13
  let main_v36 : IVec S_ 1 := andi main_v32 main_v35
  main_v36

def fn_part1 {F : FTy → Type} [FloatOps F] (main_arg1 : IVec S2000000 32) (main_arg8 : FVec F S64x40 .f32) (main_arg9 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg8
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg9
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_c_10 : IVec S_ 32 := constantI S_ 32 2048#32
  let main_v29 : IVec S2000000 32 := broadcastInDim S2000000 ![] bcast_S_S2000000 main_c_10
  let main_v30 : IVec S2000000 1 := cmpi .slt main_arg1 main_v29
  let main_c_11 : IVec S_ 1 := constantI S_ 1 1#1
  let main_v31 : IVec S_ 1 := (fun x v => Host.reduce IntOp.andi x v reducesTo_S2000000_S_d0 h_S_) main_v30 main_c_11
  let main_v32 : IVec S_ 1 := andi main_v28 main_v31
  let main_c_12 : IVec S_ 32 := constantI S_ 32 0#32
  fn_part2 (F := F) main_arg1 main_v32 main_c_12

def fn {F : FTy → Type} [FloatOps F] (main_arg0 : IVec S2000000 32) (main_arg1 : IVec S2000000 32) (main_arg2 : FVec F S2000000 .f32) (main_arg3 : IVec S1600000 32) (main_arg4 : IVec S1600000 32) (main_arg5 : FVec F S1600000 .f32) (main_arg6 : FVec F S2048x64 .f32) (main_arg7 : FVec F S64 .f32) (main_arg8 : FVec F S64x40 .f32) (main_arg9 : FVec F S40 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S1600000 .f32 := Host.absf main_arg5
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2048x64 .f32 := Host.absf main_arg6
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg8 main_arg9 main_v13 main_v16
-- ==== Kernel.lean ====
abbrev S2000000 : Shape := ⟨1, ![2000000]⟩
abbrev S1600000 : Shape := ⟨1, ![1600000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S_ : Shape := ⟨0, ![]⟩
abbrev S2000384 : Shape := ⟨1, ![2000384]⟩
abbrev S2000384x1 : Shape := ⟨2, ![2000384, 1]⟩
abbrev S2000384x64 : Shape := ⟨2, ![2000384, 64]⟩
abbrev S512x1 : Shape := ⟨2, ![512, 1]⟩
abbrev S512x64 : Shape := ⟨2, ![512, 64]⟩
abbrev S512x2048 : Shape := ⟨2, ![512, 2048]⟩
abbrev S2000000x64 : Shape := ⟨2, ![2000000, 64]⟩
abbrev S100000x64 : Shape := ⟨2, ![100000, 64]⟩
abbrev S2000000x1 : Shape := ⟨2, ![2000000, 1]⟩
abbrev S100000x40 : Shape := ⟨2, ![100000, 40]⟩
abbrev S2000x64 : Shape := ⟨2, ![2000, 64]⟩
abbrev S2000x40 : Shape := ⟨2, ![2000, 40]⟩
abbrev S1x64 : Shape := ⟨2, ![1, 64]⟩
abbrev S1x40 : Shape := ⟨2, ![1, 40]⟩
abbrev S1600000x1 : Shape := ⟨2, ![1600000, 1]⟩
abbrev S1600000x40 : Shape := ⟨2, ![1600000, 40]⟩
abbrev S2000 : Shape := ⟨1, ![2000]⟩
abbrev S2000x1 : Shape := ⟨2, ![2000, 1]⟩

abbrev nBuf : Space → Nat
  | .hbm => 196
  | .vmem => 78
  | .smem => 0
  | _ => 0

abbrev hbmTy0_0 (i : Nat) : BufTy := match i % 128 with
  | 0 => ⟨S2000000, .i32⟩
  | 1 => ⟨S2000000, .i32⟩
  | 2 => ⟨S2000000, .f32⟩
  | 3 => ⟨S1600000, .i32⟩
  | 4 => ⟨S1600000, .i32⟩
  | 5 => ⟨S1600000, .f32⟩
  | 6 => ⟨S2048x64, .f32⟩
  | 7 => ⟨S64, .f32⟩
  | 8 => ⟨S64x40, .f32⟩
  | 9 => ⟨S40, .f32⟩
  | 10 => ⟨S_, .i32⟩
  | 11 => ⟨S_, .i32⟩
  | 12 => ⟨S2000384, .i32⟩
  | 13 => ⟨S_, .f32⟩
  | 14 => ⟨S_, .f32⟩
  | 15 => ⟨S2000384, .f32⟩
  | 16 => ⟨S2000384x1, .i32⟩
  | 17 => ⟨S2000384x1, .f32⟩
  | 18 => ⟨S2000384x64, .f32⟩
  | 19 => ⟨S2000000x64, .f32⟩
  | 20 => ⟨S_, .f32⟩
  | 21 => ⟨S100000x64, .f32⟩
  | 22 => ⟨S2000000x1, .i32⟩
  | 23 => ⟨S100000x64, .f32⟩
  | 24 => ⟨S100000x40, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x40, .f32⟩
  | 34 => ⟨S1600000x1, .f32⟩
  | 35 => ⟨S1600000x40, .f32⟩
  | 36 => ⟨S1600000x40, .f32⟩
  | 37 => ⟨S_, .f32⟩
  | 38 => ⟨S100000x40, .f32⟩
  | 39 => ⟨S1600000x1, .i32⟩
  | 40 => ⟨S100000x40, .f32⟩
  | 41 => ⟨S100000x40, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x40, .f32⟩
  | 51 => ⟨S1600000x1, .f32⟩
  | 52 => ⟨S1600000x40, .f32⟩
  | 53 => ⟨S1600000x40, .f32⟩
  | 54 => ⟨S_, .f32⟩
  | 55 => ⟨S100000x40, .f32⟩
  | 56 => ⟨S1600000x1, .i32⟩
  | 57 => ⟨S100000x40, .f32⟩
  | 58 => ⟨S100000x40, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x40, .f32⟩
  | 68 => ⟨S1600000x1, .f32⟩
  | 69 => ⟨S1600000x40, .f32⟩
  | 70 => ⟨S1600000x40, .f32⟩
  | 71 => ⟨S_, .f32⟩
  | 72 => ⟨S100000x40, .f32⟩
  | 73 => ⟨S1600000x1, .i32⟩
  | 74 => ⟨S100000x40, .f32⟩
  | 75 => ⟨S100000x40, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x40, .f32⟩
  | 85 => ⟨S1600000x1, .f32⟩
  | 86 => ⟨S1600000x40, .f32⟩
  | 87 => ⟨S1600000x40, .f32⟩
  | 88 => ⟨S_, .f32⟩
  | 89 => ⟨S100000x40, .f32⟩
  | 90 => ⟨S1600000x1, .i32⟩
  | 91 => ⟨S100000x40, .f32⟩
  | 92 => ⟨S100000x40, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x40, .f32⟩
  | 102 => ⟨S1600000x1, .f32⟩
  | 103 => ⟨S1600000x40, .f32⟩
  | 104 => ⟨S1600000x40, .f32⟩
  | 105 => ⟨S_, .f32⟩
  | 106 => ⟨S100000x40, .f32⟩
  | 107 => ⟨S1600000x1, .i32⟩
  | 108 => ⟨S100000x40, .f32⟩
  | 109 => ⟨S100000x40, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x40, .f32⟩
  | 119 => ⟨S1600000x1, .f32⟩
  | 120 => ⟨S1600000x40, .f32⟩
  | 121 => ⟨S1600000x40, .f32⟩
  | 122 => ⟨S_, .f32⟩
  | 123 => ⟨S100000x40, .f32⟩
  | 124 => ⟨S1600000x1, .i32⟩
  | 125 => ⟨S100000x40, .f32⟩
  | 126 => ⟨S100000x40, .f32⟩
  | 127 => ⟨S_, .i32⟩
  | _ => ⟨S2000000, .i32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x40, .f32⟩
  | 8 => ⟨S1600000x1, .f32⟩
  | 9 => ⟨S1600000x40, .f32⟩
  | 10 => ⟨S1600000x40, .f32⟩
  | 11 => ⟨S_, .f32⟩
  | 12 => ⟨S100000x40, .f32⟩
  | 13 => ⟨S1600000x1, .i32⟩
  | 14 => ⟨S100000x40, .f32⟩
  | 15 => ⟨S100000x40, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x40, .f32⟩
  | 25 => ⟨S1600000x1, .f32⟩
  | 26 => ⟨S1600000x40, .f32⟩
  | 27 => ⟨S1600000x40, .f32⟩
  | 28 => ⟨S_, .f32⟩
  | 29 => ⟨S100000x40, .f32⟩
  | 30 => ⟨S1600000x1, .i32⟩
  | 31 => ⟨S100000x40, .f32⟩
  | 32 => ⟨S100000x40, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x40, .f32⟩
  | 42 => ⟨S1600000x1, .f32⟩
  | 43 => ⟨S1600000x40, .f32⟩
  | 44 => ⟨S1600000x40, .f32⟩
  | 45 => ⟨S_, .f32⟩
  | 46 => ⟨S100000x40, .f32⟩
  | 47 => ⟨S1600000x1, .i32⟩
  | 48 => ⟨S100000x40, .f32⟩
  | 49 => ⟨S100000x40, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x40, .f32⟩
  | 59 => ⟨S1600000x1, .f32⟩
  | 60 => ⟨S1600000x40, .f32⟩
  | 61 => ⟨S1600000x40, .f32⟩
  | 62 => ⟨S_, .f32⟩
  | 63 => ⟨S100000x40, .f32⟩
  | 64 => ⟨S1600000x1, .i32⟩
  | 65 => ⟨S100000x40, .f32⟩
  | 66 => ⟨S100000x40, .f32⟩
  | 67 => ⟨S100000x40, .f32⟩
  | _ => ⟨S2000000, .i32⟩

abbrev hbmTy (i : Nat) : BufTy := match i / 128 with
  | 0 => hbmTy0_0 i
  | 1 => hbmTy0_1 i
  | _ => ⟨S2000000, .i32⟩

abbrev bufTy : (tb : Table) → Fin (tcTables nBuf tb) → BufTy
  | .hbm, ⟨i, _⟩ => hbmTy i
  | .local _ .vmem, ⟨0, _⟩ => ⟨S512x1, .i32⟩
  | .local _ .vmem, ⟨1, _⟩ => ⟨S512x1, .i32⟩
  | .local _ .vmem, ⟨2, _⟩ => ⟨S512x1, .f32⟩
  | .local _ .vmem, ⟨3, _⟩ => ⟨S512x1, .f32⟩
  | .local _ .vmem, ⟨4, _⟩ => ⟨S2048x64, .f32⟩
  | .local _ .vmem, ⟨5, _⟩ => ⟨S512x64, .f32⟩
  | .local _ .vmem, ⟨6, _⟩ => ⟨S512x64, .f32⟩
  | .local _ .vmem, ⟨7, _⟩ => ⟨S2000x64, .f32⟩
  | .local _ .vmem, ⟨8, _⟩ => ⟨S2000x64, .f32⟩
  | .local _ .vmem, ⟨9, _⟩ => ⟨S64, .f32⟩
  | .local _ .vmem, ⟨10, _⟩ => ⟨S64x40, .f32⟩
  | .local _ .vmem, ⟨11, _⟩ => ⟨S40, .f32⟩
  | .local _ .vmem, ⟨12, _⟩ => ⟨S2000x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S2000x40, .f32⟩
  | .local _ .vmem, ⟨28, _⟩ => ⟨S2000x40, .f32⟩
  | .local _ .vmem, ⟨29, _⟩ => ⟨S2000x40, .f32⟩
  | .local _ .vmem, ⟨30, _⟩ => ⟨S2000x40, .f32⟩
  | .local _ .vmem, ⟨31, _⟩ => ⟨S2000x40, .f32⟩
  | .local _ .vmem, ⟨32, _⟩ => ⟨S2000x40, .f32⟩
  | .local _ .vmem, ⟨33, _⟩ => ⟨S2000x40, .f32⟩
  | .local _ .vmem, ⟨34, _⟩ => ⟨S2000x40, .f32⟩
  | .local _ .vmem, ⟨35, _⟩ => ⟨S2000x40, .f32⟩
  | .local _ .vmem, ⟨36, _⟩ => ⟨S2000x40, .f32⟩
  | .local _ .vmem, ⟨37, _⟩ => ⟨S2000x40, .f32⟩
  | .local _ .vmem, ⟨38, _⟩ => ⟨S2000x40, .f32⟩
  | .local _ .vmem, ⟨39, _⟩ => ⟨S2000x40, .f32⟩
  | .local _ .vmem, ⟨40, _⟩ => ⟨S2000x40, .f32⟩
  | .local _ .vmem, ⟨41, _⟩ => ⟨S2000x40, .f32⟩
  | .local _ .vmem, ⟨42, _⟩ => ⟨S2000x40, .f32⟩
  | .local _ .vmem, ⟨43, _⟩ => ⟨S2000x40, .f32⟩
  | .local _ .vmem, ⟨44, _⟩ => ⟨S2000x40, .f32⟩
  | .local _ .vmem, ⟨45, _⟩ => ⟨S2000x40, .f32⟩
  | .local _ .vmem, ⟨46, _⟩ => ⟨S2000x40, .f32⟩
  | .local _ .vmem, ⟨47, _⟩ => ⟨S2000x40, .f32⟩
  | .local _ .vmem, ⟨48, _⟩ => ⟨S2000x40, .f32⟩
  | .local _ .vmem, ⟨49, _⟩ => ⟨S2000x40, .f32⟩
  | .local _ .vmem, ⟨50, _⟩ => ⟨S2000x40, .f32⟩
  | .local _ .vmem, ⟨51, _⟩ => ⟨S2000x40, .f32⟩
  | .local _ .vmem, ⟨52, _⟩ => ⟨S2000x40, .f32⟩
  | .local _ .vmem, ⟨53, _⟩ => ⟨S2000x40, .f32⟩
  | .local _ .vmem, ⟨54, _⟩ => ⟨S2000x40, .f32⟩
  | .local _ .vmem, ⟨55, _⟩ => ⟨S2000x40, .f32⟩
  | .local _ .vmem, ⟨56, _⟩ => ⟨S2000x40, .f32⟩
  | .local _ .vmem, ⟨57, _⟩ => ⟨S2000x40, .f32⟩
  | .local _ .vmem, ⟨58, _⟩ => ⟨S2000x40, .f32⟩
  | .local _ .vmem, ⟨59, _⟩ => ⟨S2000x40, .f32⟩
  | .local _ .vmem, ⟨60, _⟩ => ⟨S2000x40, .f32⟩
  | .local _ .vmem, ⟨61, _⟩ => ⟨S2000x40, .f32⟩
  | .local _ .vmem, ⟨62, _⟩ => ⟨S2000x40, .f32⟩
  | .local _ .vmem, ⟨63, _⟩ => ⟨S2000x40, .f32⟩
  | .local _ .vmem, ⟨64, _⟩ => ⟨S2000x40, .f32⟩
  | .local _ .vmem, ⟨65, _⟩ => ⟨S2000x40, .f32⟩
  | .local _ .vmem, ⟨66, _⟩ => ⟨S2000x40, .f32⟩
  | .local _ .vmem, ⟨67, _⟩ => ⟨S2000x40, .f32⟩
  | .local _ .vmem, ⟨68, _⟩ => ⟨S2000x40, .f32⟩
  | .local _ .vmem, ⟨69, _⟩ => ⟨S2000x40, .f32⟩
  | .local _ .vmem, ⟨70, _⟩ => ⟨S2000x40, .f32⟩
  | .local _ .vmem, ⟨71, _⟩ => ⟨S2000x40, .f32⟩
  | .local _ .vmem, ⟨72, _⟩ => ⟨S2000x40, .f32⟩
  | .local _ .vmem, ⟨73, _⟩ => ⟨S2000x40, .f32⟩
  | .local _ .vmem, ⟨74, _⟩ => ⟨S2000x40, .f32⟩
  | .local _ .vmem, ⟨75, _⟩ => ⟨S2000x40, .f32⟩
  | .local _ .vmem, ⟨76, _⟩ => ⟨S2000x40, .f32⟩
  | .local _ .vmem, ⟨77, _⟩ => ⟨S2000x40, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_19 : Ref sig .tc := ⟨.hbm, 127, rfl⟩
abbrev main_v94 : Ref sig .tc := ⟨.hbm, 128, rfl⟩
abbrev main_v95 : Ref sig .tc := ⟨.hbm, 129, rfl⟩
abbrev main_c_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_21 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_22 : Ref sig .tc := ⟨.hbm, 144, rfl⟩
abbrev main_v108 : Ref sig .tc := ⟨.hbm, 145, rfl⟩
abbrev main_v109 : Ref sig .tc := ⟨.hbm, 146, rfl⟩
abbrev main_c_23 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_24 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_25 : Ref sig .tc := ⟨.hbm, 161, rfl⟩
abbrev main_v122 : Ref sig .tc := ⟨.hbm, 162, rfl⟩
abbrev main_v123 : Ref sig .tc := ⟨.hbm, 163, rfl⟩
abbrev main_c_26 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_27 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_28 : Ref sig .tc := ⟨.hbm, 178, rfl⟩
abbrev main_v136 : Ref sig .tc := ⟨.hbm, 179, rfl⟩
abbrev main_v137 : Ref sig .tc := ⟨.hbm, 180, rfl⟩
abbrev main_c_29 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_30 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77

abbrev nD : Nat := 1
abbrev τ : Topo := Topo.v7x

variable {F : FTy → Type} [FloatOps F]

abbrev grid0 : Pipeline.Grid := ⟨1, ![3907], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x40 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x40 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x40 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x40 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x40 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x40 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x40 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x40 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x40 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x40 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x40 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x40 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x40 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

class Facts₀ : Prop where
  pads_S2000000_S2000384_03840 : S2000000.Pads (![0] : Fin 1 → Nat) ![384] ![0] S2000384
  h_S_ : 0 < S_.numel
  shapeCasts_S2000384_S2000384x1 : S2000384.ShapeCasts S2000384x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  broadcasts_S512x1_S512x64 : S512x1.Broadcasts S512x64
  inb_S512x64_S512x64_0_0 : ∀ a, (![0, 0] : Fin 2 → Nat) a + S512x64.size a ≤ S512x64.size a
  h_S512x64 : 0 < S512x64.numel
  slices_S2000384x64_S2000000x64_0_0 : S2000384x64.Slices ![0, 0] S2000000x64
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  dot_S512x2048_S2048x64_S512x64_1_0_0_1_n_n_wf : DotDims.WF S512x2048 S2048x64 S512x64 [1] [0] [0] [1] [] []
  scatter_S100000x64_S2000000x1_S2000000x64_1_0_0_1_wf : ScatterDims.WF S100000x64 S2000000x1 S2000000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S2000384x1.size a
  hwx0_0 : ∀ i : grid0.Coords, EltTy.bits .i32 = 32 ∨ (Rect.block (s := S2000384x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2000384x1.size a
  hwx0_1 : ∀ i : grid0.Coords, EltTy.bits .f32 = 32 ∨ (Rect.block (s := S2000384x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S2000384x64.size a
  hwx0_3 : ∀ i : grid0.Coords, EltTy.bits .f32 = 32 ∨ (Rect.block (s := S2000384x64) S512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x40.size a ≤ S100000x40.size a
  hwx1_4 : ∀ i : grid1.Coords, EltTy.bits .f32 = 32 ∨ (Rect.block (s := S100000x40) S2000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x40.size a ≤ S100000x40.size a
  hwx2_1 : ∀ i : grid2.Coords, EltTy.bits .f32 = 32 ∨ (Rect.block (s := S100000x40) S2000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S100000x40.size a
  hwx3_1 : ∀ i : grid3.Coords, EltTy.bits .f32 = 32 ∨ (Rect.block (s := S100000x40) S2000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S100000x40.size a
  hwx4_0 : ∀ i : grid4.Coords, EltTy.bits .f32 = 32 ∨ (Rect.block (s := S100000x40) S2000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x40.size a ≤ S100000x40.size a
  hwx4_1 : ∀ i : grid4.Coords, EltTy.bits .f32 = 32 ∨ (Rect.block (s := S100000x40) S2000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x40.size a ≤ S100000x40.size a
  hwx5_1 : ∀ i : grid5.Coords, EltTy.bits .f32 = 32 ∨ (Rect.block (s := S100000x40) S2000x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x40.size a ≤ S100000x40.size a
  hwx6_0 : ∀ i : grid6.Coords, EltTy.bits .f32 = 32 ∨ (Rect.block (s := S100000x40) S2000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x40.size a ≤ S100000x40.size a
  hwx6_1 : ∀ i : grid6.Coords, EltTy.bits .f32 = 32 ∨ (Rect.block (s := S100000x40) S2000x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S100000x40.size a
  hwx6_2 : ∀ i : grid6.Coords, EltTy.bits .f32 = 32 ∨ (Rect.block (s := S100000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x40.size a ≤ S100000x40.size a
  hwx7_1 : ∀ i : grid7.Coords, EltTy.bits .f32 = 32 ∨ (Rect.block (s := S100000x40) S2000x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S100000x40.size a
  hwx7_2 : ∀ i : grid7.Coords, EltTy.bits .f32 = 32 ∨ (Rect.block (s := S100000x40) S2000x40.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x40.size a ≤ S100000x40.size a
  hwx8_0 : ∀ i : grid8.Coords, EltTy.bits .f32 = 32 ∨ (Rect.block (s := S100000x40) S2000x40.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x40.size a ≤ S100000x40.size a
  hwx8_1 : ∀ i : grid8.Coords, EltTy.bits .f32 = 32 ∨ (Rect.block (s := S100000x40) S2000x40.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x40.size a ≤ S100000x40.size a
  hwx8_2 : ∀ i : grid8.Coords, EltTy.bits .f32 = 32 ∨ (Rect.block (s := S100000x40) S2000x40.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x40.size a ≤ S100000x40.size a
  hwx9_0 : ∀ i : grid9.Coords, EltTy.bits .f32 = 32 ∨ (Rect.block (s := S100000x40) S2000x40.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x40.size a ≤ S100000x40.size a
  hwx9_1 : ∀ i : grid9.Coords, EltTy.bits .f32 = 32 ∨ (Rect.block (s := S100000x40) S2000x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x40.size a ≤ S100000x40.size a
  hwx9_2 : ∀ i : grid9.Coords, EltTy.bits .f32 = 32 ∨ (Rect.block (s := S100000x40) S2000x40.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x40.size a ≤ S100000x40.size a
  hwx10_0 : ∀ i : grid10.Coords, EltTy.bits .f32 = 32 ∨ (Rect.block (s := S100000x40) S2000x40.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x40.size a ≤ S100000x40.size a
  hwx10_1 : ∀ i : grid10.Coords, EltTy.bits .f32 = 32 ∨ (Rect.block (s := S100000x40) S2000x40.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x40.size a ≤ S100000x40.size a
  hwx10_2 : ∀ i : grid10.Coords, EltTy.bits .f32 = 32 ∨ (Rect.block (s := S100000x40) S2000x40.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x40.size a ≤ S100000x40.size a
  hwx11_0 : ∀ i : grid11.Coords, EltTy.bits .f32 = 32 ∨ (Rect.block (s := S100000x40) S2000x40.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x40.size a ≤ S100000x40.size a
  hwx11_1 : ∀ i : grid11.Coords, EltTy.bits .f32 = 32 ∨ (Rect.block (s := S100000x40) S2000x40.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x40.size a ≤ S100000x40.size a
  hwx11_2 : ∀ i : grid11.Coords, EltTy.bits .f32 = 32 ∨ (Rect.block (s := S100000x40) S2000x40.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x40.size a ≤ S100000x40.size a
  hwx12_0 : ∀ i : grid12.Coords, EltTy.bits .f32 = 32 ∨ (Rect.block (s := S100000x40) S2000x40.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x40.size a ≤ S100000x40.size a
  hwx12_1 : ∀ i : grid12.Coords, EltTy.bits .f32 = 32 ∨ (Rect.block (s := S100000x40) S2000x40.size (cc12_transform_1 i) (hinb12_1 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v2) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S2000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S2000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S2000x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S2000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S2000x40.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v79) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v9) S2000x40.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v93) S2000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v106) S2000x40.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S2000x40.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v107) S2000x40.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v120) S2000x40.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S2000x40.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v121) S2000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v134) S2000x40.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v9) S2000x40.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v135) S2000x40.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v148) S2000x40.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v9) S2000x40.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v149) S2000x40.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v149) S2000x40.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v150) S2000x40.size cc12_transform_1 reads12_1 true false 2 stage12_1 sem12_1
    hrank12 hreads12_1 hinb12_1 nbuf12_1 (Memref.isWhole_whole _) hwx12_1 hstage12_1

abbrev win12 : Fin 2 → Pipeline.Window sig grid12 := fun | 0 => win12_0 | 1 => win12_1 | ⟨_ + 2, h⟩ => absurd h (Nat.not_lt.2 (Nat.le_add_left _ _))
abbrev spec12 : Fin 2 → Pipeline.WinSpec sig grid12.rank := fun w => (win12 w).toWinSpec

class Facts : Prop extends Facts₀ where

variable [Facts]
-- ==== ReferenceIdeal.lean ====
abbrev S2000000 : Shape := ⟨1, ![2000000]⟩
abbrev S1600000 : Shape := ⟨1, ![1600000]⟩
abbrev S2048x64 : Shape := ⟨2, ![2048, 64]⟩
abbrev S64 : Shape := ⟨1, ![64]⟩
abbrev S64x40 : Shape := ⟨2, ![64, 40]⟩
abbrev S40 : Shape := ⟨1, ![40]⟩
abbrev S_ : Shape := ⟨0, ![]⟩
abbrev S2000000x1 : Shape := ⟨2, ![2000000, 1]⟩
abbrev S2000000x64 : Shape := ⟨2, ![2000000, 64]⟩
abbrev S100000x64 : Shape := ⟨2, ![100000, 64]⟩
abbrev S1x64 : Shape := ⟨2, ![1, 64]⟩
abbrev S100000x40 : Shape := ⟨2, ![100000, 40]⟩
abbrev S1x40 : Shape := ⟨2, ![1, 40]⟩
abbrev S1600000x1 : Shape := ⟨2, ![1600000, 1]⟩
abbrev S1600000x40 : Shape := ⟨2, ![1600000, 40]⟩
abbrev S100000 : Shape := ⟨1, ![100000]⟩
abbrev S100000x1 : Shape := ⟨2, ![100000, 1]⟩

abbrev nBuf : Space → Nat
  | .hbm => 291
  | .vmem => 0
  | .smem => 0
  | _ => 0

abbrev hbmTy0_0 (i : Nat) : BufTy := match i % 128 with
  | 0 => ⟨S2000000, .i32⟩
  | 1 => ⟨S2000000, .i32⟩
  | 2 => ⟨S2000000, .f32⟩
  | 3 => ⟨S1600000, .i32⟩
  | 4 => ⟨S1600000, .i32⟩
  | 5 => ⟨S1600000, .f32⟩
  | 6 => ⟨S2048x64, .f32⟩
  | 7 => ⟨S64, .f32⟩
  | 8 => ⟨S64x40, .f32⟩
  | 9 => ⟨S40, .f32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x64, .f32⟩
  | 19 => ⟨S2000000x1, .f32⟩
  | 20 => ⟨S2000000x64, .f32⟩
  | 21 => ⟨S2000000x64, .f32⟩
  | 22 => ⟨S_, .f32⟩
  | 23 => ⟨S100000x64, .f32⟩
  | 24 => ⟨S2000000x1, .i32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x40, .f32⟩
  | 33 => ⟨S1x40, .f32⟩
  | 34 => ⟨S100000x40, .f32⟩
  | 35 => ⟨S100000x40, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x40, .f32⟩
  | 45 => ⟨S1600000x1, .f32⟩
  | 46 => ⟨S1600000x40, .f32⟩
  | 47 => ⟨S1600000x40, .f32⟩
  | 48 => ⟨S_, .f32⟩
  | 49 => ⟨S100000x40, .f32⟩
  | 50 => ⟨S1600000x1, .i32⟩
  | 51 => ⟨S100000x40, .f32⟩
  | 52 => ⟨S_, .f32⟩
  | 53 => ⟨S100000x40, .f32⟩
  | 54 => ⟨S100000x40, .f32⟩
  | 55 => ⟨S_, .f32⟩
  | 56 => ⟨S100000x40, .f32⟩
  | 57 => ⟨S100000x40, .f32⟩
  | 58 => ⟨S100000x40, .f32⟩
  | 59 => ⟨S100000x40, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x40, .f32⟩
  | 69 => ⟨S1600000x1, .f32⟩
  | 70 => ⟨S1600000x40, .f32⟩
  | 71 => ⟨S1600000x40, .f32⟩
  | 72 => ⟨S_, .f32⟩
  | 73 => ⟨S100000x40, .f32⟩
  | 74 => ⟨S1600000x1, .i32⟩
  | 75 => ⟨S100000x40, .f32⟩
  | 76 => ⟨S_, .f32⟩
  | 77 => ⟨S100000x40, .f32⟩
  | 78 => ⟨S100000x40, .f32⟩
  | 79 => ⟨S_, .f32⟩
  | 80 => ⟨S100000x40, .f32⟩
  | 81 => ⟨S100000x40, .f32⟩
  | 82 => ⟨S100000x40, .f32⟩
  | 83 => ⟨S100000x40, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x40, .f32⟩
  | 93 => ⟨S1600000x1, .f32⟩
  | 94 => ⟨S1600000x40, .f32⟩
  | 95 => ⟨S1600000x40, .f32⟩
  | 96 => ⟨S_, .f32⟩
  | 97 => ⟨S100000x40, .f32⟩
  | 98 => ⟨S1600000x1, .i32⟩
  | 99 => ⟨S100000x40, .f32⟩
  | 100 => ⟨S_, .f32⟩
  | 101 => ⟨S100000x40, .f32⟩
  | 102 => ⟨S100000x40, .f32⟩
  | 103 => ⟨S_, .f32⟩
  | 104 => ⟨S100000x40, .f32⟩
  | 105 => ⟨S100000x40, .f32⟩
  | 106 => ⟨S100000x40, .f32⟩
  | 107 => ⟨S100000x40, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x40, .f32⟩
  | 117 => ⟨S1600000x1, .f32⟩
  | 118 => ⟨S1600000x40, .f32⟩
  | 119 => ⟨S1600000x40, .f32⟩
  | 120 => ⟨S_, .f32⟩
  | 121 => ⟨S100000x40, .f32⟩
  | 122 => ⟨S1600000x1, .i32⟩
  | 123 => ⟨S100000x40, .f32⟩
  | 124 => ⟨S_, .f32⟩
  | 125 => ⟨S100000x40, .f32⟩
  | 126 => ⟨S100000x40, .f32⟩
  | 127 => ⟨S_, .f32⟩
  | _ => ⟨S2000000, .i32⟩

abbrev hbmTy0_1 (i : Nat) : BufTy := match i % 128 with
  | 0 => ⟨S100000x40, .f32⟩
  | 1 => ⟨S100000x40, .f32⟩
  | 2 => ⟨S100000x40, .f32⟩
  | 3 => ⟨S100000x40, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x40, .f32⟩
  | 13 => ⟨S1600000x1, .f32⟩
  | 14 => ⟨S1600000x40, .f32⟩
  | 15 => ⟨S1600000x40, .f32⟩
  | 16 => ⟨S_, .f32⟩
  | 17 => ⟨S100000x40, .f32⟩
  | 18 => ⟨S1600000x1, .i32⟩
  | 19 => ⟨S100000x40, .f32⟩
  | 20 => ⟨S_, .f32⟩
  | 21 => ⟨S100000x40, .f32⟩
  | 22 => ⟨S100000x40, .f32⟩
  | 23 => ⟨S_, .f32⟩
  | 24 => ⟨S100000x40, .f32⟩
  | 25 => ⟨S100000x40, .f32⟩
  | 26 => ⟨S100000x40, .f32⟩
  | 27 => ⟨S100000x40, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x40, .f32⟩
  | 37 => ⟨S1600000x1, .f32⟩
  | 38 => ⟨S1600000x40, .f32⟩
  | 39 => ⟨S1600000x40, .f32⟩
  | 40 => ⟨S_, .f32⟩
  | 41 => ⟨S100000x40, .f32⟩
  | 42 => ⟨S1600000x1, .i32⟩
  | 43 => ⟨S100000x40, .f32⟩
  | 44 => ⟨S_, .f32⟩
  | 45 => ⟨S100000x40, .f32⟩
  | 46 => ⟨S100000x40, .f32⟩
  | 47 => ⟨S_, .f32⟩
  | 48 => ⟨S100000x40, .f32⟩
  | 49 => ⟨S100000x40, .f32⟩
  | 50 => ⟨S100000x40, .f32⟩
  | 51 => ⟨S100000x40, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x40, .f32⟩
  | 61 => ⟨S1600000x1, .f32⟩
  | 62 => ⟨S1600000x40, .f32⟩
  | 63 => ⟨S1600000x40, .f32⟩
  | 64 => ⟨S_, .f32⟩
  | 65 => ⟨S100000x40, .f32⟩
  | 66 => ⟨S1600000x1, .i32⟩
  | 67 => ⟨S100000x40, .f32⟩
  | 68 => ⟨S_, .f32⟩
  | 69 => ⟨S100000x40, .f32⟩
  | 70 => ⟨S100000x40, .f32⟩
  | 71 => ⟨S_, .f32⟩
  | 72 => ⟨S100000x40, .f32⟩
  | 73 => ⟨S100000x40, .f32⟩
  | 74 => ⟨S100000x40, .f32⟩
  | 75 => ⟨S100000x40, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x40, .f32⟩
  | 85 => ⟨S1600000x1, .f32⟩
  | 86 => ⟨S1600000x40, .f32⟩
  | 87 => ⟨S1600000x40, .f32⟩
  | 88 => ⟨S_, .f32⟩
  | 89 => ⟨S100000x40, .f32⟩
  | 90 => ⟨S1600000x1, .i32⟩
  | 91 => ⟨S100000x40, .f32⟩
  | 92 => ⟨S_, .f32⟩
  | 93 => ⟨S100000x40, .f32⟩
  | 94 => ⟨S100000x40, .f32⟩
  | 95 => ⟨S_, .f32⟩
  | 96 => ⟨S100000x40, .f32⟩
  | 97 => ⟨S100000x40, .f32⟩
  | 98 => ⟨S100000x40, .f32⟩
  | 99 => ⟨S100000x40, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x40, .f32⟩
  | 109 => ⟨S1600000x1, .f32⟩
  | 110 => ⟨S1600000x40, .f32⟩
  | 111 => ⟨S1600000x40, .f32⟩
  | 112 => ⟨S_, .f32⟩
  | 113 => ⟨S100000x40, .f32⟩
  | 114 => ⟨S1600000x1, .i32⟩
  | 115 => ⟨S100000x40, .f32⟩
  | 116 => ⟨S_, .f32⟩
  | 117 => ⟨S100000x40, .f32⟩
  | 118 => ⟨S100000x40, .f32⟩
  | 119 => ⟨S_, .f32⟩
  | 120 => ⟨S100000x40, .f32⟩
  | 121 => ⟨S100000x40, .f32⟩
  | 122 => ⟨S100000x40, .f32⟩
  | 123 => ⟨S100000x40, .f32⟩
  | 124 => ⟨S_, .i32⟩
  | 125 => ⟨S1600000, .i32⟩
  | 126 => ⟨S1600000, .i1⟩
  | 127 => ⟨S_, .i32⟩
  | _ => ⟨S2000000, .i32⟩

abbrev hbmTy0_2 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x40, .f32⟩
  | 5 => ⟨S1600000x1, .f32⟩
  | 6 => ⟨S1600000x40, .f32⟩
  | 7 => ⟨S1600000x40, .f32⟩
  | 8 => ⟨S_, .f32⟩
  | 9 => ⟨S100000x40, .f32⟩
  | 10 => ⟨S1600000x1, .i32⟩
  | 11 => ⟨S100000x40, .f32⟩
  | 12 => ⟨S_, .f32⟩
  | 13 => ⟨S100000x40, .f32⟩
  | 14 => ⟨S100000x40, .f32⟩
  | 15 => ⟨S_, .f32⟩
  | 16 => ⟨S100000x40, .f32⟩
  | 17 => ⟨S100000x40, .f32⟩
  | 18 => ⟨S100000x40, .f32⟩
  | 19 => ⟨S100000x40, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x40, .f32⟩
  | 27 => ⟨S100000x40, .f32⟩
  | 28 => ⟨S100000x40, .f32⟩
  | 29 => ⟨S_, .f32⟩
  | 30 => ⟨S100000, .f32⟩
  | 31 => ⟨S100000x1, .f32⟩
  | 32 => ⟨S100000x1, .f32⟩
  | 33 => ⟨S100000x40, .f32⟩
  | 34 => ⟨S100000x40, .f32⟩
  | _ => ⟨S2000000, .i32⟩

abbrev hbmTy (i : Nat) : BufTy := match i / 128 with
  | 0 => hbmTy0_0 i
  | 1 => hbmTy0_1 i
  | 2 => hbmTy0_2 i
  | _ => ⟨S2000000, .i32⟩

abbrev bufTy : (tb : Table) → Fin (tcTables nBuf tb) → BufTy
  | .hbm, ⟨i, _⟩ => hbmTy i
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_21 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_23 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_24 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_26 : Ref sig .tc := ⟨.hbm, 156, rfl⟩
abbrev main_v116 : Ref sig .tc := ⟨.hbm, 157, rfl⟩
abbrev main_v117 : Ref sig .tc := ⟨.hbm, 158, rfl⟩
abbrev main_c_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_28 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_v130 : Ref sig .tc := ⟨.hbm, 174, rfl⟩
abbrev main_cst_30 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_31 : Ref sig .tc := ⟨.hbm, 180, rfl⟩
abbrev main_v135 : Ref sig .tc := ⟨.hbm, 181, rfl⟩
abbrev main_v136 : Ref sig .tc := ⟨.hbm, 182, rfl⟩
abbrev main_c_32 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_33 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_34 : Ref sig .tc := ⟨.hbm, 196, rfl⟩
abbrev main_v148 : Ref sig .tc := ⟨.hbm, 197, rfl⟩
abbrev main_v149 : Ref sig .tc := ⟨.hbm, 198, rfl⟩
abbrev main_cst_35 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_36 : Ref sig .tc := ⟨.hbm, 204, rfl⟩
abbrev main_v154 : Ref sig .tc := ⟨.hbm, 205, rfl⟩
abbrev main_v155 : Ref sig .tc := ⟨.hbm, 206, rfl⟩
abbrev main_c_37 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_38 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_39 : Ref sig .tc := ⟨.hbm, 220, rfl⟩
abbrev main_v167 : Ref sig .tc := ⟨.hbm, 221, rfl⟩
abbrev main_v168 : Ref sig .tc := ⟨.hbm, 222, rfl⟩
abbrev main_cst_40 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_c_41 : Ref sig .tc := ⟨.hbm, 228, rfl⟩
abbrev main_v173 : Ref sig .tc := ⟨.hbm, 229, rfl⟩
abbrev main_v174 : Ref sig .tc := ⟨.hbm, 230, rfl⟩
abbrev main_c_42 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_43 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_44 : Ref sig .tc := ⟨.hbm, 244, rfl⟩
abbrev main_v186 : Ref sig .tc := ⟨.hbm, 245, rfl⟩
abbrev main_v187 : Ref sig .tc := ⟨.hbm, 246, rfl⟩
abbrev main_cst_45 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_c_46 : Ref sig .tc := ⟨.hbm, 252, rfl⟩
abbrev main_v192 : Ref sig .tc := ⟨.hbm, 253, rfl⟩
abbrev main_v193 : Ref sig .tc := ⟨.hbm, 254, rfl⟩
abbrev main_c_47 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_48 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_cst_49 : Ref sig .tc := ⟨.hbm, 268, rfl⟩
abbrev main_v205 : Ref sig .tc := ⟨.hbm, 269, rfl⟩
abbrev main_v206 : Ref sig .tc := ⟨.hbm, 270, rfl⟩
abbrev main_cst_50 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_call1_cst : Ref sig .tc := ⟨.hbm, 276, rfl⟩
abbrev main_call1_v0 : Ref sig .tc := ⟨.hbm, 277, rfl⟩
abbrev main_call1_cst_0 : Ref sig .tc := ⟨.hbm, 278, rfl⟩
abbrev main_call1_v1 : Ref sig .tc := ⟨.hbm, 279, rfl⟩
abbrev main_call1_v2 : Ref sig .tc := ⟨.hbm, 280, rfl⟩
abbrev main_call1_v3 : Ref sig .tc := ⟨.hbm, 281, rfl⟩
abbrev main_call1_v4 : Ref sig .tc := ⟨.hbm, 282, rfl⟩
abbrev main_call1_v5 : Ref sig .tc := ⟨.hbm, 283, rfl⟩
abbrev main_call1_v6 : Ref sig .tc := ⟨.hbm, 284, rfl⟩
abbrev main_call1_cst_1 : Ref sig .tc := ⟨.hbm, 285, rfl⟩
abbrev main_call1_v7 : Ref sig .tc := ⟨.hbm, 286, rfl⟩
abbrev main_call1_v8 : Ref sig .tc := ⟨.hbm, 287, rfl⟩
abbrev main_call1_v9 : Ref sig .tc := ⟨.hbm, 288, rfl⟩
abbrev main_call1_v10 : Ref sig .tc := ⟨.hbm, 289, rfl⟩
abbrev main_v211 : Ref sig .tc := ⟨.hbm, 290, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S2048x64_S2000000x1_S2000000x64_1_0_n_n_0_1_164_wf : GatherDims.WF S2048x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def gather_S2048x64_S2000000x1_S2000000x64_1_0_n_n_0_1_164 : GatherDims S2048x64 S2000000x1 S2000000x64 where
  offsetDims := [1]
  collapsedSliceDims := [0]
  operandBatchingDims := []
  startIndicesBatchingDims := []
  startIndexMap := [0]
  indexVectorDim := 1
  sliceSizes := ![1, 64]
  wf := gather_S2048x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The function both programs compute, index by index on the extended reals.

  A sparse feature matrix in coordinate form (row, column, value per entry) multiplies a dense table: entry e
  contributes value e times the table's row at column e to node row e (a segment sum). A bias and a rectifier
  follow, then a dense layer; ten propagation steps each mix a sparse neighbour sum of the current scores (weight
  9/10's float) with the dense layer's output (weight 1/10's float) under a hyperbolic tangent; a row-wise
  log-softmax closes. The two segment sums (over feature entries, over edges) and the edge gather are the same
  operations in both programs, so they enter here as two unopened functions `seg` and `edge`.
-/
import Idealize.ShloMosaic.PureOps.Ideal
import Idealize.ShloMosaic.Lib.ValueIdx
import Mathlib.Algebra.BigOperators.Group.Finset.Basic
import Mathlib.Logic.Function.Iterate

noncomputable section

open scoped BigOperators
open Idealize.ShloMosaic Idealize.ShloMosaic.ValueIdx

namespace Cert.Spec

abbrev Snnz : Shape := ⟨1, ![2000000]⟩
abbrev SnnzC : Shape := ⟨2, ![2000000, 64]⟩
abbrev Stab : Shape := ⟨2, ![2048, 64]⟩
abbrev Shid : Shape := ⟨2, ![100000, 64]⟩
abbrev Sb1 : Shape := ⟨1, ![64]⟩
abbrev Sw2 : Shape := ⟨2, ![64, 40]⟩
abbrev Sb2 : Shape := ⟨1, ![40]⟩
abbrev Sout : Shape := ⟨2, ![100000, 40]⟩

/-- The table row a column word names, for a word whose unsigned value is below 2048 (the remainder makes the
    function total; under the precondition it changes nothing). -/
def rowOfWord (w : BitVec 32) : Fin 2048 := ⟨w.toNat % 2048, Nat.mod_lt _ (by norm_num)⟩

/-- Entry e's contribution: the table's row at entry e's column, times entry e's value. -/
def gathered (cols : IVec Snnz 32) (vals : FVec Ideal Snnz .f32) (W1 : FVec Ideal Stab .f32) : FVec Ideal SnnzC .f32 :=
  fun j => W1 (ix2 (rowOfWord (cols (ix1 (j 0)))) (j 1)) * vals (ix1 (j 0))

/-- Bias, rectifier (a maximum with the zero word's value), the dense layer as a sum over the 64 hidden units, its bias. -/
def mlp (h : FVec Ideal Shid .f32) (b1 : FVec Ideal Sb1 .f32) (W2 : FVec Ideal Sw2 .f32) (b2 : FVec Ideal Sb2 .f32) :
    FVec Ideal Sout .f32 :=
  fun j => (∑ k : Fin 64, max (h (ix2 (j 0) k) + b1 (ix1 k)) (Ideal.ofBits .f32 0x00000000#32) * W2 (ix2 k (j 1))) + b2 (ix1 (j 1))

/-- One mixing step, pointwise: tanh of (the 9/10 word's value times the neighbour sum plus the 1/10 word's value
    times the dense output). -/
def combine (new h2 : FVec Ideal Sout .f32) : FVec Ideal Sout .f32 :=
  fun j => Ideal.tanh (Ideal.ofBits .f32 0x3F666666#32 * new j + Ideal.ofBits .f32 0x3DCCCCCD#32 * h2 j)

/-- A row's maximum, as the fold of max from the minus-infinity word's value over the row's 40 places. -/
def rowMax (p : FVec Ideal Sout .f32) (r : Fin 100000) : EReal :=
  (Finset.univ : Finset (Fin 40)).fold max (Ideal.ofBits .f32 0xFF800000#32) (fun k => p (ix2 r k))

/-- Row-wise log-softmax: the entry less the row's maximum, less the logarithm of the row's sum of exponentials of
    the same differences. -/
def logSoftmax (p : FVec Ideal Sout .f32) : FVec Ideal Sout .f32 :=
  fun j => (p j - rowMax p (j 0)) - Ideal.log (∑ k : Fin 40, Ideal.exp (p (ix2 (j 0) k) - rowMax p (j 0)))

/-- The whole network over the two unopened sparse operations. -/
def network (seg : FVec Ideal SnnzC .f32 → FVec Ideal Shid .f32) (edge : FVec Ideal Sout .f32 → FVec Ideal Sout .f32)
    (cols : IVec Snnz 32) (vals : FVec Ideal Snnz .f32) (W1 : FVec Ideal Stab .f32)
    (b1 : FVec Ideal Sb1 .f32) (W2 : FVec Ideal Sw2 .f32) (b2 : FVec Ideal Sb2 .f32) : FVec Ideal Sout .f32 :=
  let h2 := mlp (seg (gathered cols vals W1)) b1 W2 b2
  logSoftmax ((fun p => combine (edge p) h2)^[10] h2)

end Cert.Spec

end
-- ==== Proof.Region0.lean ====
/-
  Region 0, the feature gather, as one function of the arrays it finds. Each grid point takes 512 entries: it
  compares every table row number 0 … 2047 with the entry's column word, so the 0/1 row it builds has its single
  one at the column; the product of that row with the table is the table's row at the column, and the entry's
  value multiplies it. The 3907 blocks of 512 rows tile the 2000384 rows exactly.

  The order of the argument: the block product read at an index as a sum over the 2048 table rows; the 0/1 matrix
  read at an index as an `if` on "row number = column word"; the sum against a 0/1 row collapsing to its one
  surviving term (on the extended reals 0 · x = 0 and 1 · x = x for every x, infinite ones included, so nothing
  is asked of the table's entries); then each window's block at a grid point read off its array (block t of the
  column words and of the values is rows 512 t … 512 t + 511, the table's block is the table), what a point
  writes back as block t of the whole-array function, and the cover: row e lies in the block of point e / 512.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The region's result as one function of the table, the column words and the values: row e is the table's row
    at entry e's column, times entry e's value. -/
def gatherRows (W1 : FVec Ideal S2048x64 .f32) (cols : IVec S2000384x1 32) (vals : FVec Ideal S2000384x1 .f32) :
    FVec Ideal S2000384x64 .f32 :=
  fun j => W1 (ix2 (Cert.Spec.rowOfWord (cols (ix2 (j 0) 0))) (j 1)) * vals (ix2 (j 0) 0)

theorem gatherRows_apply (W1 : FVec Ideal S2048x64 .f32) (cols : IVec S2000384x1 32) (vals : FVec Ideal S2000384x1 .f32)
    (j : S2000384x64.Idx) :
    gatherRows W1 cols vals j = W1 (ix2 (Cert.Spec.rowOfWord (cols (ix2 (j 0) 0))) (j 1)) * vals (ix2 (j 0) 0) := rfl

namespace Region0

/-! ## The product's operand indices

The product contracts axis 1 of the [512,2048] operand against axis 0 of the [2048,64] one: at output index (r, k)
and contraction position q the left operand is read at (r, q) and the right at (q, k). One lemma per operand axis. -/

theorem lhs_dot_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem lhs_dot_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_dot_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_dot_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The block product into the zero accumulator, at (r, k): the sum over the 2048 table rows. -/
theorem matmul_at (A : FVec Ideal S512x2048 .bf16) (B : FVec Ideal S2048x64 .bf16) (r : Fin 512) (k : Fin 64) :
    FloatOps.matmul dot_S512x2048_S2048x64_S512x64_1_0_0_1_n_n none A B (constant (F := Ideal) S512x64 .f32 0x00000000#32) (ix2 r k)
      = ∑ q : Fin 2048, A (ix2 r q) * B (ix2 q k) := by
  rw [Ideal.matmul_constant_zero_apply,
    ← Equiv.sum_comp (contrEquiv1 dot_S512x2048_S2048x64_S512x64_1_0_0_1_n_n 2048 rfl rfl).symm]
  refine Finset.sum_congr rfl fun q _ => ?_
  have hq := contrEquiv1_symm_val dot_S512x2048_S2048x64_S512x64_1_0_0_1_n_n 2048 rfl rfl q
  have el : dot_S512x2048_S2048x64_S512x64_1_0_0_1_n_n.lhsIdx (ix2 r k)
      ((contrEquiv1 dot_S512x2048_S2048x64_S512x64_1_0_0_1_n_n 2048 rfl rfl).symm q) = ix2 r q :=
    funext fun a => Fin.ext (by
      match a with
      | ⟨0, _⟩ => exact lhs_dot_0 _ _
      | ⟨1, _⟩ => exact (lhs_dot_1 _ _).trans hq)
  have er : dot_S512x2048_S2048x64_S512x64_1_0_0_1_n_n.rhsIdx (ix2 r k)
      ((contrEquiv1 dot_S512x2048_S2048x64_S512x64_1_0_0_1_n_n 2048 rfl rfl).symm q) = ix2 q k :=
    funext fun a => Fin.ext (by
      match a with
      | ⟨0, _⟩ => exact (rhs_dot_0 _ _).trans hq
      | ⟨1, _⟩ => exact rhs_dot_1 _ _)
  rw [el, er]

/-! ## The pieces of the payload at an index -/

/-- A column [512,1] broadcast along axis 1 reads the column's entry of the same row. -/
theorem colBroadcast_apply {α : Type} {m : Nat} (x : S512x1.Idx → α) (h : S512x1.Broadcasts ⟨2, ![512, m]⟩)
    (r : Fin 512) (k : Fin m) : broadcastTo ⟨2, ![512, m]⟩ x h (ix2 r k) = x (ix2 r 0) := by
  refine broadcastTo_apply x h (ix2 r k) (ix2 r 0) fun a => ?_
  match a with
  | ⟨0, _⟩ => rfl
  | ⟨1, _⟩ => rfl

/-- Comparing a row number with a column word and selecting between two values is the `if` on their equality. -/
theorem select_eq_word {α : Type} (q : Nat) (w : BitVec 32) (a b : α) :
    Scalar.select (IntOp.cmpi .eq (BitVec.ofNat 32 q) w) a b = if BitVec.ofNat 32 q = w then a else b := by
  by_cases h : BitVec.ofNat 32 q = w
  · have hc : IntOp.cmpi .eq (BitVec.ofNat 32 q) w = 1#1 := by
      show BitVec.ofBool (BitVec.ofNat 32 q == w) = 1#1
      rw [beq_iff_eq.mpr h]; rfl
    rw [hc, if_pos h]; exact select_one a b
  · have hc : IntOp.cmpi .eq (BitVec.ofNat 32 q) w = 0#1 := by
      show BitVec.ofBool (BitVec.ofNat 32 q == w) = 0#1
      rw [beq_eq_false_iff_ne.mpr h]; rfl
    rw [hc, if_neg h]; exact select_zero a b

/-- The 0/1 matrix the body builds from its column words: row r has the one-word where the table row number is
    row r's column word, the zero-word elsewhere. -/
abbrev oneHotMat (x0 : Vec Ideal S512x1 .i32) : FVec Ideal S512x2048 .bf16 :=
  truncf .bf16 (select (cmpi .eq (iota .tc S512x2048 32 [1] iota_S512x2048_d1_w32)
      (broadcastTo S512x2048 (shapeCast S512x1 x0 shapeCasts_S512x1_S512x1) broadcasts_S512x1_S512x2048))
      (broadcast S512x2048 (Scalar.ofBits (F := Ideal) .f32 0x3F800000#32))
      (broadcast S512x2048 (Scalar.ofBits (F := Ideal) .f32 0x00000000#32))) bitsLt_bf16_f32

/-- That matrix at (r, q), as extended reals. -/
theorem oneHot_apply (x0 : Vec Ideal S512x1 .i32) (r : Fin 512) (q : Fin 2048) :
    oneHotMat x0 (ix2 r q) = if BitVec.ofNat 32 q.val = x0 (ix2 r 0) then (1 : EReal) else 0 := by
  have h1 : Ideal.ofBits .f32 0x3F800000#32 = 1 := IdealRules.sign_bit.ideal_onePat .f32
  show Scalar.select (IntOp.cmpi .eq (iota .tc S512x2048 32 [1] iota_S512x2048_d1_w32 (ix2 r q))
      (broadcastTo S512x2048 (shapeCast S512x1 x0 shapeCasts_S512x1_S512x1) broadcasts_S512x1_S512x2048 (ix2 r q)))
      (Ideal.ofBits .f32 0x3F800000#32) (Ideal.ofBits .f32 0x00000000#32) = _
  rw [iota_single_apply, shapeCast_self, colBroadcast_apply, select_eq_word, h1, Ideal.ofBits_zero_f32]

/-- A sum over the table rows against that 0/1 row keeps the one term at the column word's row. -/
theorem sum_oneHot (w : BitVec 32) (hw : w.toNat < 2048) (T : Fin 2048 → EReal) :
    ∑ q : Fin 2048, (if BitVec.ofNat 32 q.val = w then (1 : EReal) else 0) * T q = T (Cert.Spec.rowOfWord w) := by
  have hrow : (Cert.Spec.rowOfWord w).val = w.toNat := Nat.mod_eq_of_lt hw
  have hback : BitVec.ofNat 32 (Cert.Spec.rowOfWord w).val = w :=
    BitVec.eq_of_toNat_eq (by rw [hrow, BitVec.toNat_ofNat]; exact Nat.mod_eq_of_lt (by omega))
  rw [Finset.sum_eq_single (Cert.Spec.rowOfWord w)]
  · rw [if_pos hback, one_mul]
  · intro q _ hq
    rw [if_neg, zero_mul]
    intro h
    apply hq
    apply Fin.ext
    rw [hrow, ← h, BitVec.toNat_ofNat]
    exact (Nat.mod_eq_of_lt (by have := q.isLt; omega)).symm
  · intro h; exact absurd (Finset.mem_univ _) h

/-- THE BODY'S PAYLOAD at (r, k): the table's row at row r's column word, at place k, times row r's value. -/
theorem pay_apply (x0 : Vec Ideal S512x1 .i32) (x1 : Vec Ideal S512x1 .f32) (x2 : Vec Ideal S2048x64 .f32)
    (r : Fin 512) (k : Fin 64) (hw : (x0 (ix2 r 0)).toNat < 2048) :
    (k0_pay1 (F := Ideal) x0 x1 x2) (ix2 r k) = x2 (ix2 (Cert.Spec.rowOfWord (x0 (ix2 r 0))) k) * x1 (ix2 r 0) := by
  unfold k0_pay1
  show FloatOps.matmul dot_S512x2048_S2048x64_S512x64_1_0_0_1_n_n none (oneHotMat x0)
      (truncf .bf16 x2 bitsLt_bf16_f32 : FVec Ideal S2048x64 .bf16)
      (constant (F := Ideal) S512x64 .f32 0x00000000#32) (ix2 r k)
    * broadcastTo S512x64 (shapeCast S512x1 x1 shapeCasts_S512x1_S512x1) broadcasts_S512x1_S512x64 (ix2 r k) = _
  rw [matmul_at]
  refine congrArg₂ (· * ·) ?_ ?_
  · refine (Finset.sum_congr rfl fun q _ => congrArg (· * x2 (ix2 q k)) (oneHot_apply x0 r q)).trans ?_
    exact sum_oneHot (x0 (ix2 r 0)) hw fun q => x2 (ix2 q k)
  · rw [shapeCast_self]
    exact colBroadcast_apply x1 _ r k

/-! ## From blocks to the array -/

theorem hz : (![0, 0] : Fin 2 → Nat) = fun _ => 0 := funext fun a => by fin_cases a <;> rfl

/-- The printed index maps, decided once over the grid: point t takes block t of the column words, of the values
    and of the output along the rows, the one block along the other axis; the table's block is always block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The column words' block at point t, row r, is the column word of entry 512 t + r. -/
theorem cols_blk (c : Dev nD) (t : Fin cfg0.N) (r : Fin 512) (e : Fin 2000384) (he : e.val = 512 * t.val + r.val) :
    (iblk0 V c 0 t : Vec Ideal S512x1 .i32) (ix2 r 0) = (V c main_v2 : IVec S2000384x1 32) (ix2 e 0) := by
  obtain ⟨e0, e1, -⟩ := idx_facts0 t
  unfold iblk0
  rw [View.read_apply]
  show V c main_v2 _ = V c main_v2 _
  congr 1
  funext a
  apply Fin.ext
  match a with
  | ⟨0, _⟩ => show win0_0.index t (0 : Fin 2) * 512 + 1 * r.val = e.val; rw [e0, he]; omega
  | ⟨1, _⟩ => show win0_0.index t (1 : Fin 2) * 1 + 1 * 0 = 0; rw [e1]

/-- The values' block at point t, row r, is the value of entry 512 t + r. -/
theorem vals_blk (c : Dev nD) (t : Fin cfg0.N) (r : Fin 512) (e : Fin 2000384) (he : e.val = 512 * t.val + r.val) :
    (iblk0 V c 1 t : Vec Ideal S512x1 .f32) (ix2 r 0) = (V c main_v3 : FVec Ideal S2000384x1 .f32) (ix2 e 0) := by
  obtain ⟨-, -, e2, e3, -⟩ := idx_facts0 t
  unfold iblk0
  rw [View.read_apply]
  show V c main_v3 _ = V c main_v3 _
  congr 1
  funext a
  apply Fin.ext
  match a with
  | ⟨0, _⟩ => show win0_1.index t (0 : Fin 2) * 512 + 1 * r.val = e.val; rw [e2, he]; omega
  | ⟨1, _⟩ => show win0_1.index t (1 : Fin 2) * 1 + 1 * 0 = 0; rw [e3]

/-- The table's block at every point is the table. -/
theorem tab_blk (c : Dev nD) (t : Fin cfg0.N) (q : Fin 2048) (k : Fin 64) :
    (iblk0 V c 2 t : Vec Ideal S2048x64 .f32) (ix2 q k) = (V c main_arg6 : FVec Ideal S2048x64 .f32) (ix2 q k) := by
  obtain ⟨-, -, -, -, e4, e5, -⟩ := idx_facts0 t
  unfold iblk0
  rw [View.read_apply]
  show V c main_arg6 _ = V c main_arg6 _
  congr 1
  funext a
  apply Fin.ext
  match a with
  | ⟨0, _⟩ => show win0_2.index t (0 : Fin 2) * 2048 + 1 * q.val = q.val; rw [e4]; omega
  | ⟨1, _⟩ => show win0_2.index t (1 : Fin 2) * 64 + 1 * k.val = k.val; rw [e5]; omega

/-- WHAT POINT t WRITES BACK is block t of `gatherRows` of the arrays the region finds, when every column word it
    sees is below 2048. -/
theorem flushed0_eq (c : Dev nD)
    (hcols : ∀ e : Fin 2000384, ((V c main_v2 : IVec S2000384x1 32) (ix2 e 0)).toNat < 2048) (t : Fin cfg0.N) :
    (dat0 (F := Ideal) V c).flushed 3 t
      = ((cfg0.win 3).blk t).view.read (Elt Ideal) (gatherRows (V c main_arg6) (V c main_v2) (V c main_v3)) := by
  show (cfg0.win 3).cut (grid0.coords t) ((dat0 V c).after 3 t) = _
  rw [after0_3]
  unfold out0_3
  rw [View.canon_unit_zero hz]
  simp only [View.ld_unit_zero (S := S512x1) hz, View.ld_unit_zero (S := S2048x64) hz]
  funext j
  obtain ⟨r, k, rfl⟩ : ∃ (r : Fin 512) (k : Fin 64), j = ix2 r k := ⟨j 0, j 1, eq_ix2 j⟩
  have hN : grid0.N = 3907 := N_0
  have htN : t.val < grid0.N := t.isLt
  have hlt : 512 * t.val + r.val < 2000384 := by have := r.isLt; omega
  obtain ⟨-, -, -, -, -, -, e6, e7⟩ := idx_facts0 t
  have hemb : ((cfg0.win 3).blk t).view.emb (ix2 r k) = (ix2 ⟨512 * t.val + r.val, hlt⟩ k : S2000384x64.Idx) := by
    funext a
    apply Fin.ext
    match a with
    | ⟨0, _⟩ => show win0_3.index t (0 : Fin 2) * 512 + 1 * r.val = 512 * t.val + r.val; rw [e6]; omega
    | ⟨1, _⟩ => show win0_3.index t (1 : Fin 2) * 64 + 1 * k.val = k.val; rw [e7]; omega
  show k0_pay1 (F := Ideal) (iblk0 V c 0 t) (iblk0 V c 1 t) (iblk0 V c 2 t) (ix2 r k)
    = gatherRows (V c main_arg6) (V c main_v2) (V c main_v3) (((cfg0.win 3).blk t).view.emb (ix2 r k))
  have hw : ((iblk0 V c 0 t : Vec Ideal S512x1 .i32) (ix2 r 0)).toNat < 2048 := by
    rw [cols_blk V c t r ⟨512 * t.val + r.val, hlt⟩ rfl]; exact hcols _
  refine (pay_apply (iblk0 V c 0 t) (iblk0 V c 1 t) (iblk0 V c 2 t) r k hw).trans ?_
  rw [cols_blk V c t r ⟨512 * t.val + r.val, hlt⟩ rfl, vals_blk V c t r ⟨512 * t.val + r.val, hlt⟩ rfl, tab_blk V c t _ k,
    hemb, gatherRows_apply]

/-- An index of the output array is in point t's block iff each coordinate is in the block's range on its axis. -/
theorem mem_blk0 (t : Fin cfg0.N) (i : S2000384x64.Idx) :
    i ∈ ((cfg0.win 3).blk t).view.set
      ↔ ∀ a : Fin 2, win0_3.index t a * S512x64.size a ≤ (i a).val ∧ (i a).val < win0_3.index t a * S512x64.size a + S512x64.size a := by
  show i ∈ ((View.whole main_v4).slice (win0_3.rect t)).set ↔ _
  rw [View.set_slice_whole, Rect.mem_set_unit]
  exact Iff.rfl

/-- THE COVER: row e of the output lies in the block of point e / 512, and every point writes back. -/
theorem cover0 (i : S2000384x64.Idx) :
    ∃ t : Fin cfg0.N, (cfg0.win 3).flush t = true ∧ i ∈ ((cfg0.win 3).blk t).view.set := by
  have hi0 : (i 0).val < 2000384 := (i 0).isLt
  have hi1 : (i 1).val < 64 := (i 1).isLt
  have hN : grid0.N = 3907 := N_0
  have ht : (i 0).val / 512 < cfg0.N := by show (i 0).val / 512 < grid0.N; omega
  obtain ⟨-, -, -, -, -, -, e6, e7⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 64 ≤ (i 1).val
      ∧ (i 1).val < win0_3.index ⟨(i 0).val / 512, ht⟩ (1 : Fin 2) * 64 + 64
    rw [e7]; omega

end Region0

/-- The output array after the region: row e is the table's row at entry e's column times entry e's value, for
    column words below 2048 (unsigned). -/
theorem final0 (c : Dev nD)
    (hcols : ∀ e : Fin 2000384, ((V c main_v2 : IVec S2000384x1 32) (ix2 e 0)).toNat < 2048) :
    ((dat0 (F := Ideal) V c).arrAt 3 cfg0.N : FVec Ideal S2000384x64 .f32)
      = gatherRows (V c main_arg6) (V c main_v2) (V c main_v3) :=
  (dat0 (F := Ideal) V c).arrAt_eq_of_cover 3 (gatherRows (V c main_arg6) (V c main_v2) (V c main_v3))
    (fun t _ => Region0.flushed0_eq V c hcols t) Region0.cover0

end Cert.KernelIdeal.Val

end
-- ==== Proof.Region1.lean ====
/-
  Region 1, the dense head, as one function of the arrays it finds: per block of 2000 node rows, the bias is
  added, the rectifier is a maximum with zero, and the product with the 64 x 40 weights is a sum over the 64
  hidden units; the second bias is added. The 50 blocks tile the 100000 rows exactly.

  The argument has three parts.
  (1) One block's payload at a place (r, j). The first bias, cast to a single row and spread over the 2000 rows,
      reads the bias of its column; the rectifier is pointwise; the change of float format on the way into the
      product is the identity on extended reals; the product into the zero accumulator is the sum over the one
      contracted axis, whose positions are the 64 hidden units, of the left operand at (r, k) times the right at
      (k, j); the second bias is spread and added like the first. The zero the rectifier compares with stays the
      value of the zero word, never evaluated, as the specification has it.
  (2) The blocks. Over the 50 grid points the row windows (hidden rows in, result rows out) sit at block row t and
      column block 0, so row p of either block is row 2000 t + p of its array; the two biases and the weights are
      single blocks at index 0, that is the whole arrays. Hence what point t writes back is rows 2000 t to
      2000 t + 1999 of the dense head of the whole arrays.
  (3) The cover. Row r lies in the block of point r / 2000, every point writes back, and so the array after the
      region is the dense head everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-! The auxiliary facts live in a namespace of their own; only the region's closed form is stated beside the other
    regions'. -/
namespace DenseHead

/-! ## The product's operand indices, axis by axis

At output place (r, j) and contraction position q the left operand is read at (r, q) and the right at (q, j). -/

theorem lhs_dense_0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide),
    dif_pos (show (0 : Fin S2000x64.rank) ∈ dot_S2000x64_S64x40_S2000x40_1_0_0_1_n_n.lhsNonContracting by decide)]
  rfl

theorem lhs_dense_1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q

theorem rhs_dense_0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q

theorem rhs_dense_1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide),
    dif_pos (show (1 : Fin S64x40.rank) ∈ dot_S2000x64_S64x40_S2000x40_1_0_0_1_n_n.rhsNonContracting by decide)]
  rfl

/-- The product of a 2000 x 64 block with the 64 x 40 weights into the zero accumulator, at place (r, j): the sum
    over the 64 hidden units of the block's entry (r, k) times the weight (k, j). -/
theorem dense_product_apply (a : FVec Ideal S2000x64 .bf16) (b : FVec Ideal S64x40 .bf16) (r : Fin 2000) (j : Fin 40) :
    matmul dot_S2000x64_S64x40_S2000x40_1_0_0_1_n_n none a b (constant (F := Ideal) S2000x40 .f32 0x00000000#32) (ix2 r j)
      = ∑ k : Fin 64, a (ix2 r k) * b (ix2 k j) := by
  show FloatOps.matmul dot_S2000x64_S64x40_S2000x40_1_0_0_1_n_n none a b (constant (F := Ideal) S2000x40 .f32 0x00000000#32) (ix2 r j) = _
  rw [Ideal.matmul_constant_zero_apply,
    ← Equiv.sum_comp (contrEquiv1 dot_S2000x64_S64x40_S2000x40_1_0_0_1_n_n 64 rfl rfl).symm]
  refine Finset.sum_congr rfl fun k _ => ?_
  have hk := contrEquiv1_symm_val dot_S2000x64_S64x40_S2000x40_1_0_0_1_n_n 64 rfl rfl k
  have el : dot_S2000x64_S64x40_S2000x40_1_0_0_1_n_n.lhsIdx (ix2 r j)
      ((contrEquiv1 dot_S2000x64_S64x40_S2000x40_1_0_0_1_n_n 64 rfl rfl).symm k) = ix2 r k :=
    funext fun ax => Fin.ext (by
      match ax with
      | ⟨0, _⟩ => exact lhs_dense_0 _ _
      | ⟨1, _⟩ => exact (lhs_dense_1 _ _).trans hk)
  have er : dot_S2000x64_S64x40_S2000x40_1_0_0_1_n_n.rhsIdx (ix2 r j)
      ((contrEquiv1 dot_S2000x64_S64x40_S2000x40_1_0_0_1_n_n 64 rfl rfl).symm k) = ix2 k j :=
    funext fun ax => Fin.ext (by
      match ax with
      | ⟨0, _⟩ => exact (rhs_dense_0 _ _).trans hk
      | ⟨1, _⟩ => exact rhs_dense_1 _ _)
  rw [el, er]

/-! ## The block's payload at a place -/

/-- The first bias, cast to one row and spread over the 2000 rows, reads the bias of the column. -/
theorem bias1_rows_apply (x1 : FVec Ideal S64 .f32) (r : Fin 2000) (k : Fin 64) :
    broadcastTo S2000x64 (shapeCast S1x64 x1 shapeCasts_S64_S1x64) broadcasts_S1x64_S2000x64 (ix2 r k) = x1 (ix1 k) :=
  (broadcastTo_1b_ab_apply _ broadcasts_S1x64_S2000x64 r k).trans (shapeCast_a_1a_apply x1 shapeCasts_S64_S1x64 0 k)

/-- The second bias likewise over the 40 output columns. -/
theorem bias2_rows_apply (x3 : FVec Ideal S40 .f32) (r : Fin 2000) (j : Fin 40) :
    broadcastTo S2000x40 (shapeCast S1x40 x3 shapeCasts_S40_S1x40) broadcasts_S1x40_S2000x40 (ix2 r j) = x3 (ix1 j) :=
  (broadcastTo_1b_ab_apply _ broadcasts_S1x40_S2000x40 r j).trans (shapeCast_a_1a_apply x3 shapeCasts_S40_S1x40 0 j)

/-- What one grid point stores, at row r of its block and column j: the rectified biased row times the weights'
    column, summed over the hidden units, plus the second bias. -/
theorem dense_pay_apply (x0 : FVec Ideal S2000x64 .f32) (x1 : FVec Ideal S64 .f32) (x2 : FVec Ideal S64x40 .f32)
    (x3 : FVec Ideal S40 .f32) (r : Fin 2000) (j : Fin 40) :
    (k1_pay1 (F := Ideal) x0 x1 x2 x3) (ix2 r j)
      = (∑ k : Fin 64, max (x0 (ix2 r k) + x1 (ix1 k)) (Ideal.ofBits .f32 0x00000000#32) * x2 (ix2 k j)) + x3 (ix1 j) := by
  unfold k1_pay1
  refine (addf_apply _ _ (ix2 r j)).trans ?_
  refine congrArg₂ (· + ·) ?_ (bias2_rows_apply x3 r j)
  refine (dense_product_apply _ _ r j).trans ?_
  refine Finset.sum_congr rfl fun k _ => ?_
  refine congrArg₂ (· * ·) ?_ rfl
  show max (shapeCast S2000x64 x0 shapeCasts_S2000x64_S2000x64 (ix2 r k)
      + broadcastTo S2000x64 (shapeCast S1x64 x1 shapeCasts_S64_S1x64) broadcasts_S1x64_S2000x64 (ix2 r k))
      (Ideal.ofBits .f32 0x00000000#32) = _
  rw [shapeCast_self, bias1_rows_apply]

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 50 grid points: the row windows (segment sums in, result out) are at block row t,
    column block 0; the two biases and the weights are whole arrays at block 0. -/
theorem block_indices : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p, column k of the segment sums' block at point t is row 2000 t + p of the array. -/
theorem seg_block_apply (c : Dev nD) (t : Fin cfg1.N) (p : Fin 2000) (k : Fin 64) (R : Fin 100000)
    (hR : R.val = 2000 * t.val + p.val) :
    (iblk1 V c 0 t : Vec Ideal S2000x64 .f32) (ix2 p k) = (V c main_v8 : S100000x64.Idx → EReal) (ix2 R k) := by
  obtain ⟨e0, e1, -⟩ := block_indices t
  unfold iblk1
  rw [View.read_apply]
  show V c main_v8 _ = V c main_v8 _
  refine congrArg _ (funext fun a => Fin.ext ?_)
  match a with
  | ⟨0, _⟩ => show win1_0.index t (0 : Fin 2) * 2000 + 1 * p.val = R.val; rw [e0, hR]; omega
  | ⟨1, _⟩ => show win1_0.index t (1 : Fin 2) * 64 + 1 * k.val = k.val; rw [e1]; omega

/-- The first bias's block at every point is the whole array. -/
theorem bias1_block (c : Dev nD) (t : Fin cfg1.N) : (iblk1 V c 1 t : Vec Ideal S64 .f32) = V c main_arg7 := by
  obtain ⟨-, -, e, -⟩ := block_indices t
  funext y
  unfold iblk1
  rw [View.read_apply]
  show V c main_arg7 _ = V c main_arg7 _
  refine congrArg _ (funext fun a => Fin.ext ?_)
  match a with
  | ⟨0, _⟩ => show win1_1.index t (0 : Fin 1) * 64 + 1 * (y 0).val = (y 0).val; rw [e]; omega

/-- The weights' block at every point is the whole array. -/
theorem weights_block (c : Dev nD) (t : Fin cfg1.N) : (iblk1 V c 2 t : Vec Ideal S64x40 .f32) = V c main_arg8 := by
  obtain ⟨-, -, -, e0, e1, -⟩ := block_indices t
  funext y
  unfold iblk1
  rw [View.read_apply]
  show V c main_arg8 _ = V c main_arg8 _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 40 + 1 * (y 1).val = (y 1).val; rw [e1]; omega

/-- The second bias's block at every point is the whole array. -/
theorem bias2_block (c : Dev nD) (t : Fin cfg1.N) : (iblk1 V c 3 t : Vec Ideal S40 .f32) = V c main_arg9 := by
  obtain ⟨-, -, -, -, -, e, -⟩ := block_indices t
  funext y
  unfold iblk1
  rw [View.read_apply]
  show V c main_arg9 _ = V c main_arg9 _
  refine congrArg _ (funext fun a => Fin.ext ?_)
  match a with
  | ⟨0, _⟩ => show win1_3.index t (0 : Fin 1) * 40 + 1 * (y 0).val = (y 0).val; rw [e]; omega

/-- A block whose row p is row R of the hidden array has, at row p, the dense head of the whole arrays at row R. -/
theorem dense_rows (h : FVec Ideal S100000x64 .f32) (b1 : FVec Ideal S64 .f32) (W2 : FVec Ideal S64x40 .f32)
    (b2 : FVec Ideal S40 .f32) (x0 : FVec Ideal S2000x64 .f32) (p : Fin 2000) (j : Fin 40) (R : Fin 100000)
    (hx : ∀ k : Fin 64, x0 (ix2 p k) = h (ix2 R k)) :
    k1_pay1 (F := Ideal) x0 b1 W2 b2 (ix2 p j) = Cert.Spec.mlp h b1 W2 b2 (ix2 R j) := by
  refine (dense_pay_apply x0 b1 W2 b2 p j).trans ?_
  show _ = (∑ k : Fin 64, max (h (ix2 R k) + b1 (ix1 k)) (Ideal.ofBits .f32 0x00000000#32) * W2 (ix2 k j)) + b2 (ix1 j)
  refine congrArg₂ (· + ·) (Finset.sum_congr rfl fun k _ => ?_) rfl
  rw [hx k]

/-- What point t computes at row p of its block is the dense head of the whole arrays at row 2000 t + p. -/
theorem point_rows (c : Dev nD) (t : Fin cfg1.N) (p : Fin 2000) (j : Fin 40) (R : Fin 100000)
    (hR : R.val = 2000 * t.val + p.val) :
    k1_pay1 (F := Ideal) (iblk1 V c 0 t) (V c main_arg7) (V c main_arg8) (V c main_arg9) (ix2 p j)
      = Cert.Spec.mlp (V c main_v8) (V c main_arg7) (V c main_arg8) (V c main_arg9) (ix2 R j) :=
  dense_rows (V c main_v8) (V c main_arg7) (V c main_arg8) (V c main_arg9) (iblk1 V c 0 t) p j R
    fun k => seg_block_apply V c t p k R hR

/-- Row p, column j of the output's block at point t sits at row 2000 t + p, column j of the array. -/
theorem out_block_emb (t : Fin cfg1.N) (p : Fin 2000) (j : Fin 40) (R : Fin 100000) (hR : R.val = 2000 * t.val + p.val) :
    ((cfg1.win 4).blk t).view.emb (ix2 p j) = (ix2 R j : S100000x40.Idx) := by
  obtain ⟨-, -, -, -, -, -, e0, e1⟩ := block_indices t
  refine funext fun a => Fin.ext ?_
  match a with
  | ⟨0, _⟩ => show win1_4.index t (0 : Fin 2) * 2000 + 1 * p.val = R.val; rw [e0, hR]; omega
  | ⟨1, _⟩ => show win1_4.index t (1 : Fin 2) * 40 + 1 * j.val = j.val; rw [e1]; omega

/-- What point t writes back is block t of the dense head of the arrays the region finds. -/
theorem flushed_dense (c : Dev nD) (t : Fin cfg1.N) :
    (dat1 (F := Ideal) V c).flushed 4 t
      = ((cfg1.win 4).blk t).view.read (Elt Ideal)
          (Cert.Spec.mlp (V c main_v8) (V c main_arg7) (V c main_arg8) (V c main_arg9)) := by
  show (cfg1.win 4).cut (grid1.coords t) ((dat1 V c).after 4 t) = _
  rw [after1_4]
  unfold out1_4
  rw [View.canon_unit_zero zeros2]
  simp only [View.ld_unit_zero (S := S2000x64) zeros2, View.ld_unit_zero (S := S64) zeros1,
    View.ld_unit_zero (S := S64x40) zeros2, View.ld_unit_zero (S := S40) zeros1]
  rw [bias1_block, weights_block, bias2_block]
  funext y
  obtain ⟨p, j, rfl⟩ : ∃ (p : Fin 2000) (j : Fin 40), y = ix2 p j := ⟨y 0, y 1, eq_ix2 y⟩
  have hN : cfg1.N = 50 := N_1
  have hR : 2000 * t.val + p.val < 100000 := by have := t.isLt; omega
  exact (point_rows V c t p j ⟨_, hR⟩ rfl).trans (congrArg _ (out_block_emb t p j ⟨_, hR⟩ rfl).symm)

/-- An index of the output array is in point t's block iff each coordinate is in the block's range on its axis. -/
theorem mem_out_block (t : Fin cfg1.N) (i : S100000x40.Idx) :
    i ∈ ((cfg1.win 4).blk t).view.set ↔ ∀ a : Fin 2, win1_4.index t a * S2000x40.size a ≤ (i a).val
      ∧ (i a).val < win1_4.index t a * S2000x40.size a + S2000x40.size a := by
  show i ∈ ((View.whole main_v9).slice (win1_4.rect t)).set ↔ _
  rw [View.set_slice_whole, Rect.mem_set_unit]
  exact Iff.rfl

/-- Every row r of the 100000 lies in the block of point r / 2000: the 50 blocks tile the array. -/
theorem rows_covered (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  have hN : cfg1.N = 50 := N_1
  have ht : (i 0).val / 2000 < cfg1.N := by rw [hN]; omega
  obtain ⟨-, -, -, -, -, -, e0, e1⟩ := block_indices ⟨(i 0).val / 2000, ht⟩
  have e0' : win1_4.index ⟨(i 0).val / 2000, ht⟩ (0 : Fin 2) = (i 0).val / 2000 := e0
  refine ⟨⟨(i 0).val / 2000, ht⟩, flush1_4 _, ?_⟩
  rw [mem_out_block]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0']; omega
  | ⟨1, _⟩ =>
    show win1_4.index ⟨(i 0).val / 2000, ht⟩ (1 : Fin 2) * 40 ≤ (i 1).val
      ∧ (i 1).val < win1_4.index ⟨(i 0).val / 2000, ht⟩ (1 : Fin 2) * 40 + 40
    rw [e1]; omega

end DenseHead

variable (V : (c : Dev nD) → (b : Ref sig .tc) → Buf (Elt Ideal) ((c : Thread nD τ).loc b))

/-- After the region the output array is the dense head of the arrays the region found: every point writes its block
    of that one function, and the blocks cover the array. -/
theorem final1 (c : Dev nD) :
    ((dat1 (F := Ideal) V c).arrAt 4 cfg1.N : FVec Ideal S100000x40 .f32)
      = Cert.Spec.mlp (V c main_v8) (V c main_arg7) (V c main_arg8) (V c main_arg9) :=
  (dat1 (F := Ideal) V c).arrAt_eq_of_cover 4
    (Cert.Spec.mlp (V c main_v8) (V c main_arg7) (V c main_arg8) (V c main_arg9))
    (fun t _ => DenseHead.flushed_dense V c t) DenseHead.rows_covered

end Cert.KernelIdeal.Val

end
-- ==== Proof.KDefs.lean ====
/-
  The two sparse operations of the network as this program prints them, each as ONE function that is never opened:
  the segment sum of the per-entry contributions into node rows (a scatter-add into zeros at the entries' row
  numbers), and one propagation step's neighbour sum (negative column numbers counted from the end, a row gather
  of the current scores, each row times its edge's weight, a scatter-add into zeros at the edges' row numbers).
-/
import proofs.«407666_j24318104830502_3_alg».proof.KernelIdeal
import proofs.«407666_j24318104830502_3_alg».proof.Proof.Gen.KernelIdeal
import proofs.«407666_j24318104830502_3_alg».proof.Proof.Spec

noncomputable section

open Idealize.ShloMosaic

namespace Cert.KernelIdeal.Sparse

open Cert.KernelIdeal Cert.KernelIdeal.Facts₀ Cert.KernelIdeal.Facts

/-- The segment sum of the entries' contributions: zeros, plus contribution e added into the row numbered `rows e`. -/
def seg (rows : IVec S2000000 32) (u : FVec Ideal S2000000x64 .f32) : FVec Ideal S100000x64 .f32 :=
  Host.scatterAdd scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 rows) u

/-- One propagation step's neighbour sum of the scores `p`. -/
def edge (rows cols : IVec S1600000 32) (w : FVec Ideal S1600000 .f32) (p : FVec Ideal S100000x40 .f32) :
    FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 rows)
    (mulf
      (Host.gather gather_S100000x40_S1600000x1_S1600000x40_1_0_n_n_0_1_140 p
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x40 ![0, 1] bcast_S1600000x1_S1600000x40_0_1
        (broadcastInDim S1600000x1 ![0] bcast_S1600000_S1600000x1_0 w)))

end Cert.KernelIdeal.Sparse

end
-- ==== Proof.ChainHead.lean ====
/-
  The kernel program's buffers up to the dense head's output. The column words and the values are padded with 384
  zeros and laid out as one column each; region 0 leaves per-entry contributions for all 2000384 rows; the first
  2000000 are kept (the padded rows, whose value is zero, are dropped) and summed into node rows; region 1 leaves
  the dense head's output. Below entry 2000000 the padded arrays are the arguments, and a padded column word is 0,
  so every column word region 0 sees is below 2048 when the arguments' are.

  The steps. (1) A buffer that neither a host operation nor a region writes holds at every boundary what it held at
  launch; this brings the table, the row words, the dense head's weights and the edge arrays back to the arguments.
  (2) Row e of a padded column is entry e of the vector for e < 2000000 and the padding value from there on: a
  reshape keeps the row-major position, and a pad with no interior steps and no low padding keeps the position of
  every entry of the vector. (3) Hence the column words region 0 finds are below 2048, its output is the per-entry
  product over the padded columns, and the first 2000000 rows of that product are the entries' contributions.
  (4) The segment sum is the same unopened scatter-add on both sides, applied to equal operands. (5) Region 1 then
  leaves the dense head of what it finds.
-/
import proofs.«407666_j24318104830502_3_alg».proof.Proof.Region0
import proofs.«407666_j24318104830502_3_alg».proof.Proof.Region1
import proofs.«407666_j24318104830502_3_alg».proof.Proof.KDefs
import Idealize.ShloMosaic.Lib.StableHlo.Run
import Idealize.ShloMosaic.Lib.KernelVsHost

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (m : (ℓ : Loc nD τ sig) → Buf (Elt Ideal) ℓ) (ρ : Dev nD → PrngReg)

namespace Head

/-- A host stretch leaves a buffer none of its operations writes. -/
macro "head_host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by first | assumption | decide))))

/-! ## Buffers no one writes, walked back to the launch memory -/

/-- Up to region 0's entry the host writes eight buffers: the two pad words, their copies, the two padded vectors
    and the two columns. Any other buffer holds what it held at launch. -/
theorem W5_keep (c : Dev nD) (b : Ref sig .tc)
    (h : ∀ x ∈ ([main_c, main_call0_v0, main_v0, main_cst, main_call1_v0, main_v1, main_v2, main_v3] : List (Ref sig .tc)), b ≠ x) :
    W5 (F := Ideal) m ρ c (Proc.devRef .tc b) = m ((c : Thread nD τ).loc b) := by
  have h0 : b ≠ main_c := h _ (by decide)
  have h1 : b ≠ main_call0_v0 := h _ (by decide)
  have h2 : b ≠ main_v0 := h _ (by decide)
  have h3 : b ≠ main_cst := h _ (by decide)
  have h4 : b ≠ main_call1_v0 := h _ (by decide)
  have h5 : b ≠ main_v1 := h _ (by decide)
  have h6 : b ≠ main_v2 := h _ (by decide)
  have h7 : b ≠ main_v3 := h _ (by decide)
  calc W5 (F := Ideal) m ρ c (Proc.devRef .tc b)
    _ = W4 m ρ c (Proc.devRef .tc b) := by head_host_keeps hostOps0_4
    _ = W3 m ρ c (Proc.devRef .tc b) := by head_host_keeps hostOps0_3
    _ = W2 m ρ c (Proc.devRef .tc b) := by head_host_keeps hostOps0_2
    _ = W1 m ρ c (Proc.devRef .tc b) := by head_host_keeps hostOps0_1
    _ = W0 m ρ c (Proc.devRef .tc b) := by head_host_keeps hostOps0
    _ = m ((c : Thread nD τ).loc b) := rfl

/-- Region 0 writes only its own arrays. -/
theorem W6_keep (c : Dev nD) (b : Ref sig .tc)
    (h : ∀ x ∈ ([main_c, main_call0_v0, main_v0, main_cst, main_call1_v0, main_v1, main_v2, main_v3] : List (Ref sig .tc)), b ≠ x)
    (h0 : ∀ w, Pipeline.arrRef spec0 w ≠ b) :
    W6 (F := Ideal) m ρ c (Proc.devRef .tc b) = m ((c : Thread nD τ).loc b) :=
  (W6_of_ne m ρ c b h0).trans (W5_keep m ρ c b h)

/-- Between the two regions the host writes five more buffers: the kept rows, the zeros and their word, the row
    words as a column, the segment sum. -/
theorem W7_keep (c : Dev nD) (b : Ref sig .tc)
    (h : ∀ x ∈ ([main_c, main_call0_v0, main_v0, main_cst, main_call1_v0, main_v1, main_v2, main_v3] : List (Ref sig .tc)), b ≠ x)
    (h0 : ∀ w, Pipeline.arrRef spec0 w ≠ b)
    (h' : ∀ x ∈ ([main_v5, main_cst_0, main_v6, main_v7, main_v8] : List (Ref sig .tc)), b ≠ x) :
    W7 (F := Ideal) m ρ c (Proc.devRef .tc b) = m ((c : Thread nD τ).loc b) := by
  have h5 : b ≠ main_v5 := h' _ (by decide)
  have h6 : b ≠ main_cst_0 := h' _ (by decide)
  have h7 : b ≠ main_v6 := h' _ (by decide)
  have h8 : b ≠ main_v7 := h' _ (by decide)
  have h9 : b ≠ main_v8 := h' _ (by decide)
  calc W7 (F := Ideal) m ρ c (Proc.devRef .tc b)
    _ = W6 m ρ c (Proc.devRef .tc b) := by head_host_keeps hostOps1
    _ = m ((c : Thread nD τ).loc b) := W6_keep m ρ c b h h0

/-- Region 1 writes only its own arrays. -/
theorem W8_keep (c : Dev nD) (b : Ref sig .tc)
    (h : ∀ x ∈ ([main_c, main_call0_v0, main_v0, main_cst, main_call1_v0, main_v1, main_v2, main_v3] : List (Ref sig .tc)), b ≠ x)
    (h0 : ∀ w, Pipeline.arrRef spec0 w ≠ b)
    (h' : ∀ x ∈ ([main_v5, main_cst_0, main_v6, main_v7, main_v8] : List (Ref sig .tc)), b ≠ x)
    (h1 : ∀ w, Pipeline.arrRef spec1 w ≠ b) :
    W8 (F := Ideal) m ρ c (Proc.devRef .tc b) = m ((c : Thread nD τ).loc b) :=
  (W8_of_ne m ρ c b h1).trans (W7_keep m ρ c b h h0 h')

/-! ## A vector of 2000000 entries padded with 384 copies of one value and laid out as one column -/

section PadColumn
variable {α : Type}

/-- Row e of the column, below the vector's length, is the vector's entry e. -/
theorem padCol_apply_lt (x : S2000000.Idx → α) (v : S_.Idx → α) (e : Fin 2000384) (h : e.val < 2000000) :
    shapeCast S2000384x1 (pad S2000384 ![0] ![384] ![0] x v pads_S2000000_S2000384_03840 h_S_)
        shapeCasts_S2000384_S2000384x1 (ix2 e 0) = x (ix1 ⟨e.val, h⟩) := by
  refine (shapeCast_apply _ _ (ix2 e 0) (ix1 e) ?_).trans ?_
  · rw [Shape.rowMajor_val_one, Shape.rowMajor_val_two]
    show e.val = e.val * 1 + 0
    omega
  · refine pad_apply_of_inside _ _ _ x v _ _ (ix1 e) (ix1 ⟨e.val, h⟩) ?_
    intro a
    match a with
    | ⟨0, _⟩ => show e.val = 0 + e.val * (0 + 1); omega

/-- Row e of the column, from the vector's length on, is the padding value. -/
theorem padCol_apply_ge (x : S2000000.Idx → α) (v : S_.Idx → α) (e : Fin 2000384) (h : 2000000 ≤ e.val) :
    shapeCast S2000384x1 (pad S2000384 ![0] ![384] ![0] x v pads_S2000000_S2000384_03840 h_S_)
        shapeCasts_S2000384_S2000384x1 (ix2 e 0) = v (Shape.Idx.first h_S_) := by
  refine (shapeCast_apply _ _ (ix2 e 0) (ix1 e) ?_).trans ?_
  · rw [Shape.rowMajor_val_one, Shape.rowMajor_val_two]
    show e.val = e.val * 1 + 0
    omega
  · refine pad_apply_of_not_inside _ _ _ x v _ _ (ix1 e) 0 ?_
    show ¬(0 ≤ e.val ∧ (e.val - 0) % (0 + 1) = 0 ∧ (e.val - 0) / (0 + 1) < 2000000)
    rw [Nat.zero_add, Nat.div_one, Nat.sub_zero]
    omega

end PadColumn

/-- The first 2000000 rows of the per-entry products over the padded columns are the entries' contributions:
    below row 2000000 both padded columns are the vectors they were made from. -/
theorem slice_gatherRows (T : FVec Ideal S2048x64 .f32) (x : IVec S2000000 32) (y : FVec Ideal S2000000 .f32)
    (v : IVec S_ 32) (z : FVec Ideal S_ .f32) :
    extractStridedSlice S2000000x64 ![0, 0]
        (gatherRows T
          (shapeCast S2000384x1 (pad S2000384 ![0] ![384] ![0] x v pads_S2000000_S2000384_03840 h_S_) shapeCasts_S2000384_S2000384x1)
          (shapeCast S2000384x1 (pad S2000384 ![0] ![384] ![0] y z pads_S2000000_S2000384_03840 h_S_) shapeCasts_S2000384_S2000384x1))
        slices_S2000384x64_S2000000x64_0_0
      = Cert.Spec.gathered x y T := by
  funext j
  obtain ⟨e, k, rfl⟩ : ∃ (e : Fin 2000000) (k : Fin 64), j = ix2 e k := ⟨j 0, j 1, eq_ix2 j⟩
  have he : e.val < 2000384 := by have := e.isLt; omega
  refine (extractStridedSlice_apply ![0, 0] _ _ (ix2 e k) (ix2 (⟨e.val, he⟩ : Fin 2000384) k) ?_).trans ?_
  · intro a
    match a with
    | ⟨0, _⟩ => show e.val = 0 + e.val; omega
    | ⟨1, _⟩ => show k.val = 0 + k.val; omega
  · rw [gatherRows_apply]
    show T (ix2 (Cert.Spec.rowOfWord (shapeCast S2000384x1 (pad S2000384 ![0] ![384] ![0] x v pads_S2000000_S2000384_03840 h_S_) shapeCasts_S2000384_S2000384x1 (ix2 (⟨e.val, he⟩ : Fin 2000384) 0))) k)
        * shapeCast S2000384x1 (pad S2000384 ![0] ![384] ![0] y z pads_S2000000_S2000384_03840 h_S_) shapeCasts_S2000384_S2000384x1 (ix2 (⟨e.val, he⟩ : Fin 2000384) 0)
      = T (ix2 (Cert.Spec.rowOfWord (x (ix1 e))) k) * y (ix1 e)
    rw [padCol_apply_lt x v ⟨e.val, he⟩ e.isLt, padCol_apply_lt y z ⟨e.val, he⟩ e.isLt]

/-! ## What region 0 finds -/

/-- Region 0's column words: the argument's, padded with the zero word and laid out as one column. -/
theorem W5_v2 (c : Dev nD) :
    (W5 (F := Ideal) m ρ c (Proc.devRef .tc main_v2) : IVec S2000384x1 32)
      = shapeCast S2000384x1 (pad S2000384 ![0] ![384] ![0] (m ((c : Thread nD τ).loc main_arg1) : IVec S2000000 32)
          (constantI S_ 32 0#32) pads_S2000000_S2000384_03840 h_S_) shapeCasts_S2000384_S2000384x1 := by
  show StableHlo.after hostOps0_4 (W4 m ρ c) (Proc.devRef .tc main_v2) = _
  after_results
  rfl

/-- Region 0's values: the argument's, padded with the zero float and laid out as one column. -/
theorem W5_v3 (c : Dev nD) :
    (W5 (F := Ideal) m ρ c (Proc.devRef .tc main_v3) : FVec Ideal S2000384x1 .f32)
      = shapeCast S2000384x1 (pad S2000384 ![0] ![384] ![0] (m ((c : Thread nD τ).loc main_arg2) : FVec Ideal S2000000 .f32)
          (constant (F := Ideal) S_ .f32 0x00000000#32) pads_S2000000_S2000384_03840 h_S_) shapeCasts_S2000384_S2000384x1 := by
  show StableHlo.after hostOps0_4 (W4 m ρ c) (Proc.devRef .tc main_v3) = _
  after_results
  rfl

/-- Every column word region 0 sees is below 2048: an argument's word by the hypothesis, a padding word because it is 0. -/
theorem cols_lt (c : Dev nD)
    (hcols : ∀ e : Fin 2000000, ((m ((c : Thread nD τ).loc main_arg1) : IVec S2000000 32) (ix1 e)).toNat < 2048)
    (e : Fin 2000384) : ((V5 (F := Ideal) m ρ c main_v2 : IVec S2000384x1 32) (ix2 e 0)).toNat < 2048 := by
  show ((W5 (F := Ideal) m ρ c (Proc.devRef .tc main_v2) : IVec S2000384x1 32) (ix2 e 0)).toNat < 2048
  rw [W5_v2]
  by_cases h : e.val < 2000000
  · rw [padCol_apply_lt _ _ e h]
    exact hcols ⟨e.val, h⟩
  · rw [padCol_apply_ge _ _ e (Nat.le_of_not_lt h)]
    show (0#32 : BitVec 32).toNat < 2048
    decide

/-! ## Region 0's output, the segment sum, the dense head -/

/-- After region 0 its output holds the per-entry products over the padded columns. -/
theorem W6_v4 (c : Dev nD)
    (hcols : ∀ e : Fin 2000000, ((m ((c : Thread nD τ).loc main_arg1) : IVec S2000000 32) (ix1 e)).toNat < 2048) :
    (W6 (F := Ideal) m ρ c (Proc.devRef .tc main_v4) : FVec Ideal S2000384x64 .f32)
      = gatherRows (m ((c : Thread nD τ).loc main_arg6))
          (shapeCast S2000384x1 (pad S2000384 ![0] ![384] ![0] (m ((c : Thread nD τ).loc main_arg1) : IVec S2000000 32)
            (constantI S_ 32 0#32) pads_S2000000_S2000384_03840 h_S_) shapeCasts_S2000384_S2000384x1)
          (shapeCast S2000384x1 (pad S2000384 ![0] ![384] ![0] (m ((c : Thread nD τ).loc main_arg2) : FVec Ideal S2000000 .f32)
            (constant (F := Ideal) S_ .f32 0x00000000#32) pads_S2000000_S2000384_03840 h_S_) shapeCasts_S2000384_S2000384x1) := by
  refine ((W6_arr m ρ c 3).trans (final0 (V5 m ρ) c (cols_lt m ρ c hcols))).trans ?_
  show gatherRows (W5 (F := Ideal) m ρ c (Proc.devRef .tc main_arg6)) (W5 (F := Ideal) m ρ c (Proc.devRef .tc main_v2))
      (W5 (F := Ideal) m ρ c (Proc.devRef .tc main_v3)) = _
  rw [W5_v2, W5_v3, W5_keep m ρ c main_arg6 (by decide)]

/-- Before region 1 the node rows hold the segment sum of the entries' contributions. -/
theorem W7_v8 (c : Dev nD)
    (hcols : ∀ e : Fin 2000000, ((m ((c : Thread nD τ).loc main_arg1) : IVec S2000000 32) (ix1 e)).toNat < 2048) :
    (W7 (F := Ideal) m ρ c (Proc.devRef .tc main_v8) : FVec Ideal S100000x64 .f32)
      = Sparse.seg (m ((c : Thread nD τ).loc main_arg0))
          (Cert.Spec.gathered (m ((c : Thread nD τ).loc main_arg1)) (m ((c : Thread nD τ).loc main_arg2)) (m ((c : Thread nD τ).loc main_arg6))) := by
  have h : (W7 (F := Ideal) m ρ c (Proc.devRef .tc main_v8) : FVec Ideal S100000x64 .f32)
      = Sparse.seg (W6 (F := Ideal) m ρ c (Proc.devRef .tc main_arg0))
          (extractStridedSlice S2000000x64 ![0, 0] (W6 (F := Ideal) m ρ c (Proc.devRef .tc main_v4) : FVec Ideal S2000384x64 .f32)
            slices_S2000384x64_S2000000x64_0_0) := by
    show StableHlo.after hostOps1 (W6 m ρ c) (Proc.devRef .tc main_v8) = _
    after_results
    rfl
  rw [h, W6_v4 m ρ c hcols, slice_gatherRows, W6_keep m ρ c main_arg0 (by decide) (by decide)]

end Head

/-! ## The dense head's output, and the edge arrays as launched -/

/-- After region 1 the dense head's output buffer holds the dense head of the segment sum of the entries' contributions. -/
theorem head (c : Dev nD) (hcols : ∀ e : Fin 2000000, ((m ((c : Thread nD τ).loc main_arg1) : IVec S2000000 32) (ix1 e)).toNat < 2048) :
    (W8 (F := Ideal) m ρ c (Proc.devRef .tc main_v9) : FVec Ideal S100000x40 .f32) = (Cert.Spec.mlp (Sparse.seg (m ((c : Thread nD τ).loc main_arg0)) (Cert.Spec.gathered (m ((c : Thread nD τ).loc main_arg1)) (m ((c : Thread nD τ).loc main_arg2)) (m ((c : Thread nD τ).loc main_arg6)))) (m ((c : Thread nD τ).loc main_arg7)) (m ((c : Thread nD τ).loc main_arg8)) (m ((c : Thread nD τ).loc main_arg9))) := by
  refine ((W8_arr m ρ c 4).trans (final1 (V7 m ρ) c)).trans ?_
  show Cert.Spec.mlp (W7 (F := Ideal) m ρ c (Proc.devRef .tc main_v8)) (W7 (F := Ideal) m ρ c (Proc.devRef .tc main_arg7))
      (W7 (F := Ideal) m ρ c (Proc.devRef .tc main_arg8)) (W7 (F := Ideal) m ρ c (Proc.devRef .tc main_arg9)) = _
  rw [Head.W7_v8 m ρ c hcols, Head.W7_keep m ρ c main_arg7 (by decide) (by decide) (by decide),
    Head.W7_keep m ρ c main_arg8 (by decide) (by decide) (by decide), Head.W7_keep m ρ c main_arg9 (by decide) (by decide) (by decide)]

/-- No host operation and no region up to there writes the edge arrays. -/
theorem W8_arg3 (c : Dev nD) : W8 (F := Ideal) m ρ c (Proc.devRef .tc main_arg3) = m ((c : Thread nD τ).loc main_arg3) :=
  Head.W8_keep m ρ c main_arg3 (by decide) (by decide) (by decide) (by decide)
theorem W8_arg4 (c : Dev nD) : W8 (F := Ideal) m ρ c (Proc.devRef .tc main_arg4) = m ((c : Thread nD τ).loc main_arg4) :=
  Head.W8_keep m ρ c main_arg4 (by decide) (by decide) (by decide) (by decide)
theorem W8_arg5 (c : Dev nD) : W8 (F := Ideal) m ρ c (Proc.devRef .tc main_arg5) = m ((c : Thread nD τ).loc main_arg5) :=
  Head.W8_keep m ρ c main_arg5 (by decide) (by decide) (by decide) (by decide)

end Cert.KernelIdeal.Val

end
-- ==== Proof.Region2.lean ====
/-
  Region 2, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner2 : (![0, 0] : Fin 2 → Nat) = fun _ => 0 := funext fun a => by fin_cases a <;> rfl

/-- The body's arithmetic at place (p, q) of a block: tanh of 9/10-word times the first block's entry plus
    1/10-word times the second block's entry, both at (p, q). -/
theorem mix2_at (x0 x1 : Vec Ideal S2000x40 .f32) (p : Fin 2000) (q : Fin 40) :
    k2_pay1 (F := Ideal) x0 x1 (ix2 p q)
      = Ideal.tanh (Ideal.ofBits .f32 0x3F666666#32 * x0 (ix2 p q) + Ideal.ofBits .f32 0x3DCCCCCD#32 * x1 (ix2 p q)) := by
  unfold k2_pay1
  simp only [shapeCast_self]
  rfl

/-- If the two loaded blocks are two whole arrays read through one placement e of block places into array places,
    the body's result is the mixing step of the two arrays read through e. -/
theorem mix2_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k2_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix2_at, h0, h1]
  rfl

/-- The three index maps, decided over the 50 grid points: each sends point t to block (t, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the mixing step of the two arrays the region finds. -/
theorem written_back2 (c : Dev nD) (t : Fin cfg2.N) :
    (dat2 (F := Ideal) V c).flushed 2 t
      = ((cfg2.win 2).blk t).view.read (Elt Ideal) (Cert.Spec.combine (V c main_v22) (V c main_v9)) := by
  show (cfg2.win 2).cut (grid2.coords t) ((dat2 V c).after 2 t) = _
  rw [after2_2]
  unfold out2_2
  rw [View.canon_unit_zero corner2]
  simp only [View.ld_unit_zero (S := S2000x40) corner2]
  obtain ⟨e0, e1, e2, e3, e4, e5⟩ := block_index2 t
  funext j
  refine mix2_through (iblk2 V c 0 t) (iblk2 V c 1 t) (V c main_v22) (V c main_v9)
    (((cfg2.win 2).blk t).view.emb) (fun y => ?_) (fun y => ?_) j
  · show V c main_v22 (((cfg2.win 0).blk t).view.emb y) = V c main_v22 (((cfg2.win 2).blk t).view.emb y)
    refine congrArg (V c main_v22) ?_
    funext a; apply Fin.ext
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 40 + 1 * (y 1).val = win2_2.index t (1 : Fin 2) * 40 + 1 * (y 1).val; omega
  · show V c main_v9 (((cfg2.win 1).blk t).view.emb y) = V c main_v9 (((cfg2.win 2).blk t).view.emb y)
    refine congrArg (V c main_v9) ?_
    funext a; apply Fin.ext
    match a with
    | ⟨0, _⟩ => show win2_1.index t (0 : Fin 2) * 2000 + 1 * (y 0).val = win2_2.index t (0 : Fin 2) * 2000 + 1 * (y 0).val; omega
    | ⟨1, _⟩ => show win2_1.index t (1 : Fin 2) * 40 + 1 * (y 1).val = win2_2.index t (1 : Fin 2) * 40 + 1 * (y 1).val; omega

/-- An index of the output array is in point t's block iff on each axis its coordinate is in the block's range. -/
theorem in_block2 (t : Fin cfg2.N) (i : S100000x40.Idx) :
    i ∈ ((cfg2.win 2).blk t).view.set
      ↔ ∀ a : Fin 2, win2_2.index t a * S2000x40.size a ≤ (i a).val
          ∧ (i a).val < win2_2.index t a * S2000x40.size a + S2000x40.size a := by
  show i ∈ ((View.whole main_v23).slice (win2_2.rect t)).set ↔ _
  rw [View.set_slice_whole, Rect.mem_set_unit]
  exact Iff.rfl

/-- Every index of the output array is in the block of a point that writes back: row r is in block r / 2000. -/
theorem rows_covered2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := N_2
  have ht : (i 0).val / 2000 < cfg2.N := by rw [hN]; omega
  obtain ⟨-, -, -, -, e4, e5⟩ := block_index2 ⟨(i 0).val / 2000, ht⟩
  refine ⟨⟨(i 0).val / 2000, ht⟩, flush2_2 _, ?_⟩
  rw [in_block2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 40 ≤ (i 1).val
      ∧ (i 1).val < win2_2.index ⟨(i 0).val / 2000, ht⟩ (1 : Fin 2) * 40 + 40
    rw [e5]
    omega

/-- The output array after the region: the mixing step of the neighbour-sum array and the dense-output array. -/
theorem final2 (c : Dev nD) :
    ((dat2 (F := Ideal) V c).arrAt 2 cfg2.N : FVec Ideal S100000x40 .f32)
      = Cert.Spec.combine (V c main_v22) (V c main_v9) :=
  (dat2 (F := Ideal) V c).arrAt_eq_of_cover 2 (Cert.Spec.combine (V c main_v22) (V c main_v9))
    (fun t _ => written_back2 V c t) rows_covered2

end Cert.KernelIdeal.Val

end
-- ==== Proof.ChainStep2.lean ====
/-
  The first propagation step. The scores the stretch of host operations reads are the dense output itself: the
  neighbour sum is formed (negative column numbers counted from the end, the rows gathered at the columns, each
  row times its edge's weight, the products added into zeros at the edges' row numbers) out of the three edge
  arrays and the dense output's buffer, and the region that follows mixes that sum with the same dense output.
  Carried across the step: if on entry the dense output's buffer holds h2 and the three edge arrays are the launch
  memory's, then on exit the region's output buffer holds the mixing of the neighbour sum of h2 with h2, and the
  dense output and the three edge arrays are as they were. The stretch writes only its own sixteen result
  buffers; the region writes only its output window, and an input window's array ends as it was found.
-/
import proofs.«407666_j24318104830502_3_alg».proof.Proof.Region2
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the dense output the stretch found, formed from
    the edge arrays it found: the sixteen operations composed are that function, term for term. -/
theorem edge2 (W : Valuation τ sig (Elt Ideal)) :
    (StableHlo.after (hostOps2 (F := Ideal)) W (Proc.devRef .tc main_v22) : FVec Ideal S100000x40 .f32)
      = Sparse.edge (W (Proc.devRef .tc main_arg3)) (W (Proc.devRef .tc main_arg4)) (W (Proc.devRef .tc main_arg5))
          (W (Proc.devRef .tc main_v9)) := by
  after_results_simp
  rfl

/-- The stretch writes neither the dense output's buffer nor an edge array: each differs from all sixteen result
    buffers, so the fold of the operations' results leaves it as found. -/
theorem keep2_v9 (W : Valuation τ sig (Elt Ideal)) :
    StableHlo.after (hostOps2 (F := Ideal)) W (Proc.devRef .tc main_v9) = W (Proc.devRef .tc main_v9) := by
  after_results_simp
theorem keep2_arg3 (W : Valuation τ sig (Elt Ideal)) :
    StableHlo.after (hostOps2 (F := Ideal)) W (Proc.devRef .tc main_arg3) = W (Proc.devRef .tc main_arg3) := by
  after_results_simp
theorem keep2_arg4 (W : Valuation τ sig (Elt Ideal)) :
    StableHlo.after (hostOps2 (F := Ideal)) W (Proc.devRef .tc main_arg4) = W (Proc.devRef .tc main_arg4) := by
  after_results_simp
theorem keep2_arg5 (W : Valuation τ sig (Elt Ideal)) :
    StableHlo.after (hostOps2 (F := Ideal)) W (Proc.devRef .tc main_arg5) = W (Proc.devRef .tc main_arg5) := by
  after_results_simp

variable (m : (ℓ : Loc nD τ sig) → Buf (Elt Ideal) ℓ) (ρ : Dev nD → PrngReg)

/-- The step: from the dense head's region's exit, through the stretch and the region, to this region's exit. -/
theorem step2 (c : Dev nD) (h2 : FVec Ideal S100000x40 .f32)
    (hh : (W8 (F := Ideal) m ρ c (Proc.devRef .tc main_v9) : FVec Ideal S100000x40 .f32) = h2)
    (h3 : W8 (F := Ideal) m ρ c (Proc.devRef .tc main_arg3) = m ((c : Thread nD τ).loc main_arg3))
    (h4 : W8 (F := Ideal) m ρ c (Proc.devRef .tc main_arg4) = m ((c : Thread nD τ).loc main_arg4))
    (h5 : W8 (F := Ideal) m ρ c (Proc.devRef .tc main_arg5) = m ((c : Thread nD τ).loc main_arg5)) :
    (W10 (F := Ideal) m ρ c (Proc.devRef .tc main_v23) : FVec Ideal S100000x40 .f32)
        = Cert.Spec.combine (Sparse.edge (m ((c : Thread nD τ).loc main_arg3)) (m ((c : Thread nD τ).loc main_arg4))
            (m ((c : Thread nD τ).loc main_arg5)) h2) h2
      ∧ (W10 (F := Ideal) m ρ c (Proc.devRef .tc main_v9) : FVec Ideal S100000x40 .f32) = h2
      ∧ W10 (F := Ideal) m ρ c (Proc.devRef .tc main_arg3) = m ((c : Thread nD τ).loc main_arg3)
      ∧ W10 (F := Ideal) m ρ c (Proc.devRef .tc main_arg4) = m ((c : Thread nD τ).loc main_arg4)
      ∧ W10 (F := Ideal) m ρ c (Proc.devRef .tc main_arg5) = m ((c : Thread nD τ).loc main_arg5) := by
  -- after the stretch: the dense output as it was, the stretch's result the neighbour sum of it
  have e9 : (W9 (F := Ideal) m ρ c (Proc.devRef .tc main_v9) : FVec Ideal S100000x40 .f32) = h2 :=
    (keep2_v9 (W8 (F := Ideal) m ρ c)).trans hh
  have eE : (W9 (F := Ideal) m ρ c (Proc.devRef .tc main_v22) : FVec Ideal S100000x40 .f32)
      = Sparse.edge (m ((c : Thread nD τ).loc main_arg3)) (m ((c : Thread nD τ).loc main_arg4))
          (m ((c : Thread nD τ).loc main_arg5)) h2 := by
    refine (edge2 (W8 (F := Ideal) m ρ c)).trans ?_
    rw [h3, h4, h5, hh]
  refine ⟨?_, ?_, ?_, ?_, ?_⟩
  · -- the region's output window: the mixing of the two arrays it found
    refine (W10_arr (F := Ideal) m ρ c 2).trans ?_
    refine (final2 (V9 (F := Ideal) m ρ) c).trans ?_
    show Cert.Spec.combine (W9 (F := Ideal) m ρ c (Proc.devRef .tc main_v22))
        (W9 (F := Ideal) m ρ c (Proc.devRef .tc main_v9)) = _
    rw [eE, e9]
  · -- the dense output is an input window of the region: its array ends as found
    refine (W10_arr (F := Ideal) m ρ c 1).trans ?_
    refine ((dat2 (F := Ideal) (V9 (F := Ideal) m ρ) c).arrAt_in 1 rfl cfg2.N).trans ?_
    exact (A_eq2 (F := Ideal) (V9 (F := Ideal) m ρ) c 1).trans e9
  · exact (W10_of_ne (F := Ideal) m ρ c main_arg3 (by decide)).trans ((keep2_arg3 (W8 (F := Ideal) m ρ c)).trans h3)
  · exact (W10_of_ne (F := Ideal) m ρ c main_arg4 (by decide)).trans ((keep2_arg4 (W8 (F := Ideal) m ρ c)).trans h4)
  · exact (W10_of_ne (F := Ideal) m ρ c main_arg5 (by decide)).trans ((keep2_arg5 (W8 (F := Ideal) m ρ c)).trans h5)

end Cert.KernelIdeal.Val

end
-- ==== Proof.Region3.lean ====
/-
  Region 3, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner3 : (![0, 0] : Fin 2 → Nat) = fun _ => 0 := funext fun a => by fin_cases a <;> rfl

/-- The body's arithmetic at place (p, q) of a block: tanh of 9/10-word times the first block's entry plus
    1/10-word times the second block's entry, both at (p, q). -/
theorem mix3_at (x0 x1 : Vec Ideal S2000x40 .f32) (p : Fin 2000) (q : Fin 40) :
    k3_pay1 (F := Ideal) x0 x1 (ix2 p q)
      = Ideal.tanh (Ideal.ofBits .f32 0x3F666666#32 * x0 (ix2 p q) + Ideal.ofBits .f32 0x3DCCCCCD#32 * x1 (ix2 p q)) := by
  unfold k3_pay1
  simp only [shapeCast_self]
  rfl

/-- If the two loaded blocks are two whole arrays read through one placement e of block places into array places,
    the body's result is the mixing step of the two arrays read through e. -/
theorem mix3_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k3_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix3_at, h0, h1]
  rfl

/-- The three index maps, decided over the 50 grid points: each sends point t to block (t, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the mixing step of the two arrays the region finds. -/
theorem written_back3 (c : Dev nD) (t : Fin cfg3.N) :
    (dat3 (F := Ideal) V c).flushed 2 t
      = ((cfg3.win 2).blk t).view.read (Elt Ideal) (Cert.Spec.combine (V c main_v36) (V c main_v9)) := by
  show (cfg3.win 2).cut (grid3.coords t) ((dat3 V c).after 2 t) = _
  rw [after3_2]
  unfold out3_2
  rw [View.canon_unit_zero corner3]
  simp only [View.ld_unit_zero (S := S2000x40) corner3]
  obtain ⟨e0, e1, e2, e3, e4, e5⟩ := block_index3 t
  funext j
  refine mix3_through (iblk3 V c 0 t) (iblk3 V c 1 t) (V c main_v36) (V c main_v9)
    (((cfg3.win 2).blk t).view.emb) (fun y => ?_) (fun y => ?_) j
  · show V c main_v36 (((cfg3.win 0).blk t).view.emb y) = V c main_v36 (((cfg3.win 2).blk t).view.emb y)
    refine congrArg (V c main_v36) ?_
    funext a; apply Fin.ext
    match a with
    | ⟨0, _⟩ => show win3_0.index t (0 : Fin 2) * 2000 + 1 * (y 0).val = win3_2.index t (0 : Fin 2) * 2000 + 1 * (y 0).val; omega
    | ⟨1, _⟩ => show win3_0.index t (1 : Fin 2) * 40 + 1 * (y 1).val = win3_2.index t (1 : Fin 2) * 40 + 1 * (y 1).val; omega
  · show V c main_v9 (((cfg3.win 1).blk t).view.emb y) = V c main_v9 (((cfg3.win 2).blk t).view.emb y)
    refine congrArg (V c main_v9) ?_
    funext a; apply Fin.ext
    match a with
    | ⟨0, _⟩ => show win3_1.index t (0 : Fin 2) * 2000 + 1 * (y 0).val = win3_2.index t (0 : Fin 2) * 2000 + 1 * (y 0).val; omega
    | ⟨1, _⟩ => show win3_1.index t (1 : Fin 2) * 40 + 1 * (y 1).val = win3_2.index t (1 : Fin 2) * 40 + 1 * (y 1).val; omega

/-- An index of the output array is in point t's block iff on each axis its coordinate is in the block's range. -/
theorem in_block3 (t : Fin cfg3.N) (i : S100000x40.Idx) :
    i ∈ ((cfg3.win 2).blk t).view.set
      ↔ ∀ a : Fin 2, win3_2.index t a * S2000x40.size a ≤ (i a).val
          ∧ (i a).val < win3_2.index t a * S2000x40.size a + S2000x40.size a := by
  show i ∈ ((View.whole main_v37).slice (win3_2.rect t)).set ↔ _
  rw [View.set_slice_whole, Rect.mem_set_unit]
  exact Iff.rfl

/-- Every index of the output array is in the block of a point that writes back: row r is in block r / 2000. -/
theorem rows_covered3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 50 := N_3
  have ht : (i 0).val / 2000 < cfg3.N := by rw [hN]; omega
  obtain ⟨-, -, -, -, e4, e5⟩ := block_index3 ⟨(i 0).val / 2000, ht⟩
  refine ⟨⟨(i 0).val / 2000, ht⟩, flush3_2 _, ?_⟩
  rw [in_block3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 40 ≤ (i 1).val
      ∧ (i 1).val < win3_2.index ⟨(i 0).val / 2000, ht⟩ (1 : Fin 2) * 40 + 40
    rw [e5]
    omega

/-- The output array after the region: the mixing step of the neighbour-sum array and the dense-output array. -/
theorem final3 (c : Dev nD) :
    ((dat3 (F := Ideal) V c).arrAt 2 cfg3.N : FVec Ideal S100000x40 .f32)
      = Cert.Spec.combine (V c main_v36) (V c main_v9) :=
  (dat3 (F := Ideal) V c).arrAt_eq_of_cover 2 (Cert.Spec.combine (V c main_v36) (V c main_v9))
    (fun t _ => written_back3 V c t) rows_covered3

end Cert.KernelIdeal.Val

end
-- ==== Proof.ChainStep3.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region3
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge3 (W : Valuation τ sig (Elt Ideal)) :
    (StableHlo.after (hostOps3 (F := Ideal)) W (Proc.devRef .tc main_v36) : FVec Ideal S100000x40 .f32)
      = Sparse.edge (W (Proc.devRef .tc main_arg3)) (W (Proc.devRef .tc main_arg4)) (W (Proc.devRef .tc main_arg5))
          (W (Proc.devRef .tc main_v23)) := by
  after_results_simp
  rfl

/-- The stretch writes neither the dense output's buffer nor an edge array: each differs from all sixteen result
    buffers, so the fold of the operations' results leaves it as found. -/
theorem keep3_v9 (W : Valuation τ sig (Elt Ideal)) :
    StableHlo.after (hostOps3 (F := Ideal)) W (Proc.devRef .tc main_v9) = W (Proc.devRef .tc main_v9) := by
  after_results_simp
theorem keep3_arg3 (W : Valuation τ sig (Elt Ideal)) :
    StableHlo.after (hostOps3 (F := Ideal)) W (Proc.devRef .tc main_arg3) = W (Proc.devRef .tc main_arg3) := by
  after_results_simp
theorem keep3_arg4 (W : Valuation τ sig (Elt Ideal)) :
    StableHlo.after (hostOps3 (F := Ideal)) W (Proc.devRef .tc main_arg4) = W (Proc.devRef .tc main_arg4) := by
  after_results_simp
theorem keep3_arg5 (W : Valuation τ sig (Elt Ideal)) :
    StableHlo.after (hostOps3 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step3 (c : Dev nD) (p h2 : FVec Ideal S100000x40 .f32)
    (hp : (W10 (F := Ideal) m ρ c (Proc.devRef .tc main_v23) : FVec Ideal S100000x40 .f32) = p)
    (hh : (W10 (F := Ideal) m ρ c (Proc.devRef .tc main_v9) : FVec Ideal S100000x40 .f32) = h2)
    (h3 : W10 (F := Ideal) m ρ c (Proc.devRef .tc main_arg3) = m ((c : Thread nD τ).loc main_arg3))
    (h4 : W10 (F := Ideal) m ρ c (Proc.devRef .tc main_arg4) = m ((c : Thread nD τ).loc main_arg4))
    (h5 : W10 (F := Ideal) m ρ c (Proc.devRef .tc main_arg5) = m ((c : Thread nD τ).loc main_arg5)) :
    (W12 (F := Ideal) m ρ c (Proc.devRef .tc main_v37) : FVec Ideal S100000x40 .f32)
        = Cert.Spec.combine (Sparse.edge (m ((c : Thread nD τ).loc main_arg3)) (m ((c : Thread nD τ).loc main_arg4))
            (m ((c : Thread nD τ).loc main_arg5)) p) h2
      ∧ (W12 (F := Ideal) m ρ c (Proc.devRef .tc main_v9) : FVec Ideal S100000x40 .f32) = h2
      ∧ W12 (F := Ideal) m ρ c (Proc.devRef .tc main_arg3) = m ((c : Thread nD τ).loc main_arg3)
      ∧ W12 (F := Ideal) m ρ c (Proc.devRef .tc main_arg4) = m ((c : Thread nD τ).loc main_arg4)
      ∧ W12 (F := Ideal) m ρ c (Proc.devRef .tc main_arg5) = m ((c : Thread nD τ).loc main_arg5) := by
  -- after the stretch: the dense output as it was, the stretch's result the neighbour sum of p
  have e9 : (W11 (F := Ideal) m ρ c (Proc.devRef .tc main_v9) : FVec Ideal S100000x40 .f32) = h2 :=
    (keep3_v9 (W10 (F := Ideal) m ρ c)).trans hh
  have eE : (W11 (F := Ideal) m ρ c (Proc.devRef .tc main_v36) : FVec Ideal S100000x40 .f32)
      = Sparse.edge (m ((c : Thread nD τ).loc main_arg3)) (m ((c : Thread nD τ).loc main_arg4))
          (m ((c : Thread nD τ).loc main_arg5)) p := by
    refine (edge3 (W10 (F := Ideal) m ρ c)).trans ?_
    rw [h3, h4, h5, hp]
  refine ⟨?_, ?_, ?_, ?_, ?_⟩
  · -- the region's output window: the mixing of the two arrays it found
    refine (W12_arr (F := Ideal) m ρ c 2).trans ?_
    refine (final3 (V11 (F := Ideal) m ρ) c).trans ?_
    show Cert.Spec.combine (W11 (F := Ideal) m ρ c (Proc.devRef .tc main_v36))
        (W11 (F := Ideal) m ρ c (Proc.devRef .tc main_v9)) = _
    rw [eE, e9]
  · -- the dense output is an input window of the region: its array ends as found
    refine (W12_arr (F := Ideal) m ρ c 1).trans ?_
    refine ((dat3 (F := Ideal) (V11 (F := Ideal) m ρ) c).arrAt_in 1 rfl cfg3.N).trans ?_
    exact (A_eq3 (F := Ideal) (V11 (F := Ideal) m ρ) c 1).trans e9
  · exact (W12_of_ne (F := Ideal) m ρ c main_arg3 (by decide)).trans ((keep3_arg3 (W10 (F := Ideal) m ρ c)).trans h3)
  · exact (W12_of_ne (F := Ideal) m ρ c main_arg4 (by decide)).trans ((keep3_arg4 (W10 (F := Ideal) m ρ c)).trans h4)
  · exact (W12_of_ne (F := Ideal) m ρ c main_arg5 (by decide)).trans ((keep3_arg5 (W10 (F := Ideal) m ρ c)).trans h5)

end Cert.KernelIdeal.Val

end
-- ==== Proof.Region4.lean ====
/-
  Region 4, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner4 : (![0, 0] : Fin 2 → Nat) = fun _ => 0 := funext fun a => by fin_cases a <;> rfl

/-- The body's arithmetic at place (p, q) of a block: tanh of 9/10-word times the first block's entry plus
    1/10-word times the second block's entry, both at (p, q). -/
theorem mix4_at (x0 x1 : Vec Ideal S2000x40 .f32) (p : Fin 2000) (q : Fin 40) :
    k4_pay1 (F := Ideal) x0 x1 (ix2 p q)
      = Ideal.tanh (Ideal.ofBits .f32 0x3F666666#32 * x0 (ix2 p q) + Ideal.ofBits .f32 0x3DCCCCCD#32 * x1 (ix2 p q)) := by
  unfold k4_pay1
  simp only [shapeCast_self]
  rfl

/-- If the two loaded blocks are two whole arrays read through one placement e of block places into array places,
    the body's result is the mixing step of the two arrays read through e. -/
theorem mix4_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k4_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix4_at, h0, h1]
  rfl

/-- The three index maps, decided over the 50 grid points: each sends point t to block (t, 0). -/
theorem block_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the mixing step of the two arrays the region finds. -/
theorem written_back4 (c : Dev nD) (t : Fin cfg4.N) :
    (dat4 (F := Ideal) V c).flushed 2 t
      = ((cfg4.win 2).blk t).view.read (Elt Ideal) (Cert.Spec.combine (V c main_v50) (V c main_v9)) := by
  show (cfg4.win 2).cut (grid4.coords t) ((dat4 V c).after 2 t) = _
  rw [after4_2]
  unfold out4_2
  rw [View.canon_unit_zero corner4]
  simp only [View.ld_unit_zero (S := S2000x40) corner4]
  obtain ⟨e0, e1, e2, e3, e4, e5⟩ := block_index4 t
  funext j
  refine mix4_through (iblk4 V c 0 t) (iblk4 V c 1 t) (V c main_v50) (V c main_v9)
    (((cfg4.win 2).blk t).view.emb) (fun y => ?_) (fun y => ?_) j
  · show V c main_v50 (((cfg4.win 0).blk t).view.emb y) = V c main_v50 (((cfg4.win 2).blk t).view.emb y)
    refine congrArg (V c main_v50) ?_
    funext a; apply Fin.ext
    match a with
    | ⟨0, _⟩ => show win4_0.index t (0 : Fin 2) * 2000 + 1 * (y 0).val = win4_2.index t (0 : Fin 2) * 2000 + 1 * (y 0).val; omega
    | ⟨1, _⟩ => show win4_0.index t (1 : Fin 2) * 40 + 1 * (y 1).val = win4_2.index t (1 : Fin 2) * 40 + 1 * (y 1).val; omega
  · show V c main_v9 (((cfg4.win 1).blk t).view.emb y) = V c main_v9 (((cfg4.win 2).blk t).view.emb y)
    refine congrArg (V c main_v9) ?_
    funext a; apply Fin.ext
    match a with
    | ⟨0, _⟩ => show win4_1.index t (0 : Fin 2) * 2000 + 1 * (y 0).val = win4_2.index t (0 : Fin 2) * 2000 + 1 * (y 0).val; omega
    | ⟨1, _⟩ => show win4_1.index t (1 : Fin 2) * 40 + 1 * (y 1).val = win4_2.index t (1 : Fin 2) * 40 + 1 * (y 1).val; omega

/-- An index of the output array is in point t's block iff on each axis its coordinate is in the block's range. -/
theorem in_block4 (t : Fin cfg4.N) (i : S100000x40.Idx) :
    i ∈ ((cfg4.win 2).blk t).view.set
      ↔ ∀ a : Fin 2, win4_2.index t a * S2000x40.size a ≤ (i a).val
          ∧ (i a).val < win4_2.index t a * S2000x40.size a + S2000x40.size a := by
  show i ∈ ((View.whole main_v51).slice (win4_2.rect t)).set ↔ _
  rw [View.set_slice_whole, Rect.mem_set_unit]
  exact Iff.rfl

/-- Every index of the output array is in the block of a point that writes back: row r is in block r / 2000. -/
theorem rows_covered4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 50 := N_4
  have ht : (i 0).val / 2000 < cfg4.N := by rw [hN]; omega
  obtain ⟨-, -, -, -, e4, e5⟩ := block_index4 ⟨(i 0).val / 2000, ht⟩
  refine ⟨⟨(i 0).val / 2000, ht⟩, flush4_2 _, ?_⟩
  rw [in_block4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win4_2.index ⟨(i 0).val / 2000, ht⟩ (1 : Fin 2) * 40 ≤ (i 1).val
      ∧ (i 1).val < win4_2.index ⟨(i 0).val / 2000, ht⟩ (1 : Fin 2) * 40 + 40
    rw [e5]
    omega

/-- The output array after the region: the mixing step of the neighbour-sum array and the dense-output array. -/
theorem final4 (c : Dev nD) :
    ((dat4 (F := Ideal) V c).arrAt 2 cfg4.N : FVec Ideal S100000x40 .f32)
      = Cert.Spec.combine (V c main_v50) (V c main_v9) :=
  (dat4 (F := Ideal) V c).arrAt_eq_of_cover 2 (Cert.Spec.combine (V c main_v50) (V c main_v9))
    (fun t _ => written_back4 V c t) rows_covered4

end Cert.KernelIdeal.Val

end
-- ==== Proof.ChainStep4.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region4
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge4 (W : Valuation τ sig (Elt Ideal)) :
    (StableHlo.after (hostOps4 (F := Ideal)) W (Proc.devRef .tc main_v50) : FVec Ideal S100000x40 .f32)
      = Sparse.edge (W (Proc.devRef .tc main_arg3)) (W (Proc.devRef .tc main_arg4)) (W (Proc.devRef .tc main_arg5))
          (W (Proc.devRef .tc main_v37)) := by
  after_results_simp
  rfl

/-- The stretch writes neither the dense output's buffer nor an edge array: each differs from all sixteen result
    buffers, so the fold of the operations' results leaves it as found. -/
theorem keep4_v9 (W : Valuation τ sig (Elt Ideal)) :
    StableHlo.after (hostOps4 (F := Ideal)) W (Proc.devRef .tc main_v9) = W (Proc.devRef .tc main_v9) := by
  after_results_simp
theorem keep4_arg3 (W : Valuation τ sig (Elt Ideal)) :
    StableHlo.after (hostOps4 (F := Ideal)) W (Proc.devRef .tc main_arg3) = W (Proc.devRef .tc main_arg3) := by
  after_results_simp
theorem keep4_arg4 (W : Valuation τ sig (Elt Ideal)) :
    StableHlo.after (hostOps4 (F := Ideal)) W (Proc.devRef .tc main_arg4) = W (Proc.devRef .tc main_arg4) := by
  after_results_simp
theorem keep4_arg5 (W : Valuation τ sig (Elt Ideal)) :
    StableHlo.after (hostOps4 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step4 (c : Dev nD) (p h2 : FVec Ideal S100000x40 .f32)
    (hp : (W12 (F := Ideal) m ρ c (Proc.devRef .tc main_v37) : FVec Ideal S100000x40 .f32) = p)
    (hh : (W12 (F := Ideal) m ρ c (Proc.devRef .tc main_v9) : FVec Ideal S100000x40 .f32) = h2)
    (h3 : W12 (F := Ideal) m ρ c (Proc.devRef .tc main_arg3) = m ((c : Thread nD τ).loc main_arg3))
    (h4 : W12 (F := Ideal) m ρ c (Proc.devRef .tc main_arg4) = m ((c : Thread nD τ).loc main_arg4))
    (h5 : W12 (F := Ideal) m ρ c (Proc.devRef .tc main_arg5) = m ((c : Thread nD τ).loc main_arg5)) :
    (W14 (F := Ideal) m ρ c (Proc.devRef .tc main_v51) : FVec Ideal S100000x40 .f32)
        = Cert.Spec.combine (Sparse.edge (m ((c : Thread nD τ).loc main_arg3)) (m ((c : Thread nD τ).loc main_arg4))
            (m ((c : Thread nD τ).loc main_arg5)) p) h2
      ∧ (W14 (F := Ideal) m ρ c (Proc.devRef .tc main_v9) : FVec Ideal S100000x40 .f32) = h2
      ∧ W14 (F := Ideal) m ρ c (Proc.devRef .tc main_arg3) = m ((c : Thread nD τ).loc main_arg3)
      ∧ W14 (F := Ideal) m ρ c (Proc.devRef .tc main_arg4) = m ((c : Thread nD τ).loc main_arg4)
      ∧ W14 (F := Ideal) m ρ c (Proc.devRef .tc main_arg5) = m ((c : Thread nD τ).loc main_arg5) := by
  -- after the stretch: the dense output as it was, the stretch's result the neighbour sum of p
  have e9 : (W13 (F := Ideal) m ρ c (Proc.devRef .tc main_v9) : FVec Ideal S100000x40 .f32) = h2 :=
    (keep4_v9 (W12 (F := Ideal) m ρ c)).trans hh
  have eE : (W13 (F := Ideal) m ρ c (Proc.devRef .tc main_v50) : FVec Ideal S100000x40 .f32)
      = Sparse.edge (m ((c : Thread nD τ).loc main_arg3)) (m ((c : Thread nD τ).loc main_arg4))
          (m ((c : Thread nD τ).loc main_arg5)) p := by
    refine (edge4 (W12 (F := Ideal) m ρ c)).trans ?_
    rw [h3, h4, h5, hp]
  refine ⟨?_, ?_, ?_, ?_, ?_⟩
  · -- the region's output window: the mixing of the two arrays it found
    refine (W14_arr (F := Ideal) m ρ c 2).trans ?_
    refine (final4 (V13 (F := Ideal) m ρ) c).trans ?_
    show Cert.Spec.combine (W13 (F := Ideal) m ρ c (Proc.devRef .tc main_v50))
        (W13 (F := Ideal) m ρ c (Proc.devRef .tc main_v9)) = _
    rw [eE, e9]
  · -- the dense output is an input window of the region: its array ends as found
    refine (W14_arr (F := Ideal) m ρ c 1).trans ?_
    refine ((dat4 (F := Ideal) (V13 (F := Ideal) m ρ) c).arrAt_in 1 rfl cfg4.N).trans ?_
    exact (A_eq4 (F := Ideal) (V13 (F := Ideal) m ρ) c 1).trans e9
  · exact (W14_of_ne (F := Ideal) m ρ c main_arg3 (by decide)).trans ((keep4_arg3 (W12 (F := Ideal) m ρ c)).trans h3)
  · exact (W14_of_ne (F := Ideal) m ρ c main_arg4 (by decide)).trans ((keep4_arg4 (W12 (F := Ideal) m ρ c)).trans h4)
  · exact (W14_of_ne (F := Ideal) m ρ c main_arg5 (by decide)).trans ((keep4_arg5 (W12 (F := Ideal) m ρ c)).trans h5)

end Cert.KernelIdeal.Val

end
-- ==== Proof.Region5.lean ====
/-
  Region 5, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner5 : (![0, 0] : Fin 2 → Nat) = fun _ => 0 := funext fun a => by fin_cases a <;> rfl

/-- The body's arithmetic at place (p, q) of a block: tanh of 9/10-word times the first block's entry plus
    1/10-word times the second block's entry, both at (p, q). -/
theorem mix5_at (x0 x1 : Vec Ideal S2000x40 .f32) (p : Fin 2000) (q : Fin 40) :
    k5_pay1 (F := Ideal) x0 x1 (ix2 p q)
      = Ideal.tanh (Ideal.ofBits .f32 0x3F666666#32 * x0 (ix2 p q) + Ideal.ofBits .f32 0x3DCCCCCD#32 * x1 (ix2 p q)) := by
  unfold k5_pay1
  simp only [shapeCast_self]
  rfl

/-- If the two loaded blocks are two whole arrays read through one placement e of block places into array places,
    the body's result is the mixing step of the two arrays read through e. -/
theorem mix5_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k5_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix5_at, h0, h1]
  rfl

/-- The three index maps, decided over the 50 grid points: each sends point t to block (t, 0). -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the mixing step of the two arrays the region finds. -/
theorem written_back5 (c : Dev nD) (t : Fin cfg5.N) :
    (dat5 (F := Ideal) V c).flushed 2 t
      = ((cfg5.win 2).blk t).view.read (Elt Ideal) (Cert.Spec.combine (V c main_v64) (V c main_v9)) := by
  show (cfg5.win 2).cut (grid5.coords t) ((dat5 V c).after 2 t) = _
  rw [after5_2]
  unfold out5_2
  rw [View.canon_unit_zero corner5]
  simp only [View.ld_unit_zero (S := S2000x40) corner5]
  obtain ⟨e0, e1, e2, e3, e4, e5⟩ := block_index5 t
  funext j
  refine mix5_through (iblk5 V c 0 t) (iblk5 V c 1 t) (V c main_v64) (V c main_v9)
    (((cfg5.win 2).blk t).view.emb) (fun y => ?_) (fun y => ?_) j
  · show V c main_v64 (((cfg5.win 0).blk t).view.emb y) = V c main_v64 (((cfg5.win 2).blk t).view.emb y)
    refine congrArg (V c main_v64) ?_
    funext a; apply Fin.ext
    match a with
    | ⟨0, _⟩ => show win5_0.index t (0 : Fin 2) * 2000 + 1 * (y 0).val = win5_2.index t (0 : Fin 2) * 2000 + 1 * (y 0).val; omega
    | ⟨1, _⟩ => show win5_0.index t (1 : Fin 2) * 40 + 1 * (y 1).val = win5_2.index t (1 : Fin 2) * 40 + 1 * (y 1).val; omega
  · show V c main_v9 (((cfg5.win 1).blk t).view.emb y) = V c main_v9 (((cfg5.win 2).blk t).view.emb y)
    refine congrArg (V c main_v9) ?_
    funext a; apply Fin.ext
    match a with
    | ⟨0, _⟩ => show win5_1.index t (0 : Fin 2) * 2000 + 1 * (y 0).val = win5_2.index t (0 : Fin 2) * 2000 + 1 * (y 0).val; omega
    | ⟨1, _⟩ => show win5_1.index t (1 : Fin 2) * 40 + 1 * (y 1).val = win5_2.index t (1 : Fin 2) * 40 + 1 * (y 1).val; omega

/-- An index of the output array is in point t's block iff on each axis its coordinate is in the block's range. -/
theorem in_block5 (t : Fin cfg5.N) (i : S100000x40.Idx) :
    i ∈ ((cfg5.win 2).blk t).view.set
      ↔ ∀ a : Fin 2, win5_2.index t a * S2000x40.size a ≤ (i a).val
          ∧ (i a).val < win5_2.index t a * S2000x40.size a + S2000x40.size a := by
  show i ∈ ((View.whole main_v65).slice (win5_2.rect t)).set ↔ _
  rw [View.set_slice_whole, Rect.mem_set_unit]
  exact Iff.rfl

/-- Every index of the output array is in the block of a point that writes back: row r is in block r / 2000. -/
theorem rows_covered5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 50 := N_5
  have ht : (i 0).val / 2000 < cfg5.N := by rw [hN]; omega
  obtain ⟨-, -, -, -, e4, e5⟩ := block_index5 ⟨(i 0).val / 2000, ht⟩
  refine ⟨⟨(i 0).val / 2000, ht⟩, flush5_2 _, ?_⟩
  rw [in_block5]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win5_2.index ⟨(i 0).val / 2000, ht⟩ (1 : Fin 2) * 40 ≤ (i 1).val
      ∧ (i 1).val < win5_2.index ⟨(i 0).val / 2000, ht⟩ (1 : Fin 2) * 40 + 40
    rw [e5]
    omega

/-- The output array after the region: the mixing step of the neighbour-sum array and the dense-output array. -/
theorem final5 (c : Dev nD) :
    ((dat5 (F := Ideal) V c).arrAt 2 cfg5.N : FVec Ideal S100000x40 .f32)
      = Cert.Spec.combine (V c main_v64) (V c main_v9) :=
  (dat5 (F := Ideal) V c).arrAt_eq_of_cover 2 (Cert.Spec.combine (V c main_v64) (V c main_v9))
    (fun t _ => written_back5 V c t) rows_covered5

end Cert.KernelIdeal.Val

end
-- ==== Proof.ChainStep5.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region5
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge5 (W : Valuation τ sig (Elt Ideal)) :
    (StableHlo.after (hostOps5 (F := Ideal)) W (Proc.devRef .tc main_v64) : FVec Ideal S100000x40 .f32)
      = Sparse.edge (W (Proc.devRef .tc main_arg3)) (W (Proc.devRef .tc main_arg4)) (W (Proc.devRef .tc main_arg5))
          (W (Proc.devRef .tc main_v51)) := by
  after_results_simp
  rfl

/-- The stretch writes neither the dense output's buffer nor an edge array: each differs from all sixteen result
    buffers, so the fold of the operations' results leaves it as found. -/
theorem keep5_v9 (W : Valuation τ sig (Elt Ideal)) :
    StableHlo.after (hostOps5 (F := Ideal)) W (Proc.devRef .tc main_v9) = W (Proc.devRef .tc main_v9) := by
  after_results_simp
theorem keep5_arg3 (W : Valuation τ sig (Elt Ideal)) :
    StableHlo.after (hostOps5 (F := Ideal)) W (Proc.devRef .tc main_arg3) = W (Proc.devRef .tc main_arg3) := by
  after_results_simp
theorem keep5_arg4 (W : Valuation τ sig (Elt Ideal)) :
    StableHlo.after (hostOps5 (F := Ideal)) W (Proc.devRef .tc main_arg4) = W (Proc.devRef .tc main_arg4) := by
  after_results_simp
theorem keep5_arg5 (W : Valuation τ sig (Elt Ideal)) :
    StableHlo.after (hostOps5 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step5 (c : Dev nD) (p h2 : FVec Ideal S100000x40 .f32)
    (hp : (W14 (F := Ideal) m ρ c (Proc.devRef .tc main_v51) : FVec Ideal S100000x40 .f32) = p)
    (hh : (W14 (F := Ideal) m ρ c (Proc.devRef .tc main_v9) : FVec Ideal S100000x40 .f32) = h2)
    (h3 : W14 (F := Ideal) m ρ c (Proc.devRef .tc main_arg3) = m ((c : Thread nD τ).loc main_arg3))
    (h4 : W14 (F := Ideal) m ρ c (Proc.devRef .tc main_arg4) = m ((c : Thread nD τ).loc main_arg4))
    (h5 : W14 (F := Ideal) m ρ c (Proc.devRef .tc main_arg5) = m ((c : Thread nD τ).loc main_arg5)) :
    (W16 (F := Ideal) m ρ c (Proc.devRef .tc main_v65) : FVec Ideal S100000x40 .f32)
        = Cert.Spec.combine (Sparse.edge (m ((c : Thread nD τ).loc main_arg3)) (m ((c : Thread nD τ).loc main_arg4))
            (m ((c : Thread nD τ).loc main_arg5)) p) h2
      ∧ (W16 (F := Ideal) m ρ c (Proc.devRef .tc main_v9) : FVec Ideal S100000x40 .f32) = h2
      ∧ W16 (F := Ideal) m ρ c (Proc.devRef .tc main_arg3) = m ((c : Thread nD τ).loc main_arg3)
      ∧ W16 (F := Ideal) m ρ c (Proc.devRef .tc main_arg4) = m ((c : Thread nD τ).loc main_arg4)
      ∧ W16 (F := Ideal) m ρ c (Proc.devRef .tc main_arg5) = m ((c : Thread nD τ).loc main_arg5) := by
  -- after the stretch: the dense output as it was, the stretch's result the neighbour sum of p
  have e9 : (W15 (F := Ideal) m ρ c (Proc.devRef .tc main_v9) : FVec Ideal S100000x40 .f32) = h2 :=
    (keep5_v9 (W14 (F := Ideal) m ρ c)).trans hh
  have eE : (W15 (F := Ideal) m ρ c (Proc.devRef .tc main_v64) : FVec Ideal S100000x40 .f32)
      = Sparse.edge (m ((c : Thread nD τ).loc main_arg3)) (m ((c : Thread nD τ).loc main_arg4))
          (m ((c : Thread nD τ).loc main_arg5)) p := by
    refine (edge5 (W14 (F := Ideal) m ρ c)).trans ?_
    rw [h3, h4, h5, hp]
  refine ⟨?_, ?_, ?_, ?_, ?_⟩
  · -- the region's output window: the mixing of the two arrays it found
    refine (W16_arr (F := Ideal) m ρ c 2).trans ?_
    refine (final5 (V15 (F := Ideal) m ρ) c).trans ?_
    show Cert.Spec.combine (W15 (F := Ideal) m ρ c (Proc.devRef .tc main_v64))
        (W15 (F := Ideal) m ρ c (Proc.devRef .tc main_v9)) = _
    rw [eE, e9]
  · -- the dense output is an input window of the region: its array ends as found
    refine (W16_arr (F := Ideal) m ρ c 1).trans ?_
    refine ((dat5 (F := Ideal) (V15 (F := Ideal) m ρ) c).arrAt_in 1 rfl cfg5.N).trans ?_
    exact (A_eq5 (F := Ideal) (V15 (F := Ideal) m ρ) c 1).trans e9
  · exact (W16_of_ne (F := Ideal) m ρ c main_arg3 (by decide)).trans ((keep5_arg3 (W14 (F := Ideal) m ρ c)).trans h3)
  · exact (W16_of_ne (F := Ideal) m ρ c main_arg4 (by decide)).trans ((keep5_arg4 (W14 (F := Ideal) m ρ c)).trans h4)
  · exact (W16_of_ne (F := Ideal) m ρ c main_arg5 (by decide)).trans ((keep5_arg5 (W14 (F := Ideal) m ρ c)).trans h5)

end Cert.KernelIdeal.Val

end
-- ==== Proof.Region6.lean ====
/-
  Region 6, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner6 : (![0, 0] : Fin 2 → Nat) = fun _ => 0 := funext fun a => by fin_cases a <;> rfl

/-- The body's arithmetic at place (p, q) of a block: tanh of 9/10-word times the first block's entry plus
    1/10-word times the second block's entry, both at (p, q). -/
theorem mix6_at (x0 x1 : Vec Ideal S2000x40 .f32) (p : Fin 2000) (q : Fin 40) :
    k6_pay1 (F := Ideal) x0 x1 (ix2 p q)
      = Ideal.tanh (Ideal.ofBits .f32 0x3F666666#32 * x0 (ix2 p q) + Ideal.ofBits .f32 0x3DCCCCCD#32 * x1 (ix2 p q)) := by
  unfold k6_pay1
  simp only [shapeCast_self]
  rfl

/-- If the two loaded blocks are two whole arrays read through one placement e of block places into array places,
    the body's result is the mixing step of the two arrays read through e. -/
theorem mix6_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k6_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix6_at, h0, h1]
  rfl

/-- The three index maps, decided over the 50 grid points: each sends point t to block (t, 0). -/
theorem block_index6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the mixing step of the two arrays the region finds. -/
theorem written_back6 (c : Dev nD) (t : Fin cfg6.N) :
    (dat6 (F := Ideal) V c).flushed 2 t
      = ((cfg6.win 2).blk t).view.read (Elt Ideal) (Cert.Spec.combine (V c main_v78) (V c main_v9)) := by
  show (cfg6.win 2).cut (grid6.coords t) ((dat6 V c).after 2 t) = _
  rw [after6_2]
  unfold out6_2
  rw [View.canon_unit_zero corner6]
  simp only [View.ld_unit_zero (S := S2000x40) corner6]
  obtain ⟨e0, e1, e2, e3, e4, e5⟩ := block_index6 t
  funext j
  refine mix6_through (iblk6 V c 0 t) (iblk6 V c 1 t) (V c main_v78) (V c main_v9)
    (((cfg6.win 2).blk t).view.emb) (fun y => ?_) (fun y => ?_) j
  · show V c main_v78 (((cfg6.win 0).blk t).view.emb y) = V c main_v78 (((cfg6.win 2).blk t).view.emb y)
    refine congrArg (V c main_v78) ?_
    funext a; apply Fin.ext
    match a with
    | ⟨0, _⟩ => show win6_0.index t (0 : Fin 2) * 2000 + 1 * (y 0).val = win6_2.index t (0 : Fin 2) * 2000 + 1 * (y 0).val; omega
    | ⟨1, _⟩ => show win6_0.index t (1 : Fin 2) * 40 + 1 * (y 1).val = win6_2.index t (1 : Fin 2) * 40 + 1 * (y 1).val; omega
  · show V c main_v9 (((cfg6.win 1).blk t).view.emb y) = V c main_v9 (((cfg6.win 2).blk t).view.emb y)
    refine congrArg (V c main_v9) ?_
    funext a; apply Fin.ext
    match a with
    | ⟨0, _⟩ => show win6_1.index t (0 : Fin 2) * 2000 + 1 * (y 0).val = win6_2.index t (0 : Fin 2) * 2000 + 1 * (y 0).val; omega
    | ⟨1, _⟩ => show win6_1.index t (1 : Fin 2) * 40 + 1 * (y 1).val = win6_2.index t (1 : Fin 2) * 40 + 1 * (y 1).val; omega

/-- An index of the output array is in point t's block iff on each axis its coordinate is in the block's range. -/
theorem in_block6 (t : Fin cfg6.N) (i : S100000x40.Idx) :
    i ∈ ((cfg6.win 2).blk t).view.set
      ↔ ∀ a : Fin 2, win6_2.index t a * S2000x40.size a ≤ (i a).val
          ∧ (i a).val < win6_2.index t a * S2000x40.size a + S2000x40.size a := by
  show i ∈ ((View.whole main_v79).slice (win6_2.rect t)).set ↔ _
  rw [View.set_slice_whole, Rect.mem_set_unit]
  exact Iff.rfl

/-- Every index of the output array is in the block of a point that writes back: row r is in block r / 2000. -/
theorem rows_covered6 (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  have hN : cfg6.N = 50 := N_6
  have ht : (i 0).val / 2000 < cfg6.N := by rw [hN]; omega
  obtain ⟨-, -, -, -, e4, e5⟩ := block_index6 ⟨(i 0).val / 2000, ht⟩
  refine ⟨⟨(i 0).val / 2000, ht⟩, flush6_2 _, ?_⟩
  rw [in_block6]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win6_2.index ⟨(i 0).val / 2000, ht⟩ (1 : Fin 2) * 40 ≤ (i 1).val
      ∧ (i 1).val < win6_2.index ⟨(i 0).val / 2000, ht⟩ (1 : Fin 2) * 40 + 40
    rw [e5]
    omega

/-- The output array after the region: the mixing step of the neighbour-sum array and the dense-output array. -/
theorem final6 (c : Dev nD) :
    ((dat6 (F := Ideal) V c).arrAt 2 cfg6.N : FVec Ideal S100000x40 .f32)
      = Cert.Spec.combine (V c main_v78) (V c main_v9) :=
  (dat6 (F := Ideal) V c).arrAt_eq_of_cover 2 (Cert.Spec.combine (V c main_v78) (V c main_v9))
    (fun t _ => written_back6 V c t) rows_covered6

end Cert.KernelIdeal.Val

end
-- ==== Proof.ChainStep6.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region6
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge6 (W : Valuation τ sig (Elt Ideal)) :
    (StableHlo.after (hostOps6 (F := Ideal)) W (Proc.devRef .tc main_v78) : FVec Ideal S100000x40 .f32)
      = Sparse.edge (W (Proc.devRef .tc main_arg3)) (W (Proc.devRef .tc main_arg4)) (W (Proc.devRef .tc main_arg5))
          (W (Proc.devRef .tc main_v65)) := by
  after_results_simp
  rfl

/-- The stretch writes neither the dense output's buffer nor an edge array: each differs from all sixteen result
    buffers, so the fold of the operations' results leaves it as found. -/
theorem keep6_v9 (W : Valuation τ sig (Elt Ideal)) :
    StableHlo.after (hostOps6 (F := Ideal)) W (Proc.devRef .tc main_v9) = W (Proc.devRef .tc main_v9) := by
  after_results_simp
theorem keep6_arg3 (W : Valuation τ sig (Elt Ideal)) :
    StableHlo.after (hostOps6 (F := Ideal)) W (Proc.devRef .tc main_arg3) = W (Proc.devRef .tc main_arg3) := by
  after_results_simp
theorem keep6_arg4 (W : Valuation τ sig (Elt Ideal)) :
    StableHlo.after (hostOps6 (F := Ideal)) W (Proc.devRef .tc main_arg4) = W (Proc.devRef .tc main_arg4) := by
  after_results_simp
theorem keep6_arg5 (W : Valuation τ sig (Elt Ideal)) :
    StableHlo.after (hostOps6 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step6 (c : Dev nD) (p h2 : FVec Ideal S100000x40 .f32)
    (hp : (W16 (F := Ideal) m ρ c (Proc.devRef .tc main_v65) : FVec Ideal S100000x40 .f32) = p)
    (hh : (W16 (F := Ideal) m ρ c (Proc.devRef .tc main_v9) : FVec Ideal S100000x40 .f32) = h2)
    (h3 : W16 (F := Ideal) m ρ c (Proc.devRef .tc main_arg3) = m ((c : Thread nD τ).loc main_arg3))
    (h4 : W16 (F := Ideal) m ρ c (Proc.devRef .tc main_arg4) = m ((c : Thread nD τ).loc main_arg4))
    (h5 : W16 (F := Ideal) m ρ c (Proc.devRef .tc main_arg5) = m ((c : Thread nD τ).loc main_arg5)) :
    (W18 (F := Ideal) m ρ c (Proc.devRef .tc main_v79) : FVec Ideal S100000x40 .f32)
        = Cert.Spec.combine (Sparse.edge (m ((c : Thread nD τ).loc main_arg3)) (m ((c : Thread nD τ).loc main_arg4))
            (m ((c : Thread nD τ).loc main_arg5)) p) h2
      ∧ (W18 (F := Ideal) m ρ c (Proc.devRef .tc main_v9) : FVec Ideal S100000x40 .f32) = h2
      ∧ W18 (F := Ideal) m ρ c (Proc.devRef .tc main_arg3) = m ((c : Thread nD τ).loc main_arg3)
      ∧ W18 (F := Ideal) m ρ c (Proc.devRef .tc main_arg4) = m ((c : Thread nD τ).loc main_arg4)
      ∧ W18 (F := Ideal) m ρ c (Proc.devRef .tc main_arg5) = m ((c : Thread nD τ).loc main_arg5) := by
  -- after the stretch: the dense output as it was, the stretch's result the neighbour sum of p
  have e9 : (W17 (F := Ideal) m ρ c (Proc.devRef .tc main_v9) : FVec Ideal S100000x40 .f32) = h2 :=
    (keep6_v9 (W16 (F := Ideal) m ρ c)).trans hh
  have eE : (W17 (F := Ideal) m ρ c (Proc.devRef .tc main_v78) : FVec Ideal S100000x40 .f32)
      = Sparse.edge (m ((c : Thread nD τ).loc main_arg3)) (m ((c : Thread nD τ).loc main_arg4))
          (m ((c : Thread nD τ).loc main_arg5)) p := by
    refine (edge6 (W16 (F := Ideal) m ρ c)).trans ?_
    rw [h3, h4, h5, hp]
  refine ⟨?_, ?_, ?_, ?_, ?_⟩
  · -- the region's output window: the mixing of the two arrays it found
    refine (W18_arr (F := Ideal) m ρ c 2).trans ?_
    refine (final6 (V17 (F := Ideal) m ρ) c).trans ?_
    show Cert.Spec.combine (W17 (F := Ideal) m ρ c (Proc.devRef .tc main_v78))
        (W17 (F := Ideal) m ρ c (Proc.devRef .tc main_v9)) = _
    rw [eE, e9]
  · -- the dense output is an input window of the region: its array ends as found
    refine (W18_arr (F := Ideal) m ρ c 1).trans ?_
    refine ((dat6 (F := Ideal) (V17 (F := Ideal) m ρ) c).arrAt_in 1 rfl cfg6.N).trans ?_
    exact (A_eq6 (F := Ideal) (V17 (F := Ideal) m ρ) c 1).trans e9
  · exact (W18_of_ne (F := Ideal) m ρ c main_arg3 (by decide)).trans ((keep6_arg3 (W16 (F := Ideal) m ρ c)).trans h3)
  · exact (W18_of_ne (F := Ideal) m ρ c main_arg4 (by decide)).trans ((keep6_arg4 (W16 (F := Ideal) m ρ c)).trans h4)
  · exact (W18_of_ne (F := Ideal) m ρ c main_arg5 (by decide)).trans ((keep6_arg5 (W16 (F := Ideal) m ρ c)).trans h5)

end Cert.KernelIdeal.Val

end
-- ==== Proof.Region7.lean ====
/-
  Region 7, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner7 : (![0, 0] : Fin 2 → Nat) = fun _ => 0 := funext fun a => by fin_cases a <;> rfl

/-- The body's arithmetic at place (p, q) of a block: tanh of 9/10-word times the first block's entry plus
    1/10-word times the second block's entry, both at (p, q). -/
theorem mix7_at (x0 x1 : Vec Ideal S2000x40 .f32) (p : Fin 2000) (q : Fin 40) :
    k7_pay1 (F := Ideal) x0 x1 (ix2 p q)
      = Ideal.tanh (Ideal.ofBits .f32 0x3F666666#32 * x0 (ix2 p q) + Ideal.ofBits .f32 0x3DCCCCCD#32 * x1 (ix2 p q)) := by
  unfold k7_pay1
  simp only [shapeCast_self]
  rfl

/-- If the two loaded blocks are two whole arrays read through one placement e of block places into array places,
    the body's result is the mixing step of the two arrays read through e. -/
theorem mix7_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k7_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix7_at, h0, h1]
  rfl

/-- The three index maps, decided over the 50 grid points: each sends point t to block (t, 0). -/
theorem block_index7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the mixing step of the two arrays the region finds. -/
theorem written_back7 (c : Dev nD) (t : Fin cfg7.N) :
    (dat7 (F := Ideal) V c).flushed 2 t
      = ((cfg7.win 2).blk t).view.read (Elt Ideal) (Cert.Spec.combine (V c main_v92) (V c main_v9)) := by
  show (cfg7.win 2).cut (grid7.coords t) ((dat7 V c).after 2 t) = _
  rw [after7_2]
  unfold out7_2
  rw [View.canon_unit_zero corner7]
  simp only [View.ld_unit_zero (S := S2000x40) corner7]
  obtain ⟨e0, e1, e2, e3, e4, e5⟩ := block_index7 t
  funext j
  refine mix7_through (iblk7 V c 0 t) (iblk7 V c 1 t) (V c main_v92) (V c main_v9)
    (((cfg7.win 2).blk t).view.emb) (fun y => ?_) (fun y => ?_) j
  · show V c main_v92 (((cfg7.win 0).blk t).view.emb y) = V c main_v92 (((cfg7.win 2).blk t).view.emb y)
    refine congrArg (V c main_v92) ?_
    funext a; apply Fin.ext
    match a with
    | ⟨0, _⟩ => show win7_0.index t (0 : Fin 2) * 2000 + 1 * (y 0).val = win7_2.index t (0 : Fin 2) * 2000 + 1 * (y 0).val; omega
    | ⟨1, _⟩ => show win7_0.index t (1 : Fin 2) * 40 + 1 * (y 1).val = win7_2.index t (1 : Fin 2) * 40 + 1 * (y 1).val; omega
  · show V c main_v9 (((cfg7.win 1).blk t).view.emb y) = V c main_v9 (((cfg7.win 2).blk t).view.emb y)
    refine congrArg (V c main_v9) ?_
    funext a; apply Fin.ext
    match a with
    | ⟨0, _⟩ => show win7_1.index t (0 : Fin 2) * 2000 + 1 * (y 0).val = win7_2.index t (0 : Fin 2) * 2000 + 1 * (y 0).val; omega
    | ⟨1, _⟩ => show win7_1.index t (1 : Fin 2) * 40 + 1 * (y 1).val = win7_2.index t (1 : Fin 2) * 40 + 1 * (y 1).val; omega

/-- An index of the output array is in point t's block iff on each axis its coordinate is in the block's range. -/
theorem in_block7 (t : Fin cfg7.N) (i : S100000x40.Idx) :
    i ∈ ((cfg7.win 2).blk t).view.set
      ↔ ∀ a : Fin 2, win7_2.index t a * S2000x40.size a ≤ (i a).val
          ∧ (i a).val < win7_2.index t a * S2000x40.size a + S2000x40.size a := by
  show i ∈ ((View.whole main_v93).slice (win7_2.rect t)).set ↔ _
  rw [View.set_slice_whole, Rect.mem_set_unit]
  exact Iff.rfl

/-- Every index of the output array is in the block of a point that writes back: row r is in block r / 2000. -/
theorem rows_covered7 (i : S100000x40.Idx) :
    ∃ t : Fin cfg7.N, (cfg7.win 2).flush t = true ∧ i ∈ ((cfg7.win 2).blk t).view.set := by
  have hi0 : (i 0).val < 100000 := (i 0).isLt
  have hi1 : (i 1).val < 40 := (i 1).isLt
  have hN : cfg7.N = 50 := N_7
  have ht : (i 0).val / 2000 < cfg7.N := by rw [hN]; omega
  obtain ⟨-, -, -, -, e4, e5⟩ := block_index7 ⟨(i 0).val / 2000, ht⟩
  refine ⟨⟨(i 0).val / 2000, ht⟩, flush7_2 _, ?_⟩
  rw [in_block7]
  intro a
  match a with
  | ⟨0, _⟩ =>
    show win7_2.index ⟨(i 0).val / 2000, ht⟩ (0 : Fin 2) * 2000 ≤ (i 0).val
      ∧ (i 0).val < win7_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win7_2.index ⟨(i 0).val / 2000, ht⟩ (1 : Fin 2) * 40 ≤ (i 1).val
      ∧ (i 1).val < win7_2.index ⟨(i 0).val / 2000, ht⟩ (1 : Fin 2) * 40 + 40
    rw [e5]
    omega

/-- The output array after the region: the mixing step of the neighbour-sum array and the dense-output array. -/
theorem final7 (c : Dev nD) :
    ((dat7 (F := Ideal) V c).arrAt 2 cfg7.N : FVec Ideal S100000x40 .f32)
      = Cert.Spec.combine (V c main_v92) (V c main_v9) :=
  (dat7 (F := Ideal) V c).arrAt_eq_of_cover 2 (Cert.Spec.combine (V c main_v92) (V c main_v9))
    (fun t _ => written_back7 V c t) rows_covered7

end Cert.KernelIdeal.Val

end
-- ==== Proof.ChainStep7.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region7
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge7 (W : Valuation τ sig (Elt Ideal)) :
    (StableHlo.after (hostOps7 (F := Ideal)) W (Proc.devRef .tc main_v92) : FVec Ideal S100000x40 .f32)
      = Sparse.edge (W (Proc.devRef .tc main_arg3)) (W (Proc.devRef .tc main_arg4)) (W (Proc.devRef .tc main_arg5))
          (W (Proc.devRef .tc main_v79)) := by
  after_results_simp
  rfl

/-- The stretch writes neither the dense output's buffer nor an edge array: each differs from all sixteen result
    buffers, so the fold of the operations' results leaves it as found. -/
theorem keep7_v9 (W : Valuation τ sig (Elt Ideal)) :
    StableHlo.after (hostOps7 (F := Ideal)) W (Proc.devRef .tc main_v9) = W (Proc.devRef .tc main_v9) := by
  after_results_simp
theorem keep7_arg3 (W : Valuation τ sig (Elt Ideal)) :
    StableHlo.after (hostOps7 (F := Ideal)) W (Proc.devRef .tc main_arg3) = W (Proc.devRef .tc main_arg3) := by
  after_results_simp
theorem keep7_arg4 (W : Valuation τ sig (Elt Ideal)) :
    StableHlo.after (hostOps7 (F := Ideal)) W (Proc.devRef .tc main_arg4) = W (Proc.devRef .tc main_arg4) := by
  after_results_simp
theorem keep7_arg5 (W : Valuation τ sig (Elt Ideal)) :
    StableHlo.after (hostOps7 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step7 (c : Dev nD) (p h2 : FVec Ideal S100000x40 .f32)
    (hp : (W18 (F := Ideal) m ρ c (Proc.devRef .tc main_v79) : FVec Ideal S100000x40 .f32) = p)
    (hh : (W18 (F := Ideal) m ρ c (Proc.devRef .tc main_v9) : FVec Ideal S100000x40 .f32) = h2)
    (h3 : W18 (F := Ideal) m ρ c (Proc.devRef .tc main_arg3) = m ((c : Thread nD τ).loc main_arg3))
    (h4 : W18 (F := Ideal) m ρ c (Proc.devRef .tc main_arg4) = m ((c : Thread nD τ).loc main_arg4))
    (h5 : W18 (F := Ideal) m ρ c (Proc.devRef .tc main_arg5) = m ((c : Thread nD τ).loc main_arg5)) :
    (W20 (F := Ideal) m ρ c (Proc.devRef .tc main_v93) : FVec Ideal S100000x40 .f32)
        = Cert.Spec.combine (Sparse.edge (m ((c : Thread nD τ).loc main_arg3)) (m ((c : Thread nD τ).loc main_arg4))
            (m ((c : Thread nD τ).loc main_arg5)) p) h2
      ∧ (W20 (F := Ideal) m ρ c (Proc.devRef .tc main_v9) : FVec Ideal S100000x40 .f32) = h2
      ∧ W20 (F := Ideal) m ρ c (Proc.devRef .tc main_arg3) = m ((c : Thread nD τ).loc main_arg3)
      ∧ W20 (F := Ideal) m ρ c (Proc.devRef .tc main_arg4) = m ((c : Thread nD τ).loc main_arg4)
      ∧ W20 (F := Ideal) m ρ c (Proc.devRef .tc main_arg5) = m ((c : Thread nD τ).loc main_arg5) := by
  -- after the stretch: the dense output as it was, the stretch's result the neighbour sum of p
  have e9 : (W19 (F := Ideal) m ρ c (Proc.devRef .tc main_v9) : FVec Ideal S100000x40 .f32) = h2 :=
    (keep7_v9 (W18 (F := Ideal) m ρ c)).trans hh
  have eE : (W19 (F := Ideal) m ρ c (Proc.devRef .tc main_v92) : FVec Ideal S100000x40 .f32)
      = Sparse.edge (m ((c : Thread nD τ).loc main_arg3)) (m ((c : Thread nD τ).loc main_arg4))
          (m ((c : Thread nD τ).loc main_arg5)) p := by
    refine (edge7 (W18 (F := Ideal) m ρ c)).trans ?_
    rw [h3, h4, h5, hp]
  refine ⟨?_, ?_, ?_, ?_, ?_⟩
  · -- the region's output window: the mixing of the two arrays it found
    refine (W20_arr (F := Ideal) m ρ c 2).trans ?_
    refine (final7 (V19 (F := Ideal) m ρ) c).trans ?_
    show Cert.Spec.combine (W19 (F := Ideal) m ρ c (Proc.devRef .tc main_v92))
        (W19 (F := Ideal) m ρ c (Proc.devRef .tc main_v9)) = _
    rw [eE, e9]
  · -- the dense output is an input window of the region: its array ends as found
    refine (W20_arr (F := Ideal) m ρ c 1).trans ?_
    refine ((dat7 (F := Ideal) (V19 (F := Ideal) m ρ) c).arrAt_in 1 rfl cfg7.N).trans ?_
    exact (A_eq7 (F := Ideal) (V19 (F := Ideal) m ρ) c 1).trans e9
  · exact (W20_of_ne (F := Ideal) m ρ c main_arg3 (by decide)).trans ((keep7_arg3 (W18 (F := Ideal) m ρ c)).trans h3)
  · exact (W20_of_ne (F := Ideal) m ρ c main_arg4 (by decide)).trans ((keep7_arg4 (W18 (F := Ideal) m ρ c)).trans h4)
  · exact (W20_of_ne (F := Ideal) m ρ c main_arg5 (by decide)).trans ((keep7_arg5 (W18 (F := Ideal) m ρ c)).trans h5)

end Cert.KernelIdeal.Val

end
-- ==== Proof.Region8.lean ====
/-
  Region 8, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner8 : (![0, 0] : Fin 2 → Nat) = fun _ => 0 := funext fun a => by fin_cases a <;> rfl

/-- The body's arithmetic at place (p, q) of a block: tanh of 9/10-word times the first block's entry plus
    1/10-word times the second block's entry, both at (p, q). -/
theorem mix8_at (x0 x1 : Vec Ideal S2000x40 .f32) (p : Fin 2000) (q : Fin 40) :
    k8_pay1 (F := Ideal) x0 x1 (ix2 p q)
      = Ideal.tanh (Ideal.ofBits .f32 0x3F666666#32 * x0 (ix2 p q) + Ideal.ofBits .f32 0x3DCCCCCD#32 * x1 (ix2 p q)) := by
  unfold k8_pay1
  simp only [shapeCast_self]
  rfl

/-- If the two loaded blocks are two whole arrays read through one placement e of block places into array places,
    the body's result is the mixing step of the two arrays read through e. -/
theorem mix8_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k8_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix8_at, h0, h1]
  rfl

/-- The three index maps, decided over the 50 grid points: each sends point t to block (t, 0). -/
theorem block_index8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point t writes back is block t of the mixing step of the two arrays the region finds. -/
theorem written_back8 (c : Dev nD) (t : Fin cfg8.N) :
    (dat8 (F := Ideal) V c).flushed 2 t
      = ((cfg8.win 2).blk t).view.read (Elt Ideal) (Cert.Spec.combine (V c main_v106) (V c main_v9)) := by
  show (cfg8.win 2).cut (grid8.coords t) ((dat8 V c).after 2 t) = _
  rw [after8_2]
  unfold out8_2
  rw [View.canon_unit_zero corner8]
  simp only [View.ld_unit_zero (S := S2000x40) corner8]
  obtain ⟨e0, e1, e2, e3, e4, e5⟩ := block_index8 t
  funext j
  refine mix8_through (iblk8 V c 0 t) (iblk8 V c 1 t) (V c main_v106) (V c main_v9)
    (((cfg8.win 2).blk t).view.emb) (fun y => ?_) (fun y => ?_) j
  · show V c main_v106 (((cfg8.win 0).blk t).view.emb y) = V c main_v106 (((cfg8.win 2).blk t).view.emb y)
    refine congrArg (V c main_v106) ?_
    funext a; apply Fin.ext
    match a with
    | ⟨0, _⟩ => show win8_0.index t (0 : Fin 2) * 2000 + 1 * (y 0).val = win8_2.index t (0 : Fin 2) * 2000 + 1 * (y 0).val; omega
    | ⟨1, _⟩ => show win8_0.index t (1 : Fin 2) * 40 + 1 * (y 1).val = win8_2.index t (1 : Fin 2) * 40 + 1 * (y 1).val; omega
  · show V c main_v9 (((cfg8.win 1).blk t).view.emb y) = V c main_v9 (((cfg8.win 2).blk t).view.emb y)
    refine congrArg (V c main_v9) ?_
    funext a; apply Fin.ext
    match a with
    | ⟨0, _⟩ => show win8_1.index t (0 : Fin 2) * 2000 + 1 * (y 0).val = win8_2.index t (0 : Fin 2) * 2000 + 1 * (y 0).val; omega
    | ⟨1, _⟩ => show win8_1.index t (1 : Fin 2) * 40 + 1 * (y 1).val = win8_2.index t (1 : Fin 2) * 40 + 1 * (y 1).val; omega

/-- An index of the output array is in point t's block iff on each axis its coordinate is in the block's range. -/
theorem in_block8 (t : Fin cfg8.N) (i : S100000x40.Idx) :
    i ∈ ((cfg8.win 2).blk t).view.set
      ↔ ∀ a : Fin 2, win8_2.index t a * S2000x40.size a ≤ (i a).val
          ∧ (i a).val < win8_2.index t a * S2000x40.size a + S2000x40.size a := by
  show i ∈ ((View.whole main_v107).slice (win8_2.rect t)).set ↔ _
  rw [View.set_slice_whole, Rect.mem_set_unit]
  exact Iff.rfl

/-- Every index of the output array is in the block of a point that writes back: row r is in block r / 2000. -/
theorem rows_covered8 (i : S100000x40.Idx) :
    ∃ t : Fin cfg8.N, (cfg8.win 2).flush t = true ∧ i ∈ ((cfg8.win 2).blk t).view.set := by
  have hi0 : (i 0).val < 100000 := (i 0).isLt
  have hi1 : (i 1).val < 40 := (i 1).isLt
  have hN : cfg8.N = 50 := N_8
  have ht : (i 0).val / 2000 < cfg8.N := by rw [hN]; omega
  obtain ⟨-, -, -, -, e4, e5⟩ := block_index8 ⟨(i 0).val / 2000, ht⟩
  refine ⟨⟨(i 0).val / 2000, ht⟩, flush8_2 _, ?_⟩
  rw [in_block8]
  intro a
  match a with
  | ⟨0, _⟩ =>
    show win8_2.index ⟨(i 0).val / 2000, ht⟩ (0 : Fin 2) * 2000 ≤ (i 0).val
      ∧ (i 0).val < win8_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win8_2.index ⟨(i 0).val / 2000, ht⟩ (1 : Fin 2) * 40 ≤ (i 1).val
      ∧ (i 1).val < win8_2.index ⟨(i 0).val / 2000, ht⟩ (1 : Fin 2) * 40 + 40
    rw [e5]
    omega

/-- The output array after the region: the mixing step of the neighbour-sum array and the dense-output array. -/
theorem final8 (c : Dev nD) :
    ((dat8 (F := Ideal) V c).arrAt 2 cfg8.N : FVec Ideal S100000x40 .f32)
      = Cert.Spec.combine (V c main_v106) (V c main_v9) :=
  (dat8 (F := Ideal) V c).arrAt_eq_of_cover 2 (Cert.Spec.combine (V c main_v106) (V c main_v9))
    (fun t _ => written_back8 V c t) rows_covered8

end Cert.KernelIdeal.Val

end
-- ==== Proof.ChainStep8.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region8
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge8 (W : Valuation τ sig (Elt Ideal)) :
    (StableHlo.after (hostOps8 (F := Ideal)) W (Proc.devRef .tc main_v106) : FVec Ideal S100000x40 .f32)
      = Sparse.edge (W (Proc.devRef .tc main_arg3)) (W (Proc.devRef .tc main_arg4)) (W (Proc.devRef .tc main_arg5))
          (W (Proc.devRef .tc main_v93)) := by
  after_results_simp
  rfl

/-- The stretch writes neither the dense output's buffer nor an edge array: each differs from all sixteen result
    buffers, so the fold of the operations' results leaves it as found. -/
theorem keep8_v9 (W : Valuation τ sig (Elt Ideal)) :
    StableHlo.after (hostOps8 (F := Ideal)) W (Proc.devRef .tc main_v9) = W (Proc.devRef .tc main_v9) := by
  after_results_simp
theorem keep8_arg3 (W : Valuation τ sig (Elt Ideal)) :
    StableHlo.after (hostOps8 (F := Ideal)) W (Proc.devRef .tc main_arg3) = W (Proc.devRef .tc main_arg3) := by
  after_results_simp
theorem keep8_arg4 (W : Valuation τ sig (Elt Ideal)) :
    StableHlo.after (hostOps8 (F := Ideal)) W (Proc.devRef .tc main_arg4) = W (Proc.devRef .tc main_arg4) := by
  after_results_simp
theorem keep8_arg5 (W : Valuation τ sig (Elt Ideal)) :
    StableHlo.after (hostOps8 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step8 (c : Dev nD) (p h2 : FVec Ideal S100000x40 .f32)
    (hp : (W20 (F := Ideal) m ρ c (Proc.devRef .tc main_v93) : FVec Ideal S100000x40 .f32) = p)
    (hh : (W20 (F := Ideal) m ρ c (Proc.devRef .tc main_v9) : FVec Ideal S100000x40 .f32) = h2)
    (h3 : W20 (F := Ideal) m ρ c (Proc.devRef .tc main_arg3) = m ((c : Thread nD τ).loc main_arg3))
    (h4 : W20 (F := Ideal) m ρ c (Proc.devRef .tc main_arg4) = m ((c : Thread nD τ).loc main_arg4))
    (h5 : W20 (F := Ideal) m ρ c (Proc.devRef .tc main_arg5) = m ((c : Thread nD τ).loc main_arg5)) :
    (W22 (F := Ideal) m ρ c (Proc.devRef .tc main_v107) : FVec Ideal S100000x40 .f32)
        = Cert.Spec.combine (Sparse.edge (m ((c : Thread nD τ).loc main_arg3)) (m ((c : Thread nD τ).loc main_arg4))
            (m ((c : Thread nD τ).loc main_arg5)) p) h2
      ∧ (W22 (F := Ideal) m ρ c (Proc.devRef .tc main_v9) : FVec Ideal S100000x40 .f32) = h2
      ∧ W22 (F := Ideal) m ρ c (Proc.devRef .tc main_arg3) = m ((c : Thread nD τ).loc main_arg3)
      ∧ W22 (F := Ideal) m ρ c (Proc.devRef .tc main_arg4) = m ((c : Thread nD τ).loc main_arg4)
      ∧ W22 (F := Ideal) m ρ c (Proc.devRef .tc main_arg5) = m ((c : Thread nD τ).loc main_arg5) := by
  -- after the stretch: the dense output as it was, the stretch's result the neighbour sum of p
  have e9 : (W21 (F := Ideal) m ρ c (Proc.devRef .tc main_v9) : FVec Ideal S100000x40 .f32) = h2 :=
    (keep8_v9 (W20 (F := Ideal) m ρ c)).trans hh
  have eE : (W21 (F := Ideal) m ρ c (Proc.devRef .tc main_v106) : FVec Ideal S100000x40 .f32)
      = Sparse.edge (m ((c : Thread nD τ).loc main_arg3)) (m ((c : Thread nD τ).loc main_arg4))
          (m ((c : Thread nD τ).loc main_arg5)) p := by
    refine (edge8 (W20 (F := Ideal) m ρ c)).trans ?_
    rw [h3, h4, h5, hp]
  refine ⟨?_, ?_, ?_, ?_, ?_⟩
  · -- the region's output window: the mixing of the two arrays it found
    refine (W22_arr (F := Ideal) m ρ c 2).trans ?_
    refine (final8 (V21 (F := Ideal) m ρ) c).trans ?_
    show Cert.Spec.combine (W21 (F := Ideal) m ρ c (Proc.devRef .tc main_v106))
        (W21 (F := Ideal) m ρ c (Proc.devRef .tc main_v9)) = _
    rw [eE, e9]
  · -- the dense output is an input window of the region: its array ends as found
    refine (W22_arr (F := Ideal) m ρ c 1).trans ?_
    refine ((dat8 (F := Ideal) (V21 (F := Ideal) m ρ) c).arrAt_in 1 rfl cfg8.N).trans ?_
    exact (A_eq8 (F := Ideal) (V21 (F := Ideal) m ρ) c 1).trans e9
  · exact (W22_of_ne (F := Ideal) m ρ c main_arg3 (by decide)).trans ((keep8_arg3 (W20 (F := Ideal) m ρ c)).trans h3)
  · exact (W22_of_ne (F := Ideal) m ρ c main_arg4 (by decide)).trans ((keep8_arg4 (W20 (F := Ideal) m ρ c)).trans h4)
  · exact (W22_of_ne (F := Ideal) m ρ c main_arg5 (by decide)).trans ((keep8_arg5 (W20 (F := Ideal) m ρ c)).trans h5)

end Cert.KernelIdeal.Val

end
-- ==== Proof.Region9.lean ====
/-
  Region 9, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner9 : (![0, 0] : Fin 2 → Nat) = fun _ => 0 := funext fun a => by fin_cases a <;> rfl

/-- The body's arithmetic at place (p, q) of a block: tanh of 9/10-word times the first block's entry plus
    1/10-word times the second block's entry, both at (p, q). -/
theorem mix9_at (x0 x1 : Vec Ideal S2000x40 .f32) (p : Fin 2000) (q : Fin 40) :
    k9_pay1 (F := Ideal) x0 x1 (ix2 p q)
      = Ideal.tanh (Ideal.ofBits .f32 0x3F666666#32 * x0 (ix2 p q) + Ideal.ofBits .f32 0x3DCCCCCD#32 * x1 (ix2 p q)) := by
  unfold k9_pay1
  simp only [shapeCast_self]
  rfl

/-- If the two loaded blocks are two whole arrays read through one placement e of block places into array places,
    the body's result is the mixing step of the two arrays read through e. -/
theorem mix9_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k9_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix9_at, h0, h1]
  rfl

/-- The three index maps, decided over the 50 grid points: each sends point t to block (t, 0). -/
theorem block_index9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point t writes back is block t of the mixing step of the two arrays the region finds. -/
theorem written_back9 (c : Dev nD) (t : Fin cfg9.N) :
    (dat9 (F := Ideal) V c).flushed 2 t
      = ((cfg9.win 2).blk t).view.read (Elt Ideal) (Cert.Spec.combine (V c main_v120) (V c main_v9)) := by
  show (cfg9.win 2).cut (grid9.coords t) ((dat9 V c).after 2 t) = _
  rw [after9_2]
  unfold out9_2
  rw [View.canon_unit_zero corner9]
  simp only [View.ld_unit_zero (S := S2000x40) corner9]
  obtain ⟨e0, e1, e2, e3, e4, e5⟩ := block_index9 t
  funext j
  refine mix9_through (iblk9 V c 0 t) (iblk9 V c 1 t) (V c main_v120) (V c main_v9)
    (((cfg9.win 2).blk t).view.emb) (fun y => ?_) (fun y => ?_) j
  · show V c main_v120 (((cfg9.win 0).blk t).view.emb y) = V c main_v120 (((cfg9.win 2).blk t).view.emb y)
    refine congrArg (V c main_v120) ?_
    funext a; apply Fin.ext
    match a with
    | ⟨0, _⟩ => show win9_0.index t (0 : Fin 2) * 2000 + 1 * (y 0).val = win9_2.index t (0 : Fin 2) * 2000 + 1 * (y 0).val; omega
    | ⟨1, _⟩ => show win9_0.index t (1 : Fin 2) * 40 + 1 * (y 1).val = win9_2.index t (1 : Fin 2) * 40 + 1 * (y 1).val; omega
  · show V c main_v9 (((cfg9.win 1).blk t).view.emb y) = V c main_v9 (((cfg9.win 2).blk t).view.emb y)
    refine congrArg (V c main_v9) ?_
    funext a; apply Fin.ext
    match a with
    | ⟨0, _⟩ => show win9_1.index t (0 : Fin 2) * 2000 + 1 * (y 0).val = win9_2.index t (0 : Fin 2) * 2000 + 1 * (y 0).val; omega
    | ⟨1, _⟩ => show win9_1.index t (1 : Fin 2) * 40 + 1 * (y 1).val = win9_2.index t (1 : Fin 2) * 40 + 1 * (y 1).val; omega

/-- An index of the output array is in point t's block iff on each axis its coordinate is in the block's range. -/
theorem in_block9 (t : Fin cfg9.N) (i : S100000x40.Idx) :
    i ∈ ((cfg9.win 2).blk t).view.set
      ↔ ∀ a : Fin 2, win9_2.index t a * S2000x40.size a ≤ (i a).val
          ∧ (i a).val < win9_2.index t a * S2000x40.size a + S2000x40.size a := by
  show i ∈ ((View.whole main_v121).slice (win9_2.rect t)).set ↔ _
  rw [View.set_slice_whole, Rect.mem_set_unit]
  exact Iff.rfl

/-- Every index of the output array is in the block of a point that writes back: row r is in block r / 2000. -/
theorem rows_covered9 (i : S100000x40.Idx) :
    ∃ t : Fin cfg9.N, (cfg9.win 2).flush t = true ∧ i ∈ ((cfg9.win 2).blk t).view.set := by
  have hi0 : (i 0).val < 100000 := (i 0).isLt
  have hi1 : (i 1).val < 40 := (i 1).isLt
  have hN : cfg9.N = 50 := N_9
  have ht : (i 0).val / 2000 < cfg9.N := by rw [hN]; omega
  obtain ⟨-, -, -, -, e4, e5⟩ := block_index9 ⟨(i 0).val / 2000, ht⟩
  refine ⟨⟨(i 0).val / 2000, ht⟩, flush9_2 _, ?_⟩
  rw [in_block9]
  intro a
  match a with
  | ⟨0, _⟩ =>
    show win9_2.index ⟨(i 0).val / 2000, ht⟩ (0 : Fin 2) * 2000 ≤ (i 0).val
      ∧ (i 0).val < win9_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win9_2.index ⟨(i 0).val / 2000, ht⟩ (1 : Fin 2) * 40 ≤ (i 1).val
      ∧ (i 1).val < win9_2.index ⟨(i 0).val / 2000, ht⟩ (1 : Fin 2) * 40 + 40
    rw [e5]
    omega

/-- The output array after the region: the mixing step of the neighbour-sum array and the dense-output array. -/
theorem final9 (c : Dev nD) :
    ((dat9 (F := Ideal) V c).arrAt 2 cfg9.N : FVec Ideal S100000x40 .f32)
      = Cert.Spec.combine (V c main_v120) (V c main_v9) :=
  (dat9 (F := Ideal) V c).arrAt_eq_of_cover 2 (Cert.Spec.combine (V c main_v120) (V c main_v9))
    (fun t _ => written_back9 V c t) rows_covered9

end Cert.KernelIdeal.Val

end
-- ==== Proof.ChainStep9.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region9
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge9 (W : Valuation τ sig (Elt Ideal)) :
    (StableHlo.after (hostOps9 (F := Ideal)) W (Proc.devRef .tc main_v120) : FVec Ideal S100000x40 .f32)
      = Sparse.edge (W (Proc.devRef .tc main_arg3)) (W (Proc.devRef .tc main_arg4)) (W (Proc.devRef .tc main_arg5))
          (W (Proc.devRef .tc main_v107)) := by
  after_results_simp
  rfl

/-- The stretch writes neither the dense output's buffer nor an edge array: each differs from all sixteen result
    buffers, so the fold of the operations' results leaves it as found. -/
theorem keep9_v9 (W : Valuation τ sig (Elt Ideal)) :
    StableHlo.after (hostOps9 (F := Ideal)) W (Proc.devRef .tc main_v9) = W (Proc.devRef .tc main_v9) := by
  after_results_simp
theorem keep9_arg3 (W : Valuation τ sig (Elt Ideal)) :
    StableHlo.after (hostOps9 (F := Ideal)) W (Proc.devRef .tc main_arg3) = W (Proc.devRef .tc main_arg3) := by
  after_results_simp
theorem keep9_arg4 (W : Valuation τ sig (Elt Ideal)) :
    StableHlo.after (hostOps9 (F := Ideal)) W (Proc.devRef .tc main_arg4) = W (Proc.devRef .tc main_arg4) := by
  after_results_simp
theorem keep9_arg5 (W : Valuation τ sig (Elt Ideal)) :
    StableHlo.after (hostOps9 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step9 (c : Dev nD) (p h2 : FVec Ideal S100000x40 .f32)
    (hp : (W22 (F := Ideal) m ρ c (Proc.devRef .tc main_v107) : FVec Ideal S100000x40 .f32) = p)
    (hh : (W22 (F := Ideal) m ρ c (Proc.devRef .tc main_v9) : FVec Ideal S100000x40 .f32) = h2)
    (h3 : W22 (F := Ideal) m ρ c (Proc.devRef .tc main_arg3) = m ((c : Thread nD τ).loc main_arg3))
    (h4 : W22 (F := Ideal) m ρ c (Proc.devRef .tc main_arg4) = m ((c : Thread nD τ).loc main_arg4))
    (h5 : W22 (F := Ideal) m ρ c (Proc.devRef .tc main_arg5) = m ((c : Thread nD τ).loc main_arg5)) :
    (W24 (F := Ideal) m ρ c (Proc.devRef .tc main_v121) : FVec Ideal S100000x40 .f32)
        = Cert.Spec.combine (Sparse.edge (m ((c : Thread nD τ).loc main_arg3)) (m ((c : Thread nD τ).loc main_arg4))
            (m ((c : Thread nD τ).loc main_arg5)) p) h2
      ∧ (W24 (F := Ideal) m ρ c (Proc.devRef .tc main_v9) : FVec Ideal S100000x40 .f32) = h2
      ∧ W24 (F := Ideal) m ρ c (Proc.devRef .tc main_arg3) = m ((c : Thread nD τ).loc main_arg3)
      ∧ W24 (F := Ideal) m ρ c (Proc.devRef .tc main_arg4) = m ((c : Thread nD τ).loc main_arg4)
      ∧ W24 (F := Ideal) m ρ c (Proc.devRef .tc main_arg5) = m ((c : Thread nD τ).loc main_arg5) := by
  -- after the stretch: the dense output as it was, the stretch's result the neighbour sum of p
  have e9 : (W23 (F := Ideal) m ρ c (Proc.devRef .tc main_v9) : FVec Ideal S100000x40 .f32) = h2 :=
    (keep9_v9 (W22 (F := Ideal) m ρ c)).trans hh
  have eE : (W23 (F := Ideal) m ρ c (Proc.devRef .tc main_v120) : FVec Ideal S100000x40 .f32)
      = Sparse.edge (m ((c : Thread nD τ).loc main_arg3)) (m ((c : Thread nD τ).loc main_arg4))
          (m ((c : Thread nD τ).loc main_arg5)) p := by
    refine (edge9 (W22 (F := Ideal) m ρ c)).trans ?_
    rw [h3, h4, h5, hp]
  refine ⟨?_, ?_, ?_, ?_, ?_⟩
  · -- the region's output window: the mixing of the two arrays it found
    refine (W24_arr (F := Ideal) m ρ c 2).trans ?_
    refine (final9 (V23 (F := Ideal) m ρ) c).trans ?_
    show Cert.Spec.combine (W23 (F := Ideal) m ρ c (Proc.devRef .tc main_v120))
        (W23 (F := Ideal) m ρ c (Proc.devRef .tc main_v9)) = _
    rw [eE, e9]
  · -- the dense output is an input window of the region: its array ends as found
    refine (W24_arr (F := Ideal) m ρ c 1).trans ?_
    refine ((dat9 (F := Ideal) (V23 (F := Ideal) m ρ) c).arrAt_in 1 rfl cfg9.N).trans ?_
    exact (A_eq9 (F := Ideal) (V23 (F := Ideal) m ρ) c 1).trans e9
  · exact (W24_of_ne (F := Ideal) m ρ c main_arg3 (by decide)).trans ((keep9_arg3 (W22 (F := Ideal) m ρ c)).trans h3)
  · exact (W24_of_ne (F := Ideal) m ρ c main_arg4 (by decide)).trans ((keep9_arg4 (W22 (F := Ideal) m ρ c)).trans h4)
  · exact (W24_of_ne (F := Ideal) m ρ c main_arg5 (by decide)).trans ((keep9_arg5 (W22 (F := Ideal) m ρ c)).trans h5)

end Cert.KernelIdeal.Val

end
-- ==== Proof.Region10.lean ====
/-
  Region 10, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner10 : (![0, 0] : Fin 2 → Nat) = fun _ => 0 := funext fun a => by fin_cases a <;> rfl

/-- The body's arithmetic at place (p, q) of a block: tanh of 9/10-word times the first block's entry plus
    1/10-word times the second block's entry, both at (p, q). -/
theorem mix10_at (x0 x1 : Vec Ideal S2000x40 .f32) (p : Fin 2000) (q : Fin 40) :
    k10_pay1 (F := Ideal) x0 x1 (ix2 p q)
      = Ideal.tanh (Ideal.ofBits .f32 0x3F666666#32 * x0 (ix2 p q) + Ideal.ofBits .f32 0x3DCCCCCD#32 * x1 (ix2 p q)) := by
  unfold k10_pay1
  simp only [shapeCast_self]
  rfl

/-- If the two loaded blocks are two whole arrays read through one placement e of block places into array places,
    the body's result is the mixing step of the two arrays read through e. -/
theorem mix10_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k10_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix10_at, h0, h1]
  rfl

/-- The three index maps, decided over the 50 grid points: each sends point t to block (t, 0). -/
theorem block_index10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What point t writes back is block t of the mixing step of the two arrays the region finds. -/
theorem written_back10 (c : Dev nD) (t : Fin cfg10.N) :
    (dat10 (F := Ideal) V c).flushed 2 t
      = ((cfg10.win 2).blk t).view.read (Elt Ideal) (Cert.Spec.combine (V c main_v134) (V c main_v9)) := by
  show (cfg10.win 2).cut (grid10.coords t) ((dat10 V c).after 2 t) = _
  rw [after10_2]
  unfold out10_2
  rw [View.canon_unit_zero corner10]
  simp only [View.ld_unit_zero (S := S2000x40) corner10]
  obtain ⟨e0, e1, e2, e3, e4, e5⟩ := block_index10 t
  funext j
  refine mix10_through (iblk10 V c 0 t) (iblk10 V c 1 t) (V c main_v134) (V c main_v9)
    (((cfg10.win 2).blk t).view.emb) (fun y => ?_) (fun y => ?_) j
  · show V c main_v134 (((cfg10.win 0).blk t).view.emb y) = V c main_v134 (((cfg10.win 2).blk t).view.emb y)
    refine congrArg (V c main_v134) ?_
    funext a; apply Fin.ext
    match a with
    | ⟨0, _⟩ => show win10_0.index t (0 : Fin 2) * 2000 + 1 * (y 0).val = win10_2.index t (0 : Fin 2) * 2000 + 1 * (y 0).val; omega
    | ⟨1, _⟩ => show win10_0.index t (1 : Fin 2) * 40 + 1 * (y 1).val = win10_2.index t (1 : Fin 2) * 40 + 1 * (y 1).val; omega
  · show V c main_v9 (((cfg10.win 1).blk t).view.emb y) = V c main_v9 (((cfg10.win 2).blk t).view.emb y)
    refine congrArg (V c main_v9) ?_
    funext a; apply Fin.ext
    match a with
    | ⟨0, _⟩ => show win10_1.index t (0 : Fin 2) * 2000 + 1 * (y 0).val = win10_2.index t (0 : Fin 2) * 2000 + 1 * (y 0).val; omega
    | ⟨1, _⟩ => show win10_1.index t (1 : Fin 2) * 40 + 1 * (y 1).val = win10_2.index t (1 : Fin 2) * 40 + 1 * (y 1).val; omega

/-- An index of the output array is in point t's block iff on each axis its coordinate is in the block's range. -/
theorem in_block10 (t : Fin cfg10.N) (i : S100000x40.Idx) :
    i ∈ ((cfg10.win 2).blk t).view.set
      ↔ ∀ a : Fin 2, win10_2.index t a * S2000x40.size a ≤ (i a).val
          ∧ (i a).val < win10_2.index t a * S2000x40.size a + S2000x40.size a := by
  show i ∈ ((View.whole main_v135).slice (win10_2.rect t)).set ↔ _
  rw [View.set_slice_whole, Rect.mem_set_unit]
  exact Iff.rfl

/-- Every index of the output array is in the block of a point that writes back: row r is in block r / 2000. -/
theorem rows_covered10 (i : S100000x40.Idx) :
    ∃ t : Fin cfg10.N, (cfg10.win 2).flush t = true ∧ i ∈ ((cfg10.win 2).blk t).view.set := by
  have hi0 : (i 0).val < 100000 := (i 0).isLt
  have hi1 : (i 1).val < 40 := (i 1).isLt
  have hN : cfg10.N = 50 := N_10
  have ht : (i 0).val / 2000 < cfg10.N := by rw [hN]; omega
  obtain ⟨-, -, -, -, e4, e5⟩ := block_index10 ⟨(i 0).val / 2000, ht⟩
  refine ⟨⟨(i 0).val / 2000, ht⟩, flush10_2 _, ?_⟩
  rw [in_block10]
  intro a
  match a with
  | ⟨0, _⟩ =>
    show win10_2.index ⟨(i 0).val / 2000, ht⟩ (0 : Fin 2) * 2000 ≤ (i 0).val
      ∧ (i 0).val < win10_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win10_2.index ⟨(i 0).val / 2000, ht⟩ (1 : Fin 2) * 40 ≤ (i 1).val
      ∧ (i 1).val < win10_2.index ⟨(i 0).val / 2000, ht⟩ (1 : Fin 2) * 40 + 40
    rw [e5]
    omega

/-- The output array after the region: the mixing step of the neighbour-sum array and the dense-output array. -/
theorem final10 (c : Dev nD) :
    ((dat10 (F := Ideal) V c).arrAt 2 cfg10.N : FVec Ideal S100000x40 .f32)
      = Cert.Spec.combine (V c main_v134) (V c main_v9) :=
  (dat10 (F := Ideal) V c).arrAt_eq_of_cover 2 (Cert.Spec.combine (V c main_v134) (V c main_v9))
    (fun t _ => written_back10 V c t) rows_covered10

end Cert.KernelIdeal.Val

end
-- ==== Proof.ChainStep10.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region10
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge10 (W : Valuation τ sig (Elt Ideal)) :
    (StableHlo.after (hostOps10 (F := Ideal)) W (Proc.devRef .tc main_v134) : FVec Ideal S100000x40 .f32)
      = Sparse.edge (W (Proc.devRef .tc main_arg3)) (W (Proc.devRef .tc main_arg4)) (W (Proc.devRef .tc main_arg5))
          (W (Proc.devRef .tc main_v121)) := by
  after_results_simp
  rfl

/-- The stretch writes neither the dense output's buffer nor an edge array: each differs from all sixteen result
    buffers, so the fold of the operations' results leaves it as found. -/
theorem keep10_v9 (W : Valuation τ sig (Elt Ideal)) :
    StableHlo.after (hostOps10 (F := Ideal)) W (Proc.devRef .tc main_v9) = W (Proc.devRef .tc main_v9) := by
  after_results_simp
theorem keep10_arg3 (W : Valuation τ sig (Elt Ideal)) :
    StableHlo.after (hostOps10 (F := Ideal)) W (Proc.devRef .tc main_arg3) = W (Proc.devRef .tc main_arg3) := by
  after_results_simp
theorem keep10_arg4 (W : Valuation τ sig (Elt Ideal)) :
    StableHlo.after (hostOps10 (F := Ideal)) W (Proc.devRef .tc main_arg4) = W (Proc.devRef .tc main_arg4) := by
  after_results_simp
theorem keep10_arg5 (W : Valuation τ sig (Elt Ideal)) :
    StableHlo.after (hostOps10 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step10 (c : Dev nD) (p h2 : FVec Ideal S100000x40 .f32)
    (hp : (W24 (F := Ideal) m ρ c (Proc.devRef .tc main_v121) : FVec Ideal S100000x40 .f32) = p)
    (hh : (W24 (F := Ideal) m ρ c (Proc.devRef .tc main_v9) : FVec Ideal S100000x40 .f32) = h2)
    (h3 : W24 (F := Ideal) m ρ c (Proc.devRef .tc main_arg3) = m ((c : Thread nD τ).loc main_arg3))
    (h4 : W24 (F := Ideal) m ρ c (Proc.devRef .tc main_arg4) = m ((c : Thread nD τ).loc main_arg4))
    (h5 : W24 (F := Ideal) m ρ c (Proc.devRef .tc main_arg5) = m ((c : Thread nD τ).loc main_arg5)) :
    (W26 (F := Ideal) m ρ c (Proc.devRef .tc main_v135) : FVec Ideal S100000x40 .f32)
        = Cert.Spec.combine (Sparse.edge (m ((c : Thread nD τ).loc main_arg3)) (m ((c : Thread nD τ).loc main_arg4))
            (m ((c : Thread nD τ).loc main_arg5)) p) h2
      ∧ (W26 (F := Ideal) m ρ c (Proc.devRef .tc main_v9) : FVec Ideal S100000x40 .f32) = h2
      ∧ W26 (F := Ideal) m ρ c (Proc.devRef .tc main_arg3) = m ((c : Thread nD τ).loc main_arg3)
      ∧ W26 (F := Ideal) m ρ c (Proc.devRef .tc main_arg4) = m ((c : Thread nD τ).loc main_arg4)
      ∧ W26 (F := Ideal) m ρ c (Proc.devRef .tc main_arg5) = m ((c : Thread nD τ).loc main_arg5) := by
  -- after the stretch: the dense output as it was, the stretch's result the neighbour sum of p
  have e9 : (W25 (F := Ideal) m ρ c (Proc.devRef .tc main_v9) : FVec Ideal S100000x40 .f32) = h2 :=
    (keep10_v9 (W24 (F := Ideal) m ρ c)).trans hh
  have eE : (W25 (F := Ideal) m ρ c (Proc.devRef .tc main_v134) : FVec Ideal S100000x40 .f32)
      = Sparse.edge (m ((c : Thread nD τ).loc main_arg3)) (m ((c : Thread nD τ).loc main_arg4))
          (m ((c : Thread nD τ).loc main_arg5)) p := by
    refine (edge10 (W24 (F := Ideal) m ρ c)).trans ?_
    rw [h3, h4, h5, hp]
  refine ⟨?_, ?_, ?_, ?_, ?_⟩
  · -- the region's output window: the mixing of the two arrays it found
    refine (W26_arr (F := Ideal) m ρ c 2).trans ?_
    refine (final10 (V25 (F := Ideal) m ρ) c).trans ?_
    show Cert.Spec.combine (W25 (F := Ideal) m ρ c (Proc.devRef .tc main_v134))
        (W25 (F := Ideal) m ρ c (Proc.devRef .tc main_v9)) = _
    rw [eE, e9]
  · -- the dense output is an input window of the region: its array ends as found
    refine (W26_arr (F := Ideal) m ρ c 1).trans ?_
    refine ((dat10 (F := Ideal) (V25 (F := Ideal) m ρ) c).arrAt_in 1 rfl cfg10.N).trans ?_
    exact (A_eq10 (F := Ideal) (V25 (F := Ideal) m ρ) c 1).trans e9
  · exact (W26_of_ne (F := Ideal) m ρ c main_arg3 (by decide)).trans ((keep10_arg3 (W24 (F := Ideal) m ρ c)).trans h3)
  · exact (W26_of_ne (F := Ideal) m ρ c main_arg4 (by decide)).trans ((keep10_arg4 (W24 (F := Ideal) m ρ c)).trans h4)
  · exact (W26_of_ne (F := Ideal) m ρ c main_arg5 (by decide)).trans ((keep10_arg5 (W24 (F := Ideal) m ρ c)).trans h5)

end Cert.KernelIdeal.Val

end
-- ==== Proof.Region11.lean ====
/-
  Region 11, one mixing step, as one function of the arrays it finds: pointwise on each block of 2000 node rows,
  tanh of the 9/10 word's value times the neighbour sum plus the 1/10 word's value times the dense output. The 50
  blocks tile the 100000 rows exactly.

  The argument, in order. (1) The body's arithmetic at one place (p, q) of a block is the mixing formula of the two
  loaded blocks at (p, q): the two casts are between equal shapes, the two scalars are broadcast, and product, sum
  and tanh act place by place. (2) All three windows use the same index map: at grid point t the block index is
  (t, 0), so place (p, q) of any of the three blocks is place (2000 t + p, q) of its array. Hence what point t
  writes back is block t of the mixing formula applied to the two whole arrays. (3) Row r lies in the block of point
  r / 2000, and every point writes back, so the 50 blocks cover the output array and it ends holding the formula
  everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (V : (c : Dev nD) → (b : Ref sig .tc) → Buf (Elt Ideal) ((c : Thread nD τ).loc b))

/-- The body's one load rectangle per block and its one store rectangle start at the block's corner. -/
theorem corner11 : (![0, 0] : Fin 2 → Nat) = fun _ => 0 := funext fun a => by fin_cases a <;> rfl

/-- The body's arithmetic at place (p, q) of a block: tanh of 9/10-word times the first block's entry plus
    1/10-word times the second block's entry, both at (p, q). -/
theorem mix11_at (x0 x1 : Vec Ideal S2000x40 .f32) (p : Fin 2000) (q : Fin 40) :
    k11_pay1 (F := Ideal) x0 x1 (ix2 p q)
      = Ideal.tanh (Ideal.ofBits .f32 0x3F666666#32 * x0 (ix2 p q) + Ideal.ofBits .f32 0x3DCCCCCD#32 * x1 (ix2 p q)) := by
  unfold k11_pay1
  simp only [shapeCast_self]
  rfl

/-- If the two loaded blocks are two whole arrays read through one placement e of block places into array places,
    the body's result is the mixing step of the two arrays read through e. -/
theorem mix11_through (x0 x1 : Vec Ideal S2000x40 .f32) (a0 a1 : FVec Ideal S100000x40 .f32)
    (e : S2000x40.Idx → S100000x40.Idx) (h0 : ∀ y, x0 y = a0 (e y)) (h1 : ∀ y, x1 y = a1 (e y))
    (y : S2000x40.Idx) :
    k11_pay1 (F := Ideal) x0 x1 y = Cert.Spec.combine a0 a1 (e y) := by
  obtain ⟨p, q, rfl⟩ : ∃ (p : Fin 2000) (q : Fin 40), y = ix2 p q := ⟨y 0, y 1, eq_ix2 y⟩
  rw [mix11_at, h0, h1]
  rfl

/-- The three index maps, decided over the 50 grid points: each sends point t to block (t, 0). -/
theorem block_index11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

/-- What point t writes back is block t of the mixing step of the two arrays the region finds. -/
theorem written_back11 (c : Dev nD) (t : Fin cfg11.N) :
    (dat11 (F := Ideal) V c).flushed 2 t
      = ((cfg11.win 2).blk t).view.read (Elt Ideal) (Cert.Spec.combine (V c main_v148) (V c main_v9)) := by
  show (cfg11.win 2).cut (grid11.coords t) ((dat11 V c).after 2 t) = _
  rw [after11_2]
  unfold out11_2
  rw [View.canon_unit_zero corner11]
  simp only [View.ld_unit_zero (S := S2000x40) corner11]
  obtain ⟨e0, e1, e2, e3, e4, e5⟩ := block_index11 t
  funext j
  refine mix11_through (iblk11 V c 0 t) (iblk11 V c 1 t) (V c main_v148) (V c main_v9)
    (((cfg11.win 2).blk t).view.emb) (fun y => ?_) (fun y => ?_) j
  · show V c main_v148 (((cfg11.win 0).blk t).view.emb y) = V c main_v148 (((cfg11.win 2).blk t).view.emb y)
    refine congrArg (V c main_v148) ?_
    funext a; apply Fin.ext
    match a with
    | ⟨0, _⟩ => show win11_0.index t (0 : Fin 2) * 2000 + 1 * (y 0).val = win11_2.index t (0 : Fin 2) * 2000 + 1 * (y 0).val; omega
    | ⟨1, _⟩ => show win11_0.index t (1 : Fin 2) * 40 + 1 * (y 1).val = win11_2.index t (1 : Fin 2) * 40 + 1 * (y 1).val; omega
  · show V c main_v9 (((cfg11.win 1).blk t).view.emb y) = V c main_v9 (((cfg11.win 2).blk t).view.emb y)
    refine congrArg (V c main_v9) ?_
    funext a; apply Fin.ext
    match a with
    | ⟨0, _⟩ => show win11_1.index t (0 : Fin 2) * 2000 + 1 * (y 0).val = win11_2.index t (0 : Fin 2) * 2000 + 1 * (y 0).val; omega
    | ⟨1, _⟩ => show win11_1.index t (1 : Fin 2) * 40 + 1 * (y 1).val = win11_2.index t (1 : Fin 2) * 40 + 1 * (y 1).val; omega

/-- An index of the output array is in point t's block iff on each axis its coordinate is in the block's range. -/
theorem in_block11 (t : Fin cfg11.N) (i : S100000x40.Idx) :
    i ∈ ((cfg11.win 2).blk t).view.set
      ↔ ∀ a : Fin 2, win11_2.index t a * S2000x40.size a ≤ (i a).val
          ∧ (i a).val < win11_2.index t a * S2000x40.size a + S2000x40.size a := by
  show i ∈ ((View.whole main_v149).slice (win11_2.rect t)).set ↔ _
  rw [View.set_slice_whole, Rect.mem_set_unit]
  exact Iff.rfl

/-- Every index of the output array is in the block of a point that writes back: row r is in block r / 2000. -/
theorem rows_covered11 (i : S100000x40.Idx) :
    ∃ t : Fin cfg11.N, (cfg11.win 2).flush t = true ∧ i ∈ ((cfg11.win 2).blk t).view.set := by
  have hi0 : (i 0).val < 100000 := (i 0).isLt
  have hi1 : (i 1).val < 40 := (i 1).isLt
  have hN : cfg11.N = 50 := N_11
  have ht : (i 0).val / 2000 < cfg11.N := by rw [hN]; omega
  obtain ⟨-, -, -, -, e4, e5⟩ := block_index11 ⟨(i 0).val / 2000, ht⟩
  refine ⟨⟨(i 0).val / 2000, ht⟩, flush11_2 _, ?_⟩
  rw [in_block11]
  intro a
  match a with
  | ⟨0, _⟩ =>
    show win11_2.index ⟨(i 0).val / 2000, ht⟩ (0 : Fin 2) * 2000 ≤ (i 0).val
      ∧ (i 0).val < win11_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win11_2.index ⟨(i 0).val / 2000, ht⟩ (1 : Fin 2) * 40 ≤ (i 1).val
      ∧ (i 1).val < win11_2.index ⟨(i 0).val / 2000, ht⟩ (1 : Fin 2) * 40 + 40
    rw [e5]
    omega

/-- The output array after the region: the mixing step of the neighbour-sum array and the dense-output array. -/
theorem final11 (c : Dev nD) :
    ((dat11 (F := Ideal) V c).arrAt 2 cfg11.N : FVec Ideal S100000x40 .f32)
      = Cert.Spec.combine (V c main_v148) (V c main_v9) :=
  (dat11 (F := Ideal) V c).arrAt_eq_of_cover 2 (Cert.Spec.combine (V c main_v148) (V c main_v9))
    (fun t _ => written_back11 V c t) rows_covered11

end Cert.KernelIdeal.Val

end
-- ==== Proof.ChainStep11.lean ====
/-
  One propagation step. A stretch of host operations forms the neighbour sum of the current scores (negative column
  numbers counted from the end, the scores' rows gathered at the columns, each row times its edge's weight, the
  products added into zeros at the edges' row numbers) out of the three edge arrays and the scores' buffer; the
  region that follows mixes that sum with the dense output. Carried across the step: if on entry the scores'
  buffer holds p, the dense output's buffer holds h2 and the three edge arrays are the launch memory's, then on
  exit the region's output buffer holds the mixing of the neighbour sum of p with h2, and the dense output and
  the three edge arrays are as they were. The stretch writes only its own sixteen result buffers; the region
  writes only its output window, and an input window's array ends as it was found.
-/
import proofs.«407666_j24318104830502_3_alg».proof.Proof.Region11
import proofs.«407666_j24318104830502_3_alg».proof.Proof.KDefs
import Idealize.ShloMosaic.Lib.StableHlo.Run

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

/-- The stretch's last result buffer holds the neighbour sum of the scores the stretch found, formed from the
    edge arrays it found: the sixteen operations composed are that function, term for term. -/
theorem edge11 (W : Valuation τ sig (Elt Ideal)) :
    (StableHlo.after (hostOps11 (F := Ideal)) W (Proc.devRef .tc main_v148) : FVec Ideal S100000x40 .f32)
      = Sparse.edge (W (Proc.devRef .tc main_arg3)) (W (Proc.devRef .tc main_arg4)) (W (Proc.devRef .tc main_arg5))
          (W (Proc.devRef .tc main_v135)) := by
  after_results_simp
  rfl

/-- The stretch writes neither the dense output's buffer nor an edge array: each differs from all sixteen result
    buffers, so the fold of the operations' results leaves it as found. -/
theorem keep11_v9 (W : Valuation τ sig (Elt Ideal)) :
    StableHlo.after (hostOps11 (F := Ideal)) W (Proc.devRef .tc main_v9) = W (Proc.devRef .tc main_v9) := by
  after_results_simp
theorem keep11_arg3 (W : Valuation τ sig (Elt Ideal)) :
    StableHlo.after (hostOps11 (F := Ideal)) W (Proc.devRef .tc main_arg3) = W (Proc.devRef .tc main_arg3) := by
  after_results_simp
theorem keep11_arg4 (W : Valuation τ sig (Elt Ideal)) :
    StableHlo.after (hostOps11 (F := Ideal)) W (Proc.devRef .tc main_arg4) = W (Proc.devRef .tc main_arg4) := by
  after_results_simp
theorem keep11_arg5 (W : Valuation τ sig (Elt Ideal)) :
    StableHlo.after (hostOps11 (F := Ideal)) W (Proc.devRef .tc main_arg5) = W (Proc.devRef .tc main_arg5) := by
  after_results_simp

variable (m : (ℓ : Loc nD τ sig) → Buf (Elt Ideal) ℓ) (ρ : Dev nD → PrngReg)

/-- The step: from the previous region's exit, through the stretch and the region, to this region's exit. -/
theorem step11 (c : Dev nD) (p h2 : FVec Ideal S100000x40 .f32)
    (hp : (W26 (F := Ideal) m ρ c (Proc.devRef .tc main_v135) : FVec Ideal S100000x40 .f32) = p)
    (hh : (W26 (F := Ideal) m ρ c (Proc.devRef .tc main_v9) : FVec Ideal S100000x40 .f32) = h2)
    (h3 : W26 (F := Ideal) m ρ c (Proc.devRef .tc main_arg3) = m ((c : Thread nD τ).loc main_arg3))
    (h4 : W26 (F := Ideal) m ρ c (Proc.devRef .tc main_arg4) = m ((c : Thread nD τ).loc main_arg4))
    (h5 : W26 (F := Ideal) m ρ c (Proc.devRef .tc main_arg5) = m ((c : Thread nD τ).loc main_arg5)) :
    (W28 (F := Ideal) m ρ c (Proc.devRef .tc main_v149) : FVec Ideal S100000x40 .f32)
        = Cert.Spec.combine (Sparse.edge (m ((c : Thread nD τ).loc main_arg3)) (m ((c : Thread nD τ).loc main_arg4))
            (m ((c : Thread nD τ).loc main_arg5)) p) h2
      ∧ (W28 (F := Ideal) m ρ c (Proc.devRef .tc main_v9) : FVec Ideal S100000x40 .f32) = h2
      ∧ W28 (F := Ideal) m ρ c (Proc.devRef .tc main_arg3) = m ((c : Thread nD τ).loc main_arg3)
      ∧ W28 (F := Ideal) m ρ c (Proc.devRef .tc main_arg4) = m ((c : Thread nD τ).loc main_arg4)
      ∧ W28 (F := Ideal) m ρ c (Proc.devRef .tc main_arg5) = m ((c : Thread nD τ).loc main_arg5) := by
  -- after the stretch: the dense output as it was, the stretch's result the neighbour sum of p
  have e9 : (W27 (F := Ideal) m ρ c (Proc.devRef .tc main_v9) : FVec Ideal S100000x40 .f32) = h2 :=
    (keep11_v9 (W26 (F := Ideal) m ρ c)).trans hh
  have eE : (W27 (F := Ideal) m ρ c (Proc.devRef .tc main_v148) : FVec Ideal S100000x40 .f32)
      = Sparse.edge (m ((c : Thread nD τ).loc main_arg3)) (m ((c : Thread nD τ).loc main_arg4))
          (m ((c : Thread nD τ).loc main_arg5)) p := by
    refine (edge11 (W26 (F := Ideal) m ρ c)).trans ?_
    rw [h3, h4, h5, hp]
  refine ⟨?_, ?_, ?_, ?_, ?_⟩
  · -- the region's output window: the mixing of the two arrays it found
    refine (W28_arr (F := Ideal) m ρ c 2).trans ?_
    refine (final11 (V27 (F := Ideal) m ρ) c).trans ?_
    show Cert.Spec.combine (W27 (F := Ideal) m ρ c (Proc.devRef .tc main_v148))
        (W27 (F := Ideal) m ρ c (Proc.devRef .tc main_v9)) = _
    rw [eE, e9]
  · -- the dense output is an input window of the region: its array ends as found
    refine (W28_arr (F := Ideal) m ρ c 1).trans ?_
    refine ((dat11 (F := Ideal) (V27 (F := Ideal) m ρ) c).arrAt_in 1 rfl cfg11.N).trans ?_
    exact (A_eq11 (F := Ideal) (V27 (F := Ideal) m ρ) c 1).trans e9
  · exact (W28_of_ne (F := Ideal) m ρ c main_arg3 (by decide)).trans ((keep11_arg3 (W26 (F := Ideal) m ρ c)).trans h3)
  · exact (W28_of_ne (F := Ideal) m ρ c main_arg4 (by decide)).trans ((keep11_arg4 (W26 (F := Ideal) m ρ c)).trans h4)
  · exact (W28_of_ne (F := Ideal) m ρ c main_arg5 (by decide)).trans ((keep11_arg5 (W26 (F := Ideal) m ρ c)).trans h5)

end Cert.KernelIdeal.Val

end
-- ==== Proof.Region12.lean ====
/-
  Region 12, the row-wise log-softmax, as one function of the array it finds: on each block of 2000 node rows, a
  row's maximum is the fold of max over its 40 places, the shifted row is exponentiated and summed over the 40
  places, and the logarithm of that sum is subtracted from the shifted row. The 50 blocks tile the 100000 rows.

  The proof has three steps. First the body's value at one place (r, q) of a block: the row maximum is a lane
  reduction from the minus-infinity word, read as a fold of max over the row's 40 places; it is laid out as a column
  [2000] → [2000,1] and spread back over the row [2000,1] → [2000,40], so at (r, q) the spread column reads the value
  at row r; the sum of exponentials is a lane reduction from the zero word, read as a sum over the same 40 places, and
  its logarithm goes through the same column and spread. Second, a block's row r at grid point t is the array's row
  2000·t + r, place by place, and a row's 40 places all lie in the one block of columns: so the fold and the sum over
  the block's row are the fold and the sum over the array's row, and what point t writes back is block t of the
  row-wise log-softmax of the whole array. Third, row R of the array lies in the block of point R / 2000, so the 50
  blocks cover every index and the array after the region is that function everywhere.
-/
import proofs.«407666_j24318104830502_3_alg».proof.Proof.Gen.KernelIdeal.Frame
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

namespace Region12

/-! ## The body's arithmetic at one place of a block -/

/-- A column of 2000 values laid out as [2000,1] holds, at row r, the value at r. -/
theorem col_cast_apply {α : Type} (v : S2000.Idx → α) (h : S2000.ShapeCasts S2000x1) (r : Fin 2000) (u : Fin 1) :
    shapeCast S2000x1 v h (ix2 r u) = v (ix1 r) :=
  shapeCast_apply v h _ _ (by
    have hu : u.val = 0 := by omega
    rw [Shape.rowMajor_val_two, Shape.rowMajor_val_one]
    show r.val = r.val * 1 + u.val
    omega)

/-- A [2000,1] column spread over the 40 places of each row holds, at (r, q), the column's value at row r. -/
theorem col_spread_apply {α : Type} (v : S2000x1.Idx → α) (h : S2000x1.Broadcasts S2000x40) (r : Fin 2000) (q : Fin 40) :
    broadcastTo S2000x40 v h (ix2 r q) = v (ix2 r (0 : Fin 1)) := by
  refine broadcastTo_apply v h (ix2 r q) (ix2 r (0 : Fin 1)) fun ax => ?_
  match ax with
  | ⟨0, _⟩ =>
    show r.val = if (2000 : Nat) = 1 then 0 else r.val
    exact (if_neg (by decide)).symm
  | ⟨1, _⟩ => rfl

/-- The maximum of row r of a block: the fold of max from the minus-infinity word's value over the row's 40 places. -/
def blockRowMax (x : FVec Ideal S2000x40 .f32) (r : Fin 2000) : EReal :=
  (Finset.univ : Finset (Fin 40)).fold max (Ideal.ofBits .f32 0xFF800000#32) (fun k => x (ix2 r k))

/-- The lane reduction by max from the minus-infinity word, at row r, is that fold: the reduced axis's coordinate
    is put back as the column of the place. -/
theorem blockMax_at (x : FVec Ideal S2000x40 .f32) (r : Fin 2000) :
    multiReduction (F := Ideal) .maximumf [1] S2000 x 0xFF800000#32 reduces_S2000x40_S2000 (.inl rfl) rfl (ix1 r)
      = blockRowMax x r := by
  refine (Ideal.multiReduction_maximumf_single x 0xFF800000#32 reduces_S2000x40_S2000 (.inl rfl) rfl (ix1 r)).trans ?_
  unfold blockRowMax
  refine congrArg (fun f => (Finset.univ : Finset (Fin 40)).fold max (Ideal.ofBits .f32 0xFF800000#32) f) ?_
  funext k
  refine congrArg x (funext fun a => Fin.ext ?_)
  match a with
  | ⟨0, _⟩ => rfl
  | ⟨1, _⟩ => rfl

/-- The lane reduction by addition from the zero word, at row r, is the sum over the row's 40 places. -/
theorem blockSum_at (y : FVec Ideal S2000x40 .f32) (r : Fin 2000) :
    multiReduction (F := Ideal) .add [1] S2000 y 0x00000000#32 reduces_S2000x40_S2000 (.inl rfl) rfl (ix1 r)
      = ∑ k : Fin 40, y (ix2 r k) := by
  refine (Ideal.multiReduction_add_single y 0x00000000#32 reduces_S2000x40_S2000 (.inl rfl) rfl (ix1 r)).trans ?_
  refine Finset.sum_congr rfl fun k _ => ?_
  refine congrArg y (funext fun a => Fin.ext ?_)
  match a with
  | ⟨0, _⟩ => rfl
  | ⟨1, _⟩ => rfl

/-- A block with each row's maximum taken off every place of the row. -/
def shifted (x : FVec Ideal S2000x40 .f32) : FVec Ideal S2000x40 .f32 :=
  subf x (broadcastTo S2000x40 (shapeCast S2000x1 (multiReduction (F := Ideal) .maximumf [1] S2000 x 0xFF800000#32 reduces_S2000x40_S2000 (.inl rfl) rfl) shapeCasts_S2000_S2000x1) broadcasts_S2000x1_S2000x40)

/-- At (r, q) the shifted block is the entry less its row's maximum. -/
theorem shifted_at (x : FVec Ideal S2000x40 .f32) (r : Fin 2000) (q : Fin 40) :
    shifted x (ix2 r q) = x (ix2 r q) - blockRowMax x r := by
  unfold shifted
  rw [subf_apply, col_spread_apply, col_cast_apply, blockMax_at]

/-- The body's value as a whole block: the shifted block less, on every row, the logarithm of the row's sum of
    exponentials of the shifted block (the first layout change of the body is between equal shapes and changes
    nothing). -/
theorem pay_eq (x : FVec Ideal S2000x40 .f32) :
    k12_pay1 (F := Ideal) x
      = subf (shifted x) (broadcastTo S2000x40 (log (shapeCast S2000x1 (multiReduction (F := Ideal) .add [1] S2000 (exp (shifted x)) 0x00000000#32 reduces_S2000x40_S2000 (.inl rfl) rfl) shapeCasts_S2000_S2000x1)) broadcasts_S2000x1_S2000x40) := by
  unfold k12_pay1 shifted
  dsimp only
  rw [shapeCast_self]

/-- The body's value at place (r, q) of a block: the place's entry less its row's maximum, less the logarithm of the
    row's sum of exponentials of the same differences. -/
theorem pay_at (x : FVec Ideal S2000x40 .f32) (r : Fin 2000) (q : Fin 40) :
    k12_pay1 (F := Ideal) x (ix2 r q)
      = (x (ix2 r q) - blockRowMax x r) - Ideal.log (∑ k : Fin 40, Ideal.exp (x (ix2 r k) - blockRowMax x r)) := by
  rw [pay_eq, subf_apply, shifted_at, col_spread_apply]
  show _ - Ideal.log (shapeCast S2000x1 _ shapeCasts_S2000_S2000x1 (ix2 r (0 : Fin 1))) = _
  rw [col_cast_apply, blockSum_at]
  refine congrArg (fun s => (x (ix2 r q) - blockRowMax x r) - Ideal.log s) ?_
  refine Finset.sum_congr rfl fun k _ => ?_
  show Ideal.exp (shifted x (ix2 r k)) = _
  rw [shifted_at]

/-! ## From a block's row to the array's row -/

/-- When row r of a block is row R of the array, place by place, the body's value at (r, q) of the block is the
    row-wise log-softmax of the array at (R, q): the two row maxima fold the same 40 values and the two sums add the
    same 40 exponentials. -/
theorem pay_eq_logSoftmax (x : FVec Ideal S2000x40 .f32) (p : FVec Ideal S100000x40 .f32) (y : S2000x40.Idx) (i : S100000x40.Idx)
    (hcol : (i 1).val = (y 1).val)
    (hrow : ∀ k : Fin 40, x (ix2 (y 0) k) = p (ix2 (i 0) k)) :
    k12_pay1 (F := Ideal) x y = Cert.Spec.logSoftmax p i := by
  obtain ⟨r, q, rfl⟩ : ∃ (r : Fin 2000) (q : Fin 40), y = ix2 r q := ⟨y 0, y 1, eq_ix2 y⟩
  obtain ⟨R, Q, rfl⟩ : ∃ (R : Fin 100000) (Q : Fin 40), i = ix2 R Q := ⟨i 0, i 1, eq_ix2 i⟩
  obtain rfl : q = Q := Fin.ext hcol.symm
  have hrows : ∀ k : Fin 40, x (ix2 r k) = p (ix2 R k) := hrow
  have hrow' : (fun k : Fin 40 => x (ix2 r k)) = fun k : Fin 40 => p (ix2 R k) := funext hrows
  have hmax : blockRowMax x r = Cert.Spec.rowMax p R := by
    unfold blockRowMax Cert.Spec.rowMax
    rw [hrow']
  rw [pay_at, hmax, hrows q]
  show _ = (p (ix2 R q) - Cert.Spec.rowMax p R) - Ideal.log (∑ k : Fin 40, Ideal.exp (p (ix2 R k) - Cert.Spec.rowMax p R))
  refine congrArg (fun s => (p (ix2 R q) - Cert.Spec.rowMax p R) - Ideal.log s) ?_
  refine Finset.sum_congr rfl fun k _ => ?_
  rw [hrows k]

/-! ## From blocks to the array -/

/-- The body's one load and one store take the whole staging buffer: their offsets are zero on both axes. -/
theorem zero_offsets : (![0, 0] : Fin 2 → Nat) = fun _ => 0 := funext fun a => by fin_cases a <;> rfl

/-- The two windows' index maps over the 50 grid points: the scores' block and the output's block are the same
    block of rows, point t's block of rows is block t, and both windows take the one block of columns. -/
theorem block_indices : ∀ t : Fin cfg12.N, win12_0.index t (0 : Fin 2) = win12_1.index t (0 : Fin 2)
    ∧ win12_0.index t (1 : Fin 2) = 0
    ∧ win12_1.index t (1 : Fin 2) = 0
    ∧ win12_1.index t (0 : Fin 2) = t.val :=
  (by decide +kernel : ∀ t : Fin grid12.N, _)

variable (V : (c : Dev nD) → (b : Ref sig .tc) → Buf (Elt Ideal) ((c : Thread nD τ).loc b))

/-- What point t writes back is block t of the row-wise log-softmax of the scores as the region finds them: place
    (r, q) of the output's block sits at row 2000·t + r, column q of the array, and row r of the scores' block is that
    same row of the scores' array. -/
theorem writeback_is_block (c : Dev nD) (t : Fin cfg12.N) :
    (dat12 (F := Ideal) V c).flushed 1 t
      = ((cfg12.win 1).blk t).view.read (Elt Ideal) (Cert.Spec.logSoftmax (V c main_v149)) := by
  show (cfg12.win 1).cut (grid12.coords t) ((dat12 (F := Ideal) V c).after 1 t) = _
  rw [after12_1]
  unfold out12_1
  rw [View.canon_unit_zero zero_offsets]
  simp only [View.ld_unit_zero (S := S2000x40) zero_offsets]
  obtain ⟨e0, e1, e2, e3⟩ := block_indices t
  funext j
  show k12_pay1 (F := Ideal) (iblk12 V c 0 t) j = Cert.Spec.logSoftmax (V c main_v149) (((cfg12.win 1).blk t).view.emb j)
  refine pay_eq_logSoftmax (iblk12 V c 0 t) (V c main_v149) j (((cfg12.win 1).blk t).view.emb j) ?_ ?_
  · show win12_1.index t (1 : Fin 2) * 40 + 1 * (j 1).val = (j 1).val
    omega
  · intro k
    show V c main_v149 (((cfg12.win 0).blk t).view.emb (ix2 (j 0) k)) = V c main_v149 (ix2 ((((cfg12.win 1).blk t).view.emb j) 0) k)
    refine congrArg (V c main_v149) (funext fun a => Fin.ext ?_)
    match a with
    | ⟨0, _⟩ =>
      show win12_0.index t (0 : Fin 2) * 2000 + 1 * (j 0).val = win12_1.index t (0 : Fin 2) * 2000 + 1 * (j 0).val
      omega
    | ⟨1, _⟩ =>
      show win12_0.index t (1 : Fin 2) * 40 + 1 * k.val = k.val
      omega

/-- An index of the array lies in point t's block iff each coordinate lies in the block's range on its axis. -/
theorem mem_block_iff (t : Fin cfg12.N) (i : S100000x40.Idx) :
    i ∈ ((cfg12.win 1).blk t).view.set ↔ ∀ a : Fin 2, win12_1.index t a * S2000x40.size a ≤ (i a).val ∧ (i a).val < win12_1.index t a * S2000x40.size a + S2000x40.size a := by
  show i ∈ ((View.whole main_v150).slice (win12_1.rect t)).set ↔ _
  rw [View.set_slice_whole, Rect.mem_set_unit]
  exact Iff.rfl

/-- Every index of the array lies in some point's block: row R lies in the block of point R / 2000, and every
    column lies in the one block of columns. -/
theorem blocks_cover (i : S100000x40.Idx) :
    ∃ t : Fin cfg12.N, (cfg12.win 1).flush t = true ∧ i ∈ ((cfg12.win 1).blk t).view.set := by
  have hi0 : (i 0).val < 100000 := (i 0).isLt
  have hi1 : (i 1).val < 40 := (i 1).isLt
  have hN : cfg12.N = 50 := N_12
  let t : Fin cfg12.N := ⟨(i 0).val / 2000, by rw [hN]; omega⟩
  obtain ⟨e0, e1, e2, e3⟩ := block_indices t
  have e3' : win12_1.index t (0 : Fin 2) = (i 0).val / 2000 := e3
  refine ⟨t, flush12_1 t, ?_⟩
  rw [mem_block_iff]
  intro a
  match a with
  | ⟨0, _⟩ =>
    show win12_1.index t (0 : Fin 2) * 2000 ≤ (i 0).val ∧ (i 0).val < win12_1.index t (0 : Fin 2) * 2000 + 2000
    omega
  | ⟨1, _⟩ =>
    show win12_1.index t (1 : Fin 2) * 40 ≤ (i 1).val ∧ (i 1).val < win12_1.index t (1 : Fin 2) * 40 + 40
    omega

end Region12

variable (V : (c : Dev nD) → (b : Ref sig .tc) → Buf (Elt Ideal) ((c : Thread nD τ).loc b))

/-- The output array after the region is the row-wise log-softmax of the scores as the region finds them: every
    point writes back its block of that one function, and the blocks cover the array. -/
theorem final12 (c : Dev nD) :
    ((dat12 (F := Ideal) V c).arrAt 1 cfg12.N : FVec Ideal S100000x40 .f32)
      = Cert.Spec.logSoftmax (V c main_v149) :=
  (dat12 (F := Ideal) V c).arrAt_eq_of_cover 1 (Cert.Spec.logSoftmax (V c main_v149))
    (fun t _ => Region12.writeback_is_block V c t) Region12.blocks_cover

end Cert.KernelIdeal.Val

end
-- ==== Proof.ChainTail.lean ====
/-
  The kernel program's buffers from the dense head's output to the result. Each of the ten propagation steps is a
  stretch of host operations (the neighbour sum of the current scores, the same operations each time) and a
  region (the mixing step); the invariant carried from one region's exit to the next is: the current scores'
  buffer holds the iterate, the dense output's buffer is unchanged, the three edge arrays are unchanged. The
  last region is the log-softmax of the tenth iterate.

  Each step is proved in a module of its own as an implication from one region's exit to the next. Here the
  implications are chained from the dense head's output: after the N-th of them the scores' buffer holds the
  mixing step applied N times to the dense output, so after the tenth it holds the tenth iterate. The last
  region has the log-softmax of whatever its input array holds in its output window, and the network's
  function is by definition the log-softmax of that iterate.
-/
import proofs.«407666_j24318104830502_3_alg».proof.Proof.ChainHead
import proofs.«407666_j24318104830502_3_alg».proof.Proof.ChainStep2
import proofs.«407666_j24318104830502_3_alg».proof.Proof.ChainStep3
import proofs.«407666_j24318104830502_3_alg».proof.Proof.ChainStep4
import proofs.«407666_j24318104830502_3_alg».proof.Proof.ChainStep5
import proofs.«407666_j24318104830502_3_alg».proof.Proof.ChainStep6
import proofs.«407666_j24318104830502_3_alg».proof.Proof.ChainStep7
import proofs.«407666_j24318104830502_3_alg».proof.Proof.ChainStep8
import proofs.«407666_j24318104830502_3_alg».proof.Proof.ChainStep9
import proofs.«407666_j24318104830502_3_alg».proof.Proof.ChainStep10
import proofs.«407666_j24318104830502_3_alg».proof.Proof.ChainStep11
import proofs.«407666_j24318104830502_3_alg».proof.Proof.Region12
import Mathlib.Logic.Function.Iterate

set_option maxRecDepth 16384

noncomputable section

open scoped BigOperators
open Idealize.ShloMosaic Idealize.ShloMosaic.TcCoe Idealize.ShloMosaic.ValueIdx Idealize.SL.Sem

namespace Cert.KernelIdeal.Val

open Cert.KernelIdeal Cert.KernelIdeal.Gen

variable (m : (ℓ : Loc nD τ sig) → Buf (Elt Ideal) ℓ) (ρ : Dev nD → PrngReg)

/-- Ten applications of a function, written out, are its tenth iterate. -/
theorem iterate_ten {α : Type} (f : α → α) (x : α) : f (f (f (f (f (f (f (f (f (f x))))))))) = f^[10] x := rfl

/-- THE KERNEL PROGRAM'S RESULT: the last boundary's contents at the result buffer are the network's function of
    the launch memory's argument arrays. -/
theorem kernel_value (c : Dev nD) (hcols : ∀ e : Fin 2000000, ((m ((c : Thread nD τ).loc main_arg1) : IVec S2000000 32) (ix1 e)).toNat < 2048) :
    (W29 (F := Ideal) m ρ c (Proc.devRef .tc main_v150) : FVec Ideal S100000x40 .f32)
      = Cert.Spec.network (Sparse.seg (m ((c : Thread nD τ).loc main_arg0))) (Sparse.edge (m ((c : Thread nD τ).loc main_arg3)) (m ((c : Thread nD τ).loc main_arg4)) (m ((c : Thread nD τ).loc main_arg5)))
          (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) := by
  -- the dense head's output, and the edge arrays, at the dense head's region's exit
  have a1 := head m ρ c hcols
  -- the ten propagation steps, each from the previous region's exit to its own
  obtain ⟨a2, b2, c2, d2, e2⟩ := step2 m ρ c _ a1 (W8_arg3 m ρ c) (W8_arg4 m ρ c) (W8_arg5 m ρ c)
  obtain ⟨a3, b3, c3, d3, e3⟩ := step3 m ρ c _ _ a2 b2 c2 d2 e2
  obtain ⟨a4, b4, c4, d4, e4⟩ := step4 m ρ c _ _ a3 b3 c3 d3 e3
  obtain ⟨a5, b5, c5, d5, e5⟩ := step5 m ρ c _ _ a4 b4 c4 d4 e4
  obtain ⟨a6, b6, c6, d6, e6⟩ := step6 m ρ c _ _ a5 b5 c5 d5 e5
  obtain ⟨a7, b7, c7, d7, e7⟩ := step7 m ρ c _ _ a6 b6 c6 d6 e6
  obtain ⟨a8, b8, c8, d8, e8⟩ := step8 m ρ c _ _ a7 b7 c7 d7 e7
  obtain ⟨a9, b9, c9, d9, e9⟩ := step9 m ρ c _ _ a8 b8 c8 d8 e8
  obtain ⟨a10, b10, c10, d10, e10⟩ := step10 m ρ c _ _ a9 b9 c9 d9 e9
  obtain ⟨a11, b11, c11, d11, e11⟩ := step11 m ρ c _ _ a10 b10 c10 d10 e10
  -- the last region: the log-softmax of the array it found, which is the tenth iterate
  refine (W29_arr (F := Ideal) m ρ c 1).trans ?_
  refine (final12 (V28 (F := Ideal) m ρ) c).trans ?_
  show Cert.Spec.logSoftmax (W28 (F := Ideal) m ρ c (Proc.devRef .tc main_v149)) = _
  rw [a11]
  exact congrArg Cert.Spec.logSoftmax (iterate_ten (fun p => Cert.Spec.combine (Sparse.edge (m ((c : Thread nD τ).loc main_arg3))
    (m ((c : Thread nD τ).loc main_arg4)) (m ((c : Thread nD τ).loc main_arg5)) p) _) _)

end Cert.KernelIdeal.Val

end
-- ==== Proof.RefOps.lean ====
import proofs.«407666_j24318104830502_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Operations 0 to 25 of the reference's @main: up to the dense output. -/
abbrev opsHead : List (HloOp τ sig (Elt F)) :=
  [
    nullary main_c (constantI S_ 32 0#32),
    unary main_c main_v0 (broadcastInDim S2000000 ![] bcast_S_S2000000 : (⟨S_, .i32⟩ : BufTy).Contents (Elt F) → (⟨S2000000, .i32⟩ : BufTy).Contents (Elt F)),
    binary main_arg1 main_v0 main_v1 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 2048#32),
    unary main_c_0 main_v2 (broadcastInDim S2000000 ![] bcast_S_S2000000 : (⟨S_, .i32⟩ : BufTy).Contents (Elt F) → (⟨S2000000, .i32⟩ : BufTy).Contents (Elt F)),
    binary main_arg1 main_v2 main_v3 (addi : (⟨S2000000, .i32⟩ : BufTy).Contents (Elt F) → (⟨S2000000, .i32⟩ : BufTy).Contents (Elt F) → (⟨S2000000, .i32⟩ : BufTy).Contents (Elt F)),
    ternary main_v1 main_v3 main_arg1 main_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v4 main_v5 (broadcastInDim S2000000x1 ![0] bcast_S2000000_S2000000x1_0 : (⟨S2000000, .i32⟩ : BufTy).Contents (Elt F) → (⟨S2000000x1, .i32⟩ : BufTy).Contents (Elt F)),
    binary main_arg6 main_v5 main_v6 ((fun x i => Host.gather gather_S2048x64_S2000000x1_S2000000x64_1_0_n_n_0_1_164 x i) : (⟨S2048x64, .f32⟩ : BufTy).Contents (Elt F) → (⟨S2000000x1, .i32⟩ : BufTy).Contents (Elt F) → (⟨S2000000x64, .f32⟩ : BufTy).Contents (Elt F)),
    unary main_arg2 main_v7 (broadcastInDim S2000000x1 ![0] bcast_S2000000_S2000000x1_0 : (⟨S2000000, .f32⟩ : BufTy).Contents (Elt F) → (⟨S2000000x1, .f32⟩ : BufTy).Contents (Elt F)),
    unary main_v7 main_v8 (broadcastInDim S2000000x64 ![0, 1] bcast_S2000000x1_S2000000x64_0_1 : (⟨S2000000x1, .f32⟩ : BufTy).Contents (Elt F) → (⟨S2000000x64, .f32⟩ : BufTy).Contents (Elt F)),
    binary main_v6 main_v8 main_v9 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg0 main_v11 (broadcastInDim S2000000x1 ![0] bcast_S2000000_S2000000x1_0 : (⟨S2000000, .i32⟩ : BufTy).Contents (Elt F) → (⟨S2000000x1, .i32⟩ : BufTy).Contents (Elt F)),
    ternary main_v10 main_v11 main_v9 main_v12 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S100000x64 ![0, 1] bcast_S1x64_S100000x64_0_1 : (⟨S1x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v15) (TRef.of (T := ⟨S100000x64, .f32⟩) main_call0_v0) (TRef.of (T := ⟨S100000x64, .f32⟩) main_v16) maximumf,
    binary main_v16 main_arg8 main_v17 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v18 (broadcastInDim S1x40 ![1] bcast_S40_S1x40_1 : (⟨S40, .f32⟩ : BufTy).Contents (Elt F) → (⟨S1x40, .f32⟩ : BufTy).Contents (Elt F)),
    unary main_v18 main_v19 (broadcastInDim S100000x40 ![0, 1] bcast_S1x40_S100000x40_0_1 : (⟨S1x40, .f32⟩ : BufTy).Contents (Elt F) → (⟨S100000x40, .f32⟩ : BufTy).Contents (Elt F)),
    binary main_v17 main_v19 main_v20 (addf : (⟨S100000x40, .f32⟩ : BufTy).Contents (Elt F) → (⟨S100000x40, .f32⟩ : BufTy).Contents (Elt F) → (⟨S100000x40, .f32⟩ : BufTy).Contents (Elt F)) ]

/-- Operations 26 to 49: propagation step 1. -/
abbrev opsStep1 : List (HloOp τ sig (Elt F)) :=
  [
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_arg4 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_arg4 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg4 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v28 (broadcastInDim S1600000x1 ![0] bcast_S1600000_S1600000x1_0 : (⟨S1600000, .f32⟩ : BufTy).Contents (Elt F) → (⟨S1600000x1, .f32⟩ : BufTy).Contents (Elt F)),
    unary main_v28 main_v29 (broadcastInDim S1600000x40 ![0, 1] bcast_S1600000x1_S1600000x40_0_1 : (⟨S1600000x1, .f32⟩ : BufTy).Contents (Elt F) → (⟨S1600000x40, .f32⟩ : BufTy).Contents (Elt F)),
    binary main_v27 main_v29 main_v30 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v31 (broadcastInDim S100000x40 ![] bcast_S_S100000x40 : (⟨S_, .f32⟩ : BufTy).Contents (Elt F) → (⟨S100000x40, .f32⟩ : BufTy).Contents (Elt F)),
    unary main_arg3 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_4 (constant S_ .f32 0x3F666666#32),
    unary main_cst_4 main_v34 (broadcastInDim S100000x40 ![] bcast_S_S100000x40 : (⟨S_, .f32⟩ : BufTy).Contents (Elt F) → (⟨S100000x40, .f32⟩ : BufTy).Contents (Elt F)),
    binary main_v34 main_v33 main_v35 (mulf : (⟨S100000x40, .f32⟩ : BufTy).Contents (Elt F) → (⟨S100000x40, .f32⟩ : BufTy).Contents (Elt F) → (⟨S100000x40, .f32⟩ : BufTy).Contents (Elt F)),
    nullary main_cst_5 (constant S_ .f32 0x3DCCCCCD#32),
    unary main_cst_5 main_v36 (broadcastInDim S100000x40 ![] bcast_S_S100000x40 : (⟨S_, .f32⟩ : BufTy).Contents (Elt F) → (⟨S100000x40, .f32⟩ : BufTy).Contents (Elt F)),
    binary main_v36 main_v20 main_v37 (mulf : (⟨S100000x40, .f32⟩ : BufTy).Contents (Elt F) → (⟨S100000x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)),
    unary main_v38 main_v39 (Host.tanh : (⟨S100000x40, .f32⟩ : BufTy).Contents (Elt F) → (⟨S100000x40, .f32⟩ : BufTy).Contents (Elt F)) ]

/-- Operations 50 to 73: propagation step 2. -/
abbrev opsStep2 : List (HloOp τ sig (Elt F)) :=
  [
    nullary main_c_6 (constantI S_ 32 0#32),
    unary main_c_6 main_v40 (broadcastInDim S1600000 ![] bcast_S_S1600000 : (⟨S_, .i32⟩ : BufTy).Contents (Elt F) → (⟨S1600000, .i32⟩ : BufTy).Contents (Elt F)),
    binary main_arg4 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v42 (broadcastInDim S1600000 ![] bcast_S_S1600000 : (⟨S_, .i32⟩ : BufTy).Contents (Elt F) → (⟨S1600000, .i32⟩ : BufTy).Contents (Elt F)),
    binary main_arg4 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_arg4 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_v39 main_v45 main_v46 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v47 (broadcastInDim S1600000x1 ![0] bcast_S1600000_S1600000x1_0 : (⟨S1600000, .f32⟩ : BufTy).Contents (Elt F) → (⟨S1600000x1, .f32⟩ : BufTy).Contents (Elt F)),
    unary main_v47 main_v48 (broadcastInDim S1600000x40 ![0, 1] bcast_S1600000x1_S1600000x40_0_1 : (⟨S1600000x1, .f32⟩ : BufTy).Contents (Elt F) → (⟨S1600000x40, .f32⟩ : BufTy).Contents (Elt F)),
    binary main_v46 main_v48 main_v49 (mulf : (⟨S1600000x40, .f32⟩ : BufTy).Contents (Elt F) → (⟨S1600000x40, .f32⟩ : BufTy).Contents (Elt F) → (⟨S1600000x40, .f32⟩ : BufTy).Contents (Elt F)),
    nullary main_cst_8 (constant S_ .f32 0x00000000#32),
    unary main_cst_8 main_v50 (broadcastInDim S100000x40 ![] bcast_S_S100000x40 : (⟨S_, .f32⟩ : BufTy).Contents (Elt F) → (⟨S100000x40, .f32⟩ : BufTy).Contents (Elt F)),
    unary main_arg3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_9 (constant S_ .f32 0x3F666666#32),
    unary main_cst_9 main_v53 (broadcastInDim S100000x40 ![] bcast_S_S100000x40 : (⟨S_, .f32⟩ : BufTy).Contents (Elt F) → (⟨S100000x40, .f32⟩ : BufTy).Contents (Elt F)),
    binary main_v53 main_v52 main_v54 (mulf : (⟨S100000x40, .f32⟩ : BufTy).Contents (Elt F) → (⟨S100000x40, .f32⟩ : BufTy).Contents (Elt F) → (⟨S100000x40, .f32⟩ : BufTy).Contents (Elt F)),
    nullary main_cst_10 (constant S_ .f32 0x3DCCCCCD#32),
    unary main_cst_10 main_v55 (broadcastInDim S100000x40 ![] bcast_S_S100000x40 : (⟨S_, .f32⟩ : BufTy).Contents (Elt F) → (⟨S100000x40, .f32⟩ : BufTy).Contents (Elt F)),
    binary main_v55 main_v20 main_v56 (mulf : (⟨S100000x40, .f32⟩ : BufTy).Contents (Elt F) → (⟨S100000x40, .f32⟩ : BufTy).Contents (Elt F) → (⟨S100000x40, .f32⟩ : BufTy).Contents (Elt F)),
    binary main_v54 main_v56 main_v57 (addf : (⟨S100000x40, .f32⟩ : BufTy).Contents (Elt F) → (⟨S100000x40, .f32⟩ : BufTy).Contents (Elt F) → (⟨S100000x40, .f32⟩ : BufTy).Contents (Elt F)),
    unary main_v57 main_v58 (Host.tanh : (⟨S100000x40, .f32⟩ : BufTy).Contents (Elt F) → (⟨S100000x40, .f32⟩ : BufTy).Contents (Elt F)) ]

/-- Operations 74 to 97: propagation step 3. -/
abbrev opsStep3 : List (HloOp τ sig (Elt F)) :=
  [
    nullary main_c_11 (constantI S_ 32 0#32),
    unary main_c_11 main_v59 (broadcastInDim S1600000 ![] bcast_S_S1600000 : (⟨S_, .i32⟩ : BufTy).Contents (Elt F) → (⟨S1600000, .i32⟩ : BufTy).Contents (Elt F)),
    binary main_arg4 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v61 (broadcastInDim S1600000 ![] bcast_S_S1600000 : (⟨S_, .i32⟩ : BufTy).Contents (Elt F) → (⟨S1600000, .i32⟩ : BufTy).Contents (Elt F)),
    binary main_arg4 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_arg4 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v66 (broadcastInDim S1600000x1 ![0] bcast_S1600000_S1600000x1_0 : (⟨S1600000, .f32⟩ : BufTy).Contents (Elt F) → (⟨S1600000x1, .f32⟩ : BufTy).Contents (Elt F)),
    unary main_v66 main_v67 (broadcastInDim S1600000x40 ![0, 1] bcast_S1600000x1_S1600000x40_0_1 : (⟨S1600000x1, .f32⟩ : BufTy).Contents (Elt F) → (⟨S1600000x40, .f32⟩ : BufTy).Contents (Elt F)),
    binary main_v65 main_v67 main_v68 (mulf : (⟨S1600000x40, .f32⟩ : BufTy).Contents (Elt F) → (⟨S1600000x40, .f32⟩ : BufTy).Contents (Elt F) → (⟨S1600000x40, .f32⟩ : BufTy).Contents (Elt F)),
    nullary main_cst_13 (constant S_ .f32 0x00000000#32),
    unary main_cst_13 main_v69 (broadcastInDim S100000x40 ![] bcast_S_S100000x40 : (⟨S_, .f32⟩ : BufTy).Contents (Elt F) → (⟨S100000x40, .f32⟩ : BufTy).Contents (Elt F)),
    unary main_arg3 main_v70 (broadcastInDim S1600000x1 ![0] bcast_S1600000_S1600000x1_0 : (⟨S1600000, .i32⟩ : BufTy).Contents (Elt F) → (⟨S1600000x1, .i32⟩ : BufTy).Contents (Elt F)),
    ternary main_v69 main_v70 main_v68 main_v71 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_14 (constant S_ .f32 0x3F666666#32),
    unary main_cst_14 main_v72 (broadcastInDim S100000x40 ![] bcast_S_S100000x40 : (⟨S_, .f32⟩ : BufTy).Contents (Elt F) → (⟨S100000x40, .f32⟩ : BufTy).Contents (Elt F)),
    binary main_v72 main_v71 main_v73 (mulf : (⟨S100000x40, .f32⟩ : BufTy).Contents (Elt F) → (⟨S100000x40, .f32⟩ : BufTy).Contents (Elt F) → (⟨S100000x40, .f32⟩ : BufTy).Contents (Elt F)),
    nullary main_cst_15 (constant S_ .f32 0x3DCCCCCD#32),
    unary main_cst_15 main_v74 (broadcastInDim S100000x40 ![] bcast_S_S100000x40 : (⟨S_, .f32⟩ : BufTy).Contents (Elt F) → (⟨S100000x40, .f32⟩ : BufTy).Contents (Elt F)),
    binary main_v74 main_v20 main_v75 (mulf : (⟨S100000x40, .f32⟩ : BufTy).Contents (Elt F) → (⟨S100000x40, .f32⟩ : BufTy).Contents (Elt F) → (⟨S100000x40, .f32⟩ : BufTy).Contents (Elt F)),
    binary main_v73 main_v75 main_v76 (addf : (⟨S100000x40, .f32⟩ : BufTy).Contents (Elt F) → (⟨S100000x40, .f32⟩ : BufTy).Contents (Elt F) → (⟨S100000x40, .f32⟩ : BufTy).Contents (Elt F)),
    unary main_v76 main_v77 (Host.tanh : (⟨S100000x40, .f32⟩ : BufTy).Contents (Elt F) → (⟨S100000x40, .f32⟩ : BufTy).Contents (Elt F)) ]

/-- Operations 98 to 121: propagation step 4. -/
abbrev opsStep4 : List (HloOp τ sig (Elt F)) :=
  [
    nullary main_c_16 (constantI S_ 32 0#32),
    unary main_c_16 main_v78 (broadcastInDim S1600000 ![] bcast_S_S1600000 : (⟨S_, .i32⟩ : BufTy).Contents (Elt F) → (⟨S1600000, .i32⟩ : BufTy).Contents (Elt F)),
    binary main_arg4 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v80 (broadcastInDim S1600000 ![] bcast_S_S1600000 : (⟨S_, .i32⟩ : BufTy).Contents (Elt F) → (⟨S1600000, .i32⟩ : BufTy).Contents (Elt F)),
    binary main_arg4 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_arg4 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v85 (broadcastInDim S1600000x1 ![0] bcast_S1600000_S1600000x1_0 : (⟨S1600000, .f32⟩ : BufTy).Contents (Elt F) → (⟨S1600000x1, .f32⟩ : BufTy).Contents (Elt F)),
    unary main_v85 main_v86 (broadcastInDim S1600000x40 ![0, 1] bcast_S1600000x1_S1600000x40_0_1 : (⟨S1600000x1, .f32⟩ : BufTy).Contents (Elt F) → (⟨S1600000x40, .f32⟩ : BufTy).Contents (Elt F)),
    binary main_v84 main_v86 main_v87 (mulf : (⟨S1600000x40, .f32⟩ : BufTy).Contents (Elt F) → (⟨S1600000x40, .f32⟩ : BufTy).Contents (Elt F) → (⟨S1600000x40, .f32⟩ : BufTy).Contents (Elt F)),
    nullary main_cst_18 (constant S_ .f32 0x00000000#32),
    unary main_cst_18 main_v88 (broadcastInDim S100000x40 ![] bcast_S_S100000x40 : (⟨S_, .f32⟩ : BufTy).Contents (Elt F) → (⟨S100000x40, .f32⟩ : BufTy).Contents (Elt F)),
    unary main_arg3 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_19 (constant S_ .f32 0x3F666666#32),
    unary main_cst_19 main_v91 (broadcastInDim S100000x40 ![] bcast_S_S100000x40 : (⟨S_, .f32⟩ : BufTy).Contents (Elt F) → (⟨S100000x40, .f32⟩ : BufTy).Contents (Elt F)),
    binary main_v91 main_v90 main_v92 (mulf : (⟨S100000x40, .f32⟩ : BufTy).Contents (Elt F) → (⟨S100000x40, .f32⟩ : BufTy).Contents (Elt F) → (⟨S100000x40, .f32⟩ : BufTy).Contents (Elt F)),
    nullary main_cst_20 (constant S_ .f32 0x3DCCCCCD#32),
    unary main_cst_20 main_v93 (broadcastInDim S100000x40 ![] bcast_S_S100000x40 : (⟨S_, .f32⟩ : BufTy).Contents (Elt F) → (⟨S100000x40, .f32⟩ : BufTy).Contents (Elt F)),
    binary main_v93 main_v20 main_v94 (mulf : (⟨S100000x40, .f32⟩ : BufTy).Contents (Elt F) → (⟨S100000x40, .f32⟩ : BufTy).Contents (Elt F) → (⟨S100000x40, .f32⟩ : BufTy).Contents (Elt F)),
    binary main_v92 main_v94 main_v95 (addf : (⟨S100000x40, .f32⟩ : BufTy).Contents (Elt F) → (⟨S100000x40, .f32⟩ : BufTy).Contents (Elt F) → (⟨S100000x40, .f32⟩ : BufTy).Contents (Elt F)),
    unary main_v95 main_v96 (Host.tanh : (⟨S100000x40, .f32⟩ : BufTy).Contents (Elt F) → (⟨S100000x40, .f32⟩ : BufTy).Contents (Elt F)) ]

/-- Operations 122 to 145: propagation step 5. -/
abbrev opsStep5 : List (HloOp τ sig (Elt F)) :=
  [
    nullary main_c_21 (constantI S_ 32 0#32),
    unary main_c_21 main_v97 (broadcastInDim S1600000 ![] bcast_S_S1600000 : (⟨S_, .i32⟩ : BufTy).Contents (Elt F) → (⟨S1600000, .i32⟩ : BufTy).Contents (Elt F)),
    binary main_arg4 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v99 (broadcastInDim S1600000 ![] bcast_S_S1600000 : (⟨S_, .i32⟩ : BufTy).Contents (Elt F) → (⟨S1600000, .i32⟩ : BufTy).Contents (Elt F)),
    binary main_arg4 main_v99 main_v100 (addi : (⟨S1600000, .i32⟩ : BufTy).Contents (Elt F) → (⟨S1600000, .i32⟩ : BufTy).Contents (Elt F) → (⟨S1600000, .i32⟩ : BufTy).Contents (Elt F)),
    ternary main_v98 main_v100 main_arg4 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v101 main_v102 (broadcastInDim S1600000x1 ![0] bcast_S1600000_S1600000x1_0 : (⟨S1600000, .i32⟩ : BufTy).Contents (Elt F) → (⟨S1600000x1, .i32⟩ : BufTy).Contents (Elt F)),
    binary main_v96 main_v102 main_v103 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v104 (broadcastInDim S1600000x1 ![0] bcast_S1600000_S1600000x1_0 : (⟨S1600000, .f32⟩ : BufTy).Contents (Elt F) → (⟨S1600000x1, .f32⟩ : BufTy).Contents (Elt F)),
    unary main_v104 main_v105 (broadcastInDim S1600000x40 ![0, 1] bcast_S1600000x1_S1600000x40_0_1 : (⟨S1600000x1, .f32⟩ : BufTy).Contents (Elt F) → (⟨S1600000x40, .f32⟩ : BufTy).Contents (Elt F)),
    binary main_v103 main_v105 main_v106 (mulf : (⟨S1600000x40, .f32⟩ : BufTy).Contents (Elt F) → (⟨S1600000x40, .f32⟩ : BufTy).Contents (Elt F) → (⟨S1600000x40, .f32⟩ : BufTy).Contents (Elt F)),
    nullary main_cst_23 (constant S_ .f32 0x00000000#32),
    unary main_cst_23 main_v107 (broadcastInDim S100000x40 ![] bcast_S_S100000x40 : (⟨S_, .f32⟩ : BufTy).Contents (Elt F) → (⟨S100000x40, .f32⟩ : BufTy).Contents (Elt F)),
    unary main_arg3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_24 (constant S_ .f32 0x3F666666#32),
    unary main_cst_24 main_v110 (broadcastInDim S100000x40 ![] bcast_S_S100000x40 : (⟨S_, .f32⟩ : BufTy).Contents (Elt F) → (⟨S100000x40, .f32⟩ : BufTy).Contents (Elt F)),
    binary main_v110 main_v109 main_v111 (mulf : (⟨S100000x40, .f32⟩ : BufTy).Contents (Elt F) → (⟨S100000x40, .f32⟩ : BufTy).Contents (Elt F) → (⟨S100000x40, .f32⟩ : BufTy).Contents (Elt F)),
    nullary main_cst_25 (constant S_ .f32 0x3DCCCCCD#32),
    unary main_cst_25 main_v112 (broadcastInDim S100000x40 ![] bcast_S_S100000x40 : (⟨S_, .f32⟩ : BufTy).Contents (Elt F) → (⟨S100000x40, .f32⟩ : BufTy).Contents (Elt F)),
    binary main_v112 main_v20 main_v113 (mulf : (⟨S100000x40, .f32⟩ : BufTy).Contents (Elt F) → (⟨S100000x40, .f32⟩ : BufTy).Contents (Elt F) → (⟨S100000x40, .f32⟩ : BufTy).Contents (Elt F)),
    binary main_v111 main_v113 main_v114 (addf : (⟨S100000x40, .f32⟩ : BufTy).Contents (Elt F) → (⟨S100000x40, .f32⟩ : BufTy).Contents (Elt F) → (⟨S100000x40, .f32⟩ : BufTy).Contents (Elt F)),
    unary main_v114 main_v115 (Host.tanh : (⟨S100000x40, .f32⟩ : BufTy).Contents (Elt F) → (⟨S100000x40, .f32⟩ : BufTy).Contents (Elt F)) ]

/-- Operations 146 to 169: propagation step 6. -/
abbrev opsStep6 : List (HloOp τ sig (Elt F)) :=
  [
    nullary main_c_26 (constantI S_ 32 0#32),
    unary main_c_26 main_v116 (broadcastInDim S1600000 ![] bcast_S_S1600000 : (⟨S_, .i32⟩ : BufTy).Contents (Elt F) → (⟨S1600000, .i32⟩ : BufTy).Contents (Elt F)),
    binary main_arg4 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v118 (broadcastInDim S1600000 ![] bcast_S_S1600000 : (⟨S_, .i32⟩ : BufTy).Contents (Elt F) → (⟨S1600000, .i32⟩ : BufTy).Contents (Elt F)),
    binary main_arg4 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_arg4 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_v115 main_v121 main_v122 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v123 (broadcastInDim S1600000x1 ![0] bcast_S1600000_S1600000x1_0 : (⟨S1600000, .f32⟩ : BufTy).Contents (Elt F) → (⟨S1600000x1, .f32⟩ : BufTy).Contents (Elt F)),
    unary main_v123 main_v124 (broadcastInDim S1600000x40 ![0, 1] bcast_S1600000x1_S1600000x40_0_1 : (⟨S1600000x1, .f32⟩ : BufTy).Contents (Elt F) → (⟨S1600000x40, .f32⟩ : BufTy).Contents (Elt F)),
    binary main_v122 main_v124 main_v125 (mulf : (⟨S1600000x40, .f32⟩ : BufTy).Contents (Elt F) → (⟨S1600000x40, .f32⟩ : BufTy).Contents (Elt F) → (⟨S1600000x40, .f32⟩ : BufTy).Contents (Elt F)),
    nullary main_cst_28 (constant S_ .f32 0x00000000#32),
    unary main_cst_28 main_v126 (broadcastInDim S100000x40 ![] bcast_S_S100000x40 : (⟨S_, .f32⟩ : BufTy).Contents (Elt F) → (⟨S100000x40, .f32⟩ : BufTy).Contents (Elt F)),
    unary main_arg3 main_v127 (broadcastInDim S1600000x1 ![0] bcast_S1600000_S1600000x1_0 : (⟨S1600000, .i32⟩ : BufTy).Contents (Elt F) → (⟨S1600000x1, .i32⟩ : BufTy).Contents (Elt F)),
    ternary main_v126 main_v127 main_v125 main_v128 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_29 (constant S_ .f32 0x3F666666#32),
    unary main_cst_29 main_v129 (broadcastInDim S100000x40 ![] bcast_S_S100000x40 : (⟨S_, .f32⟩ : BufTy).Contents (Elt F) → (⟨S100000x40, .f32⟩ : BufTy).Contents (Elt F)),
    binary main_v129 main_v128 main_v130 (mulf : (⟨S100000x40, .f32⟩ : BufTy).Contents (Elt F) → (⟨S100000x40, .f32⟩ : BufTy).Contents (Elt F) → (⟨S100000x40, .f32⟩ : BufTy).Contents (Elt F)),
    nullary main_cst_30 (constant S_ .f32 0x3DCCCCCD#32),
    unary main_cst_30 main_v131 (broadcastInDim S100000x40 ![] bcast_S_S100000x40 : (⟨S_, .f32⟩ : BufTy).Contents (Elt F) → (⟨S100000x40, .f32⟩ : BufTy).Contents (Elt F)),
    binary main_v131 main_v20 main_v132 (mulf : (⟨S100000x40, .f32⟩ : BufTy).Contents (Elt F) → (⟨S100000x40, .f32⟩ : BufTy).Contents (Elt F) → (⟨S100000x40, .f32⟩ : BufTy).Contents (Elt F)),
    binary main_v130 main_v132 main_v133 (addf : (⟨S100000x40, .f32⟩ : BufTy).Contents (Elt F) → (⟨S100000x40, .f32⟩ : BufTy).Contents (Elt F) → (⟨S100000x40, .f32⟩ : BufTy).Contents (Elt F)),
    unary main_v133 main_v134 (Host.tanh : (⟨S100000x40, .f32⟩ : BufTy).Contents (Elt F) → (⟨S100000x40, .f32⟩ : BufTy).Contents (Elt F)) ]

/-- Operations 170 to 193: propagation step 7. -/
abbrev opsStep7 : List (HloOp τ sig (Elt F)) :=
  [
    nullary main_c_31 (constantI S_ 32 0#32),
    unary main_c_31 main_v135 (broadcastInDim S1600000 ![] bcast_S_S1600000 : (⟨S_, .i32⟩ : BufTy).Contents (Elt F) → (⟨S1600000, .i32⟩ : BufTy).Contents (Elt F)),
    binary main_arg4 main_v135 main_v136 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v137 (broadcastInDim S1600000 ![] bcast_S_S1600000 : (⟨S_, .i32⟩ : BufTy).Contents (Elt F) → (⟨S1600000, .i32⟩ : BufTy).Contents (Elt F)),
    binary main_arg4 main_v137 main_v138 (addi : (⟨S1600000, .i32⟩ : BufTy).Contents (Elt F) → (⟨S1600000, .i32⟩ : BufTy).Contents (Elt F) → (⟨S1600000, .i32⟩ : BufTy).Contents (Elt F)),
    ternary main_v136 main_v138 main_arg4 main_v139 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v139 main_v140 (broadcastInDim S1600000x1 ![0] bcast_S1600000_S1600000x1_0 : (⟨S1600000, .i32⟩ : BufTy).Contents (Elt F) → (⟨S1600000x1, .i32⟩ : BufTy).Contents (Elt F)),
    binary main_v134 main_v140 main_v141 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v142 (broadcastInDim S1600000x1 ![0] bcast_S1600000_S1600000x1_0 : (⟨S1600000, .f32⟩ : BufTy).Contents (Elt F) → (⟨S1600000x1, .f32⟩ : BufTy).Contents (Elt F)),
    unary main_v142 main_v143 (broadcastInDim S1600000x40 ![0, 1] bcast_S1600000x1_S1600000x40_0_1 : (⟨S1600000x1, .f32⟩ : BufTy).Contents (Elt F) → (⟨S1600000x40, .f32⟩ : BufTy).Contents (Elt F)),
    binary main_v141 main_v143 main_v144 (mulf : (⟨S1600000x40, .f32⟩ : BufTy).Contents (Elt F) → (⟨S1600000x40, .f32⟩ : BufTy).Contents (Elt F) → (⟨S1600000x40, .f32⟩ : BufTy).Contents (Elt F)),
    nullary main_cst_33 (constant S_ .f32 0x00000000#32),
    unary main_cst_33 main_v145 (broadcastInDim S100000x40 ![] bcast_S_S100000x40 : (⟨S_, .f32⟩ : BufTy).Contents (Elt F) → (⟨S100000x40, .f32⟩ : BufTy).Contents (Elt F)),
    unary main_arg3 main_v146 (broadcastInDim S1600000x1 ![0] bcast_S1600000_S1600000x1_0 : (⟨S1600000, .i32⟩ : BufTy).Contents (Elt F) → (⟨S1600000x1, .i32⟩ : BufTy).Contents (Elt F)),
    ternary main_v145 main_v146 main_v144 main_v147 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_34 (constant S_ .f32 0x3F666666#32),
    unary main_cst_34 main_v148 (broadcastInDim S100000x40 ![] bcast_S_S100000x40 : (⟨S_, .f32⟩ : BufTy).Contents (Elt F) → (⟨S100000x40, .f32⟩ : BufTy).Contents (Elt F)),
    binary main_v148 main_v147 main_v149 (mulf : (⟨S100000x40, .f32⟩ : BufTy).Contents (Elt F) → (⟨S100000x40, .f32⟩ : BufTy).Contents (Elt F) → (⟨S100000x40, .f32⟩ : BufTy).Contents (Elt F)),
    nullary main_cst_35 (constant S_ .f32 0x3DCCCCCD#32),
    unary main_cst_35 main_v150 (broadcastInDim S100000x40 ![] bcast_S_S100000x40 : (⟨S_, .f32⟩ : BufTy).Contents (Elt F) → (⟨S100000x40, .f32⟩ : BufTy).Contents (Elt F)),
    binary main_v150 main_v20 main_v151 (mulf : (⟨S100000x40, .f32⟩ : BufTy).Contents (Elt F) → (⟨S100000x40, .f32⟩ : BufTy).Contents (Elt F) → (⟨S100000x40, .f32⟩ : BufTy).Contents (Elt F)),
    binary main_v149 main_v151 main_v152 (addf : (⟨S100000x40, .f32⟩ : BufTy).Contents (Elt F) → (⟨S100000x40, .f32⟩ : BufTy).Contents (Elt F) → (⟨S100000x40, .f32⟩ : BufTy).Contents (Elt F)),
    unary main_v152 main_v153 (Host.tanh : (⟨S100000x40, .f32⟩ : BufTy).Contents (Elt F) → (⟨S100000x40, .f32⟩ : BufTy).Contents (Elt F)) ]

/-- Operations 194 to 217: propagation step 8. -/
abbrev opsStep8 : List (HloOp τ sig (Elt F)) :=
  [
    nullary main_c_36 (constantI S_ 32 0#32),
    unary main_c_36 main_v154 (broadcastInDim S1600000 ![] bcast_S_S1600000 : (⟨S_, .i32⟩ : BufTy).Contents (Elt F) → (⟨S1600000, .i32⟩ : BufTy).Contents (Elt F)),
    binary main_arg4 main_v154 main_v155 (cmpi .slt : (⟨S1600000, .i32⟩ : BufTy).Contents (Elt F) → (⟨S1600000, .i32⟩ : BufTy).Contents (Elt F) → (⟨S1600000, .i1⟩ : BufTy).Contents (Elt F)),
    nullary main_c_37 (constantI S_ 32 100000#32),
    unary main_c_37 main_v156 (broadcastInDim S1600000 ![] bcast_S_S1600000 : (⟨S_, .i32⟩ : BufTy).Contents (Elt F) → (⟨S1600000, .i32⟩ : BufTy).Contents (Elt F)),
    binary main_arg4 main_v156 main_v157 (addi : (⟨S1600000, .i32⟩ : BufTy).Contents (Elt F) → (⟨S1600000, .i32⟩ : BufTy).Contents (Elt F) → (⟨S1600000, .i32⟩ : BufTy).Contents (Elt F)),
    ternary main_v155 main_v157 main_arg4 main_v158 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v158 main_v159 (broadcastInDim S1600000x1 ![0] bcast_S1600000_S1600000x1_0 : (⟨S1600000, .i32⟩ : BufTy).Contents (Elt F) → (⟨S1600000x1, .i32⟩ : BufTy).Contents (Elt F)),
    binary main_v153 main_v159 main_v160 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v161 (broadcastInDim S1600000x1 ![0] bcast_S1600000_S1600000x1_0 : (⟨S1600000, .f32⟩ : BufTy).Contents (Elt F) → (⟨S1600000x1, .f32⟩ : BufTy).Contents (Elt F)),
    unary main_v161 main_v162 (broadcastInDim S1600000x40 ![0, 1] bcast_S1600000x1_S1600000x40_0_1 : (⟨S1600000x1, .f32⟩ : BufTy).Contents (Elt F) → (⟨S1600000x40, .f32⟩ : BufTy).Contents (Elt F)),
    binary main_v160 main_v162 main_v163 (mulf : (⟨S1600000x40, .f32⟩ : BufTy).Contents (Elt F) → (⟨S1600000x40, .f32⟩ : BufTy).Contents (Elt F) → (⟨S1600000x40, .f32⟩ : BufTy).Contents (Elt F)),
    nullary main_cst_38 (constant S_ .f32 0x00000000#32),
    unary main_cst_38 main_v164 (broadcastInDim S100000x40 ![] bcast_S_S100000x40 : (⟨S_, .f32⟩ : BufTy).Contents (Elt F) → (⟨S100000x40, .f32⟩ : BufTy).Contents (Elt F)),
    unary main_arg3 main_v165 (broadcastInDim S1600000x1 ![0] bcast_S1600000_S1600000x1_0 : (⟨S1600000, .i32⟩ : BufTy).Contents (Elt F) → (⟨S1600000x1, .i32⟩ : BufTy).Contents (Elt F)),
    ternary main_v164 main_v165 main_v163 main_v166 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_39 (constant S_ .f32 0x3F666666#32),
    unary main_cst_39 main_v167 (broadcastInDim S100000x40 ![] bcast_S_S100000x40 : (⟨S_, .f32⟩ : BufTy).Contents (Elt F) → (⟨S100000x40, .f32⟩ : BufTy).Contents (Elt F)),
    binary main_v167 main_v166 main_v168 (mulf : (⟨S100000x40, .f32⟩ : BufTy).Contents (Elt F) → (⟨S100000x40, .f32⟩ : BufTy).Contents (Elt F) → (⟨S100000x40, .f32⟩ : BufTy).Contents (Elt F)),
    nullary main_cst_40 (constant S_ .f32 0x3DCCCCCD#32),
    unary main_cst_40 main_v169 (broadcastInDim S100000x40 ![] bcast_S_S100000x40 : (⟨S_, .f32⟩ : BufTy).Contents (Elt F) → (⟨S100000x40, .f32⟩ : BufTy).Contents (Elt F)),
    binary main_v169 main_v20 main_v170 (mulf : (⟨S100000x40, .f32⟩ : BufTy).Contents (Elt F) → (⟨S100000x40, .f32⟩ : BufTy).Contents (Elt F) → (⟨S100000x40, .f32⟩ : BufTy).Contents (Elt F)),
    binary main_v168 main_v170 main_v171 (addf : (⟨S100000x40, .f32⟩ : BufTy).Contents (Elt F) → (⟨S100000x40, .f32⟩ : BufTy).Contents (Elt F) → (⟨S100000x40, .f32⟩ : BufTy).Contents (Elt F)),
    unary main_v171 main_v172 (Host.tanh : (⟨S100000x40, .f32⟩ : BufTy).Contents (Elt F) → (⟨S100000x40, .f32⟩ : BufTy).Contents (Elt F)) ]

/-- Operations 218 to 241: propagation step 9. -/
abbrev opsStep9 : List (HloOp τ sig (Elt F)) :=
  [
    nullary main_c_41 (constantI S_ 32 0#32),
    unary main_c_41 main_v173 (broadcastInDim S1600000 ![] bcast_S_S1600000 : (⟨S_, .i32⟩ : BufTy).Contents (Elt F) → (⟨S1600000, .i32⟩ : BufTy).Contents (Elt F)),
    binary main_arg4 main_v173 main_v174 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 100000#32),
    unary main_c_42 main_v175 (broadcastInDim S1600000 ![] bcast_S_S1600000 : (⟨S_, .i32⟩ : BufTy).Contents (Elt F) → (⟨S1600000, .i32⟩ : BufTy).Contents (Elt F)),
    binary main_arg4 main_v175 main_v176 (addi : (⟨S1600000, .i32⟩ : BufTy).Contents (Elt F) → (⟨S1600000, .i32⟩ : BufTy).Contents (Elt F) → (⟨S1600000, .i32⟩ : BufTy).Contents (Elt F)),
    ternary main_v174 main_v176 main_arg4 main_v177 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v177 main_v178 (broadcastInDim S1600000x1 ![0] bcast_S1600000_S1600000x1_0 : (⟨S1600000, .i32⟩ : BufTy).Contents (Elt F) → (⟨S1600000x1, .i32⟩ : BufTy).Contents (Elt F)),
    binary main_v172 main_v178 main_v179 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v180 (broadcastInDim S1600000x1 ![0] bcast_S1600000_S1600000x1_0 : (⟨S1600000, .f32⟩ : BufTy).Contents (Elt F) → (⟨S1600000x1, .f32⟩ : BufTy).Contents (Elt F)),
    unary main_v180 main_v181 (broadcastInDim S1600000x40 ![0, 1] bcast_S1600000x1_S1600000x40_0_1 : (⟨S1600000x1, .f32⟩ : BufTy).Contents (Elt F) → (⟨S1600000x40, .f32⟩ : BufTy).Contents (Elt F)),
    binary main_v179 main_v181 main_v182 (mulf : (⟨S1600000x40, .f32⟩ : BufTy).Contents (Elt F) → (⟨S1600000x40, .f32⟩ : BufTy).Contents (Elt F) → (⟨S1600000x40, .f32⟩ : BufTy).Contents (Elt F)),
    nullary main_cst_43 (constant S_ .f32 0x00000000#32),
    unary main_cst_43 main_v183 (broadcastInDim S100000x40 ![] bcast_S_S100000x40 : (⟨S_, .f32⟩ : BufTy).Contents (Elt F) → (⟨S100000x40, .f32⟩ : BufTy).Contents (Elt F)),
    unary main_arg3 main_v184 (broadcastInDim S1600000x1 ![0] bcast_S1600000_S1600000x1_0 : (⟨S1600000, .i32⟩ : BufTy).Contents (Elt F) → (⟨S1600000x1, .i32⟩ : BufTy).Contents (Elt F)),
    ternary main_v183 main_v184 main_v182 main_v185 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_44 (constant S_ .f32 0x3F666666#32),
    unary main_cst_44 main_v186 (broadcastInDim S100000x40 ![] bcast_S_S100000x40 : (⟨S_, .f32⟩ : BufTy).Contents (Elt F) → (⟨S100000x40, .f32⟩ : BufTy).Contents (Elt F)),
    binary main_v186 main_v185 main_v187 (mulf : (⟨S100000x40, .f32⟩ : BufTy).Contents (Elt F) → (⟨S100000x40, .f32⟩ : BufTy).Contents (Elt F) → (⟨S100000x40, .f32⟩ : BufTy).Contents (Elt F)),
    nullary main_cst_45 (constant S_ .f32 0x3DCCCCCD#32),
    unary main_cst_45 main_v188 (broadcastInDim S100000x40 ![] bcast_S_S100000x40 : (⟨S_, .f32⟩ : BufTy).Contents (Elt F) → (⟨S100000x40, .f32⟩ : BufTy).Contents (Elt F)),
    binary main_v188 main_v20 main_v189 (mulf : (⟨S100000x40, .f32⟩ : BufTy).Contents (Elt F) → (⟨S100000x40, .f32⟩ : BufTy).Contents (Elt F) → (⟨S100000x40, .f32⟩ : BufTy).Contents (Elt F)),
    binary main_v187 main_v189 main_v190 (addf : (⟨S100000x40, .f32⟩ : BufTy).Contents (Elt F) → (⟨S100000x40, .f32⟩ : BufTy).Contents (Elt F) → (⟨S100000x40, .f32⟩ : BufTy).Contents (Elt F)),
    unary main_v190 main_v191 (Host.tanh : (⟨S100000x40, .f32⟩ : BufTy).Contents (Elt F) → (⟨S100000x40, .f32⟩ : BufTy).Contents (Elt F)) ]

/-- Operations 242 to 265: propagation step 10. -/
abbrev opsStep10 : List (HloOp τ sig (Elt F)) :=
  [
    nullary main_c_46 (constantI S_ 32 0#32),
    unary main_c_46 main_v192 (broadcastInDim S1600000 ![] bcast_S_S1600000 : (⟨S_, .i32⟩ : BufTy).Contents (Elt F) → (⟨S1600000, .i32⟩ : BufTy).Contents (Elt F)),
    binary main_arg4 main_v192 main_v193 (cmpi .slt : (⟨S1600000, .i32⟩ : BufTy).Contents (Elt F) → (⟨S1600000, .i32⟩ : BufTy).Contents (Elt F) → (⟨S1600000, .i1⟩ : BufTy).Contents (Elt F)),
    nullary main_c_47 (constantI S_ 32 100000#32),
    unary main_c_47 main_v194 (broadcastInDim S1600000 ![] bcast_S_S1600000 : (⟨S_, .i32⟩ : BufTy).Contents (Elt F) → (⟨S1600000, .i32⟩ : BufTy).Contents (Elt F)),
    binary main_arg4 main_v194 main_v195 (addi : (⟨S1600000, .i32⟩ : BufTy).Contents (Elt F) → (⟨S1600000, .i32⟩ : BufTy).Contents (Elt F) → (⟨S1600000, .i32⟩ : BufTy).Contents (Elt F)),
    ternary main_v193 main_v195 main_arg4 main_v196 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v196 main_v197 (broadcastInDim S1600000x1 ![0] bcast_S1600000_S1600000x1_0 : (⟨S1600000, .i32⟩ : BufTy).Contents (Elt F) → (⟨S1600000x1, .i32⟩ : BufTy).Contents (Elt F)),
    binary main_v191 main_v197 main_v198 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg5 main_v199 (broadcastInDim S1600000x1 ![0] bcast_S1600000_S1600000x1_0 : (⟨S1600000, .f32⟩ : BufTy).Contents (Elt F) → (⟨S1600000x1, .f32⟩ : BufTy).Contents (Elt F)),
    unary main_v199 main_v200 (broadcastInDim S1600000x40 ![0, 1] bcast_S1600000x1_S1600000x40_0_1 : (⟨S1600000x1, .f32⟩ : BufTy).Contents (Elt F) → (⟨S1600000x40, .f32⟩ : BufTy).Contents (Elt F)),
    binary main_v198 main_v200 main_v201 (mulf : (⟨S1600000x40, .f32⟩ : BufTy).Contents (Elt F) → (⟨S1600000x40, .f32⟩ : BufTy).Contents (Elt F) → (⟨S1600000x40, .f32⟩ : BufTy).Contents (Elt F)),
    nullary main_cst_48 (constant S_ .f32 0x00000000#32),
    unary main_cst_48 main_v202 (broadcastInDim S100000x40 ![] bcast_S_S100000x40 : (⟨S_, .f32⟩ : BufTy).Contents (Elt F) → (⟨S100000x40, .f32⟩ : BufTy).Contents (Elt F)),
    unary main_arg3 main_v203 (broadcastInDim S1600000x1 ![0] bcast_S1600000_S1600000x1_0 : (⟨S1600000, .i32⟩ : BufTy).Contents (Elt F) → (⟨S1600000x1, .i32⟩ : BufTy).Contents (Elt F)),
    ternary main_v202 main_v203 main_v201 main_v204 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_49 (constant S_ .f32 0x3F666666#32),
    unary main_cst_49 main_v205 (broadcastInDim S100000x40 ![] bcast_S_S100000x40 : (⟨S_, .f32⟩ : BufTy).Contents (Elt F) → (⟨S100000x40, .f32⟩ : BufTy).Contents (Elt F)),
    binary main_v205 main_v204 main_v206 (mulf : (⟨S100000x40, .f32⟩ : BufTy).Contents (Elt F) → (⟨S100000x40, .f32⟩ : BufTy).Contents (Elt F) → (⟨S100000x40, .f32⟩ : BufTy).Contents (Elt F)),
    nullary main_cst_50 (constant S_ .f32 0x3DCCCCCD#32),
    unary main_cst_50 main_v207 (broadcastInDim S100000x40 ![] bcast_S_S100000x40 : (⟨S_, .f32⟩ : BufTy).Contents (Elt F) → (⟨S100000x40, .f32⟩ : BufTy).Contents (Elt F)),
    binary main_v207 main_v20 main_v208 (mulf : (⟨S100000x40, .f32⟩ : BufTy).Contents (Elt F) → (⟨S100000x40, .f32⟩ : BufTy).Contents (Elt F) → (⟨S100000x40, .f32⟩ : BufTy).Contents (Elt F)),
    binary main_v206 main_v208 main_v209 (addf : (⟨S100000x40, .f32⟩ : BufTy).Contents (Elt F) → (⟨S100000x40, .f32⟩ : BufTy).Contents (Elt F) → (⟨S100000x40, .f32⟩ : BufTy).Contents (Elt F)),
    unary main_v209 main_v210 (Host.tanh : (⟨S100000x40, .f32⟩ : BufTy).Contents (Elt F) → (⟨S100000x40, .f32⟩ : BufTy).Contents (Elt F)) ]

/-- Operations 266 to 280: the inlined log-softmax. -/
abbrev opsTail : List (HloOp τ sig (Elt F)) :=
  [
    TRef.nullary (TRef.of (T := ⟨S_, .f32⟩) main_call1_cst) (constant S_ .f32 0xFF800000#32),
    TRef.binary (TRef.of (T := ⟨S100000x40, .f32⟩) main_v210) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v210) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v211) subf ]

end Cert.ReferenceIdeal.RefOps

end
-- ==== Proof.RefOpsSplit.lean ====
/-
  The reference's operation list is its twelve stretches in order: the dense head, the ten propagation steps, the
  log-softmax.
-/
import proofs.«407666_j24318104830502_3_alg».proof.Proof.RefRun
import proofs.«407666_j24318104830502_3_alg».proof.Proof.RefOps

noncomputable section

namespace Cert.ReferenceIdeal.RefOps

open Cert.ReferenceIdeal Cert.ReferenceIdeal.Gen Idealize.ShloMosaic Idealize.ShloMosaic.StableHlo

variable {F : FTy → Type} [FloatOps F]

set_option maxRecDepth 16384 in
theorem ops_split : (Cert.ReferenceIdeal.ValueP.ops : List (HloOp τ sig (Elt F)))
    = opsHead ++ (opsStep1 ++ (opsStep2 ++ (opsStep3 ++ (opsStep4 ++ (opsStep5 ++ (opsStep6 ++ (opsStep7 ++ (opsStep8 ++ (opsStep9 ++ (opsStep10 ++ opsTail)))))))))) := rfl

end Cert.ReferenceIdeal.RefOps

end
-- ==== Proof.RefFoldHead.lean ====
/-
  The reference's first stretch of operations, read off any buffer contents that hold the arguments: after it the
  dense output's buffer holds the dense-output stage of the arguments.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- A typed reference's two transports, to the buffer's own type and back, undo each other: both are the
    transport along one equation of types, in its two directions. -/
theorem ofBuf_toBuf {sg : RefSig} {Val : EltTy → Type} {T : BufTy} (x : TRef sg T) (v : T.Contents Val) :
    x.ofBuf (x.toBuf v) = v := by
  obtain ⟨r, h, hd, hs⟩ := x
  subst h
  rfl

/-- At the rectifier's result buffer, whose type IS the value's type, the transport to the buffer is the identity. -/
theorem toBuf_main_v16 (p1 p2 p3) (v : (⟨S100000x64, .f32⟩ : BufTy).Contents (Elt Ideal)) :
    (TRef.of (sig := sig) (T := ⟨S100000x64, .f32⟩) main_v16 p1 p2 p3).toBuf v = v := rfl

/-- At the rectifier's argument buffer likewise, the transport from the buffer is the identity. -/
theorem ofBuf_main_v15 (p1 p2 p3) (v : (⟨S100000x64, .f32⟩ : BufTy).Contents (Elt Ideal)) :
    (TRef.of (sig := sig) (T := ⟨S100000x64, .f32⟩) main_v15 p1 p2 p3).ofBuf v = v := rfl

/-- The first stretch read at the dense output's buffer. The hypotheses name the seven argument buffers'
    contents, so the claim is about those contents themselves; the fold of the twenty-six operations at the
    dense output's buffer is then each operation's function applied to the contents of the buffers it reads,
    down to the argument buffers; the inlined rectifier's three operations carry transports between a buffer's
    type and its value's type, which are identities; and the dense-output stage, opened one level per operation
    of the stretch, is the same term. -/
theorem fold_head (h0 : U (Proc.devRef .tc main_arg0) = x0) (h1 : U (Proc.devRef .tc main_arg1) = x1) (h2 : U (Proc.devRef .tc main_arg2) = x2)
    (h6 : U (Proc.devRef .tc main_arg6) = x6) (h7 : U (Proc.devRef .tc main_arg7) = x7) (h8 : U (Proc.devRef .tc main_arg8) = x8) (h9 : U (Proc.devRef .tc main_arg9) = x9) :
    after (opsHead (F := Ideal)) U (Proc.devRef .tc main_v20) = val_main_v20 (F := Ideal) x0 x1 x2 x6 x7 x8 x9 := by
  subst h0 h1 h2 h6 h7 h8 h9
  after_results_simp
  rw [ofBuf_toBuf, ofBuf_toBuf, toBuf_main_v16, ofBuf_main_v15]
  simp only [val_main_v20, val_main_v19, val_main_v18, val_main_v17, val_main_v16, val_main_call0_v0, val_main_call0_cst,
    val_main_v15, val_main_v14, val_main_v13, val_main_v12, val_main_v11, val_main_v10, val_main_cst, val_main_v9,
    val_main_v8, val_main_v7, val_main_v6, val_main_v5, val_main_v4, val_main_v3, val_main_v2, val_main_c_0,
    val_main_v1, val_main_v0, val_main_c]

end Cert.ReferenceIdeal.RefFold

end
-- ==== Proof.RefFoldStep1.lean ====
/-
  The reference's propagation step 1, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step1 (hp : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep1 (F := Ideal)) U (Proc.devRef .tc main_v39) = val_main_v39 (F := Ideal) x0 x1 x2 x3 x4 x5 x6 x7 x8 x9 := by
  -- the fold of the twenty-four operations, read at the step's output buffer: the operations composed, applied to
  -- what U holds at the three edge arrays and at the dense output's buffer
  after_results_simp
  -- those four buffers hold their stages
  rw [hp, h3, h4, h5]
  -- the output's stage, opened one level per operation of the step (the dense output's stage stays closed), is
  -- the same composition
  simp only [val_main_v39, val_main_v38, val_main_v37, val_main_v36, val_main_cst_5, val_main_v35, val_main_v34,
    val_main_cst_4, val_main_v33, val_main_v32, val_main_v31, val_main_cst_3, val_main_v30, val_main_v29, val_main_v28,
    val_main_v27, val_main_v26, val_main_v25, val_main_v24, val_main_v23, val_main_c_2, val_main_v22, val_main_v21,
    val_main_c_1]

end Cert.ReferenceIdeal.RefFold

end
-- ==== Proof.RefFoldStep2.lean ====
/-
  The reference's propagation step 2, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step2 (hp : U (Proc.devRef .tc main_v39) = val_main_v39 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep2 (F := Ideal)) U (Proc.devRef .tc main_v58) = val_main_v58 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v58, val_main_v57, val_main_v56, val_main_v55, val_main_cst_10, val_main_v54, val_main_v53,
    val_main_cst_9, val_main_v52, val_main_v51, val_main_v50, val_main_cst_8, val_main_v49, val_main_v48, val_main_v47,
    val_main_v46, val_main_v45, val_main_v44, val_main_v43, val_main_v42, val_main_c_7, val_main_v41, val_main_v40,
    val_main_c_6]

end Cert.ReferenceIdeal.RefFold

end
-- ==== Proof.RefFoldStep3.lean ====
/-
  The reference's propagation step 3, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step3 (hp : U (Proc.devRef .tc main_v58) = val_main_v58 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep3 (F := Ideal)) U (Proc.devRef .tc main_v77) = val_main_v77 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v77, val_main_v76, val_main_v75, val_main_v74, val_main_cst_15, val_main_v73, val_main_v72,
    val_main_cst_14, val_main_v71, val_main_v70, val_main_v69, val_main_cst_13, val_main_v68, val_main_v67, val_main_v66,
    val_main_v65, val_main_v64, val_main_v63, val_main_v62, val_main_v61, val_main_c_12, val_main_v60, val_main_v59,
    val_main_c_11]

end Cert.ReferenceIdeal.RefFold

end
-- ==== Proof.RefFoldStep4.lean ====
/-
  The reference's propagation step 4, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step4 (hp : U (Proc.devRef .tc main_v77) = val_main_v77 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep4 (F := Ideal)) U (Proc.devRef .tc main_v96) = val_main_v96 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v96, val_main_v95, val_main_v94, val_main_v93, val_main_cst_20, val_main_v92, val_main_v91,
    val_main_cst_19, val_main_v90, val_main_v89, val_main_v88, val_main_cst_18, val_main_v87, val_main_v86, val_main_v85,
    val_main_v84, val_main_v83, val_main_v82, val_main_v81, val_main_v80, val_main_c_17, val_main_v79, val_main_v78,
    val_main_c_16]

end Cert.ReferenceIdeal.RefFold

end
-- ==== Proof.RefFoldStep5.lean ====
/-
  The reference's propagation step 5, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step5 (hp : U (Proc.devRef .tc main_v96) = val_main_v96 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep5 (F := Ideal)) U (Proc.devRef .tc main_v115) = val_main_v115 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v115, val_main_v114, val_main_v113, val_main_v112, val_main_cst_25, val_main_v111, val_main_v110,
    val_main_cst_24, val_main_v109, val_main_v108, val_main_v107, val_main_cst_23, val_main_v106, val_main_v105, val_main_v104,
    val_main_v103, val_main_v102, val_main_v101, val_main_v100, val_main_v99, val_main_c_22, val_main_v98, val_main_v97,
    val_main_c_21]

end Cert.ReferenceIdeal.RefFold

end
-- ==== Proof.RefFoldStep6.lean ====
/-
  The reference's propagation step 6, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step6 (hp : U (Proc.devRef .tc main_v115) = val_main_v115 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep6 (F := Ideal)) U (Proc.devRef .tc main_v134) = val_main_v134 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v134, val_main_v133, val_main_v132, val_main_v131, val_main_cst_30, val_main_v130, val_main_v129,
    val_main_cst_29, val_main_v128, val_main_v127, val_main_v126, val_main_cst_28, val_main_v125, val_main_v124, val_main_v123,
    val_main_v122, val_main_v121, val_main_v120, val_main_v119, val_main_v118, val_main_c_27, val_main_v117, val_main_v116,
    val_main_c_26]

end Cert.ReferenceIdeal.RefFold

end
-- ==== Proof.RefFoldStep7.lean ====
/-
  The reference's propagation step 7, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step7 (hp : U (Proc.devRef .tc main_v134) = val_main_v134 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep7 (F := Ideal)) U (Proc.devRef .tc main_v153) = val_main_v153 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v153, val_main_v152, val_main_v151, val_main_v150, val_main_cst_35, val_main_v149, val_main_v148,
    val_main_cst_34, val_main_v147, val_main_v146, val_main_v145, val_main_cst_33, val_main_v144, val_main_v143, val_main_v142,
    val_main_v141, val_main_v140, val_main_v139, val_main_v138, val_main_v137, val_main_c_32, val_main_v136, val_main_v135,
    val_main_c_31]

end Cert.ReferenceIdeal.RefFold

end
-- ==== Proof.RefFoldStep8.lean ====
/-
  The reference's propagation step 8, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step8 (hp : U (Proc.devRef .tc main_v153) = val_main_v153 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep8 (F := Ideal)) U (Proc.devRef .tc main_v172) = val_main_v172 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v172, val_main_v171, val_main_v170, val_main_v169, val_main_cst_40, val_main_v168, val_main_v167,
    val_main_cst_39, val_main_v166, val_main_v165, val_main_v164, val_main_cst_38, val_main_v163, val_main_v162, val_main_v161,
    val_main_v160, val_main_v159, val_main_v158, val_main_v157, val_main_v156, val_main_c_37, val_main_v155, val_main_v154,
    val_main_c_36]

end Cert.ReferenceIdeal.RefFold

end
-- ==== Proof.RefFoldStep9.lean ====
/-
  The reference's propagation step 9, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step9 (hp : U (Proc.devRef .tc main_v172) = val_main_v172 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep9 (F := Ideal)) U (Proc.devRef .tc main_v191) = val_main_v191 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v191, val_main_v190, val_main_v189, val_main_v188, val_main_cst_45, val_main_v187, val_main_v186,
    val_main_cst_44, val_main_v185, val_main_v184, val_main_v183, val_main_cst_43, val_main_v182, val_main_v181, val_main_v180,
    val_main_v179, val_main_v178, val_main_v177, val_main_v176, val_main_v175, val_main_c_42, val_main_v174, val_main_v173,
    val_main_c_41]

end Cert.ReferenceIdeal.RefFold

end
-- ==== Proof.RefFoldStep10.lean ====
/-
  The reference's propagation step 10, read off any buffer contents that hold the current scores' stage, the
  dense output's stage and the three edge arrays: after it the step's output buffer holds the next scores' stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

theorem fold_step10 (hp : U (Proc.devRef .tc main_v191) = val_main_v191 (F := Ideal) x0 x1 x2 x3 x4 x5 x6 x7 x8 x9)
    (h20 : U (Proc.devRef .tc main_v20) = val_main_v20 (F := Ideal) x0 x1 x2 x6 x7 x8 x9)
    (h3 : U (Proc.devRef .tc main_arg3) = x3) (h4 : U (Proc.devRef .tc main_arg4) = x4) (h5 : U (Proc.devRef .tc main_arg5) = x5) :
    after (opsStep10 (F := Ideal)) U (Proc.devRef .tc main_v210) = val_main_v210 (F := Ideal) x0 x1 x2 x3 x4 x5 x6 x7 x8 x9 := by
  -- the fold of the twenty-four operations, read at the step's output buffer: the operations composed, applied to
  -- what U holds at the three edge arrays, at the current scores' buffer and at the dense output's buffer
  after_results_simp
  -- those five buffers hold their stages
  rw [hp, h20, h3, h4, h5]
  -- the output's stage, opened one level per operation of the step (the current scores' stage and the dense
  -- output's stage stay closed), is the same composition
  simp only [val_main_v210, val_main_v209, val_main_v208, val_main_v207, val_main_cst_50, val_main_v206, val_main_v205,
    val_main_cst_49, val_main_v204, val_main_v203, val_main_v202, val_main_cst_48, val_main_v201, val_main_v200, val_main_v199,
    val_main_v198, val_main_v197, val_main_v196, val_main_v195, val_main_v194, val_main_c_47, val_main_v193, val_main_v192,
    val_main_c_46]

end Cert.ReferenceIdeal.RefFold

end
-- ==== Proof.RefFoldTail.lean ====
/-
  The reference's last stretch, the log-softmax's operations, read off any buffer contents that hold the tenth
  scores' stage: after it the result buffer holds the result's stage.
-/
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- A typed reference's two transports, to the buffer's own type and back, undo each other: both are the
    transport along one equation of types, in its two directions. -/
theorem ofBuf_toBuf_tail {sg : RefSig} {Val : EltTy → Type} {T : BufTy} (x : TRef sg T) (v : T.Contents Val) :
    x.ofBuf (x.toBuf v) = v := by
  obtain ⟨r, h, hd, hs⟩ := x
  subst h
  rfl

/-- At the result buffer, whose type IS the value's type, the transport to the buffer is the identity. -/
theorem toBuf_main_v211 (p1 p2 p3) (v : (⟨S100000x40, .f32⟩ : BufTy).Contents (Elt Ideal)) :
    (TRef.of (sig := sig) (T := ⟨S100000x40, .f32⟩) main_v211 p1 p2 p3).toBuf v = v := rfl

/-- At the tenth scores' buffer likewise, the transport from the buffer is the identity. -/
theorem ofBuf_main_v210 (p1 p2 p3) (v : (⟨S100000x40, .f32⟩ : BufTy).Contents (Elt Ideal)) :
    (TRef.of (sig := sig) (T := ⟨S100000x40, .f32⟩) main_v210 p1 p2 p3).ofBuf v = v := rfl

/-- The last stretch read at the result buffer. The result's stage, opened one level per operation of the
    stretch, is a function of the tenth scores' stage alone: name that stage p, so that the hypothesis says the
    tenth scores' buffer holds p, and the claim is about that buffer's contents themselves. The fold of the fifteen
    operations at the result buffer is each operation's function applied to the contents of the buffers it reads,
    down to the tenth scores' buffer; every operation of the inlined log-softmax carries transports between a
    buffer's type and its value's type: written and read back they cancel, and at the two ends (the scores read,
    the result written) they are identities. What is left is the opened stage, term for term. -/
theorem fold_tail (hp : U (Proc.devRef .tc main_v210) = val_main_v210 (F := Ideal) x0 x1 x2 x3 x4 x5 x6 x7 x8 x9) :
    after (opsTail (F := Ideal)) U (Proc.devRef .tc main_v211) = val_main_v211 (F := Ideal) x0 x1 x2 x3 x4 x5 x6 x7 x8 x9 := by
  simp only [val_main_v211, val_main_call1_v10, val_main_call1_v9, val_main_call1_v8, val_main_call1_v7, val_main_call1_cst_1,
    val_main_call1_v6, val_main_call1_v5, val_main_call1_v4, val_main_call1_v3, val_main_call1_v2, val_main_call1_v1,
    val_main_call1_cst_0, val_main_call1_v0, val_main_call1_cst]
  generalize val_main_v210 (F := Ideal) x0 x1 x2 x3 x4 x5 x6 x7 x8 x9 = p at hp ⊢
  subst hp
  after_results_simp
  repeat rw [ofBuf_toBuf_tail]
  rw [toBuf_main_v211, ofBuf_main_v210]

end Cert.ReferenceIdeal.RefFold

end
-- ==== Proof.RefFold.lean ====
/-
  The reference's whole operation list read as its stages: the list is its twelve stretches in order, the contents
  after a concatenation are the contents after its second part from the contents after its first, each stretch
  leaves the buffers it does not write, and each stretch's lemma reads its output buffer as the next stage.
-/
import proofs.«407666_j24318104830502_3_alg».proof.Proof.RefOpsSplit
import proofs.«407666_j24318104830502_3_alg».proof.Proof.RefFoldHead
import proofs.«407666_j24318104830502_3_alg».proof.Proof.RefFoldStep1
import proofs.«407666_j24318104830502_3_alg».proof.Proof.RefFoldStep2
import proofs.«407666_j24318104830502_3_alg».proof.Proof.RefFoldStep3
import proofs.«407666_j24318104830502_3_alg».proof.Proof.RefFoldStep4
import proofs.«407666_j24318104830502_3_alg».proof.Proof.RefFoldStep5
import proofs.«407666_j24318104830502_3_alg».proof.Proof.RefFoldStep6
import proofs.«407666_j24318104830502_3_alg».proof.Proof.RefFoldStep7
import proofs.«407666_j24318104830502_3_alg».proof.Proof.RefFoldStep8
import proofs.«407666_j24318104830502_3_alg».proof.Proof.RefFoldStep9
import proofs.«407666_j24318104830502_3_alg».proof.Proof.RefFoldStep10
import proofs.«407666_j24318104830502_3_alg».proof.Proof.RefFoldTail
import proofs.«407666_j24318104830502_3_alg».proof.Proof.RefRead
import proofs.«407666_j24318104830502_3_alg».proof.Proof.RefOps
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefFold

open Cert.ReferenceIdeal Cert.ReferenceIdeal.Gen Cert.ReferenceIdeal.ReadP Cert.ReferenceIdeal.RefOps

variable (U : Valuation τ sig (Elt Ideal))
  (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- What every propagation step reads besides the scores before it, and what none of them writes: the dense
    output's buffer holds the dense-output stage, and the three edge arrays' buffers hold the edge arguments. -/
def Kept (V : Valuation τ sig (Elt Ideal)) : Prop :=
  V (Proc.devRef .tc main_v20) = val_main_v20 (F := Ideal) x0 x1 x2 x6 x7 x8 x9
    ∧ V (Proc.devRef .tc main_arg3) = x3 ∧ V (Proc.devRef .tc main_arg4) = x4 ∧ V (Proc.devRef .tc main_arg5) = x5

/-- A list of operations none of which writes one of those four buffers leaves the four as it found them. -/
theorem kept_after (ops : List (HloOp τ sig (Elt Ideal))) (V : Valuation τ sig (Elt Ideal))
    (w20 : ∀ op ∈ ops, Proc.devRef .tc main_v20 ∉ op.writes) (w3 : ∀ op ∈ ops, Proc.devRef .tc main_arg3 ∉ op.writes)
    (w4 : ∀ op ∈ ops, Proc.devRef .tc main_arg4 ∉ op.writes) (w5 : ∀ op ∈ ops, Proc.devRef .tc main_arg5 ∉ op.writes)
    (K : Kept x0 x1 x2 x3 x4 x5 x6 x7 x8 x9 V) : Kept x0 x1 x2 x3 x4 x5 x6 x7 x8 x9 (after ops V) :=
  ⟨(after_of_forall_not_mem ops V w20).trans K.1, (after_of_forall_not_mem ops V w3).trans K.2.1,
    (after_of_forall_not_mem ops V w4).trans K.2.2.1, (after_of_forall_not_mem ops V w5).trans K.2.2.2⟩

/-- No operation of a literal stretch writes a given literal buffer: each operation writes its one result buffer,
    and that reference differs from the given one, which is decided reference by reference. -/
macro "stretch_misses" ops:ident : tactic =>
  `(tactic| exact List.forall_iff_forall_mem.mp (by
      simp only [$ops:ident, List.Forall, StableHlo.nullary_writes, StableHlo.unary_writes, StableHlo.binary_writes,
        StableHlo.ternary_writes, Finset.mem_singleton]
      repeat' apply And.intro
      all_goals exact StableHlo.devRef_ne_of_ne (by decide)))

/-- The head's stretch writes none of the three edge arrays. -/
theorem head_keeps (V : Valuation τ sig (Elt Ideal)) :
    after (opsHead (F := Ideal)) V (Proc.devRef .tc main_arg3) = V (Proc.devRef .tc main_arg3)
      ∧ after (opsHead (F := Ideal)) V (Proc.devRef .tc main_arg4) = V (Proc.devRef .tc main_arg4)
      ∧ after (opsHead (F := Ideal)) V (Proc.devRef .tc main_arg5) = V (Proc.devRef .tc main_arg5) :=
  ⟨after_of_forall_not_mem _ V (by stretch_misses opsHead), after_of_forall_not_mem _ V (by stretch_misses opsHead),
    after_of_forall_not_mem _ V (by stretch_misses opsHead)⟩

/-! Each propagation step's stretch writes its own twenty-four result buffers, so it writes none of the four. -/

theorem kept_step1 (V : Valuation τ sig (Elt Ideal)) (K : Kept x0 x1 x2 x3 x4 x5 x6 x7 x8 x9 V) :
    Kept x0 x1 x2 x3 x4 x5 x6 x7 x8 x9 (after (opsStep1 (F := Ideal)) V) :=
  kept_after x0 x1 x2 x3 x4 x5 x6 x7 x8 x9 _ V (by stretch_misses opsStep1) (by stretch_misses opsStep1)
    (by stretch_misses opsStep1) (by stretch_misses opsStep1) K
theorem kept_step2 (V : Valuation τ sig (Elt Ideal)) (K : Kept x0 x1 x2 x3 x4 x5 x6 x7 x8 x9 V) :
    Kept x0 x1 x2 x3 x4 x5 x6 x7 x8 x9 (after (opsStep2 (F := Ideal)) V) :=
  kept_after x0 x1 x2 x3 x4 x5 x6 x7 x8 x9 _ V (by stretch_misses opsStep2) (by stretch_misses opsStep2)
    (by stretch_misses opsStep2) (by stretch_misses opsStep2) K
theorem kept_step3 (V : Valuation τ sig (Elt Ideal)) (K : Kept x0 x1 x2 x3 x4 x5 x6 x7 x8 x9 V) :
    Kept x0 x1 x2 x3 x4 x5 x6 x7 x8 x9 (after (opsStep3 (F := Ideal)) V) :=
  kept_after x0 x1 x2 x3 x4 x5 x6 x7 x8 x9 _ V (by stretch_misses opsStep3) (by stretch_misses opsStep3)
    (by stretch_misses opsStep3) (by stretch_misses opsStep3) K
theorem kept_step4 (V : Valuation τ sig (Elt Ideal)) (K : Kept x0 x1 x2 x3 x4 x5 x6 x7 x8 x9 V) :
    Kept x0 x1 x2 x3 x4 x5 x6 x7 x8 x9 (after (opsStep4 (F := Ideal)) V) :=
  kept_after x0 x1 x2 x3 x4 x5 x6 x7 x8 x9 _ V (by stretch_misses opsStep4) (by stretch_misses opsStep4)
    (by stretch_misses opsStep4) (by stretch_misses opsStep4) K
theorem kept_step5 (V : Valuation τ sig (Elt Ideal)) (K : Kept x0 x1 x2 x3 x4 x5 x6 x7 x8 x9 V) :
    Kept x0 x1 x2 x3 x4 x5 x6 x7 x8 x9 (after (opsStep5 (F := Ideal)) V) :=
  kept_after x0 x1 x2 x3 x4 x5 x6 x7 x8 x9 _ V (by stretch_misses opsStep5) (by stretch_misses opsStep5)
    (by stretch_misses opsStep5) (by stretch_misses opsStep5) K
theorem kept_step6 (V : Valuation τ sig (Elt Ideal)) (K : Kept x0 x1 x2 x3 x4 x5 x6 x7 x8 x9 V) :
    Kept x0 x1 x2 x3 x4 x5 x6 x7 x8 x9 (after (opsStep6 (F := Ideal)) V) :=
  kept_after x0 x1 x2 x3 x4 x5 x6 x7 x8 x9 _ V (by stretch_misses opsStep6) (by stretch_misses opsStep6)
    (by stretch_misses opsStep6) (by stretch_misses opsStep6) K
theorem kept_step7 (V : Valuation τ sig (Elt Ideal)) (K : Kept x0 x1 x2 x3 x4 x5 x6 x7 x8 x9 V) :
    Kept x0 x1 x2 x3 x4 x5 x6 x7 x8 x9 (after (opsStep7 (F := Ideal)) V) :=
  kept_after x0 x1 x2 x3 x4 x5 x6 x7 x8 x9 _ V (by stretch_misses opsStep7) (by stretch_misses opsStep7)
    (by stretch_misses opsStep7) (by stretch_misses opsStep7) K
theorem kept_step8 (V : Valuation τ sig (Elt Ideal)) (K : Kept x0 x1 x2 x3 x4 x5 x6 x7 x8 x9 V) :
    Kept x0 x1 x2 x3 x4 x5 x6 x7 x8 x9 (after (opsStep8 (F := Ideal)) V) :=
  kept_after x0 x1 x2 x3 x4 x5 x6 x7 x8 x9 _ V (by stretch_misses opsStep8) (by stretch_misses opsStep8)
    (by stretch_misses opsStep8) (by stretch_misses opsStep8) K
theorem kept_step9 (V : Valuation τ sig (Elt Ideal)) (K : Kept x0 x1 x2 x3 x4 x5 x6 x7 x8 x9 V) :
    Kept x0 x1 x2 x3 x4 x5 x6 x7 x8 x9 (after (opsStep9 (F := Ideal)) V) :=
  kept_after x0 x1 x2 x3 x4 x5 x6 x7 x8 x9 _ V (by stretch_misses opsStep9) (by stretch_misses opsStep9)
    (by stretch_misses opsStep9) (by stretch_misses opsStep9) K
theorem kept_step10 (V : Valuation τ sig (Elt Ideal)) (K : Kept x0 x1 x2 x3 x4 x5 x6 x7 x8 x9 V) :
    Kept x0 x1 x2 x3 x4 x5 x6 x7 x8 x9 (after (opsStep10 (F := Ideal)) V) :=
  kept_after x0 x1 x2 x3 x4 x5 x6 x7 x8 x9 _ V (by stretch_misses opsStep10) (by stretch_misses opsStep10)
    (by stretch_misses opsStep10) (by stretch_misses opsStep10) K

/-- THE REFERENCE'S FOLD at the result buffer is the result's stage of the arguments. The list is its twelve
    stretches in order, so the contents after it are the contents after the log-softmax's stretch from the contents
    after the tenth step's from … from the contents after the head's. The head leaves the dense output's buffer at
    the dense-output stage and does not write the edge arrays; each step then finds the scores before it, the dense
    output and the edge arrays, leaves its own scores' buffer at the next stage, and writes none of those four
    buffers; the log-softmax's stretch reads the tenth scores. The contents between two stretches are named and
    forgotten: only what they hold at the five buffers is carried. -/
theorem ref_fold (h0 : U (Proc.devRef .tc main_arg0) = x0) (h1 : U (Proc.devRef .tc main_arg1) = x1) (h2 : U (Proc.devRef .tc main_arg2) = x2)
    (h3 : U (Proc.devRef .tc main_arg3) = x3) (h4 : U (Proc.devRef .tc main_arg4) = x4) (h5 : U (Proc.devRef .tc main_arg5) = x5)
    (h6 : U (Proc.devRef .tc main_arg6) = x6) (h7 : U (Proc.devRef .tc main_arg7) = x7) (h8 : U (Proc.devRef .tc main_arg8) = x8) (h9 : U (Proc.devRef .tc main_arg9) = x9) :
    after (Cert.ReferenceIdeal.ValueP.ops (F := Ideal)) U (Proc.devRef .tc main_v211) = val_main_v211 (F := Ideal) x0 x1 x2 x3 x4 x5 x6 x7 x8 x9 := by
  rw [ops_split]
  iterate 11 rw [StableHlo.after_append]
  -- the head: the dense output at its stage, the edge arrays unwritten
  have K : Kept x0 x1 x2 x3 x4 x5 x6 x7 x8 x9 (after (opsHead (F := Ideal)) U) :=
    ⟨fold_head U x0 x1 x2 x6 x7 x8 x9 h0 h1 h2 h6 h7 h8 h9, (head_keeps U).1.trans h3, (head_keeps U).2.1.trans h4,
      (head_keeps U).2.2.trans h5⟩
  generalize after (opsHead (F := Ideal)) U = U1 at K ⊢
  -- step 1: its scores from the dense output, the four buffers left as found
  have P := fold_step1 U1 x0 x1 x2 x3 x4 x5 x6 x7 x8 x9 K.1 K.2.1 K.2.2.1 K.2.2.2
  replace K := kept_step1 x0 x1 x2 x3 x4 x5 x6 x7 x8 x9 U1 K
  generalize after (opsStep1 (F := Ideal)) U1 = U2 at P K ⊢
  -- steps 2 to 10: each one's scores from the scores before it
  replace P := fold_step2 U2 x0 x1 x2 x3 x4 x5 x6 x7 x8 x9 P K.1 K.2.1 K.2.2.1 K.2.2.2
  replace K := kept_step2 x0 x1 x2 x3 x4 x5 x6 x7 x8 x9 U2 K
  generalize after (opsStep2 (F := Ideal)) U2 = U3 at P K ⊢
  replace P := fold_step3 U3 x0 x1 x2 x3 x4 x5 x6 x7 x8 x9 P K.1 K.2.1 K.2.2.1 K.2.2.2
  replace K := kept_step3 x0 x1 x2 x3 x4 x5 x6 x7 x8 x9 U3 K
  generalize after (opsStep3 (F := Ideal)) U3 = U4 at P K ⊢
  replace P := fold_step4 U4 x0 x1 x2 x3 x4 x5 x6 x7 x8 x9 P K.1 K.2.1 K.2.2.1 K.2.2.2
  replace K := kept_step4 x0 x1 x2 x3 x4 x5 x6 x7 x8 x9 U4 K
  generalize after (opsStep4 (F := Ideal)) U4 = U5 at P K ⊢
  replace P := fold_step5 U5 x0 x1 x2 x3 x4 x5 x6 x7 x8 x9 P K.1 K.2.1 K.2.2.1 K.2.2.2
  replace K := kept_step5 x0 x1 x2 x3 x4 x5 x6 x7 x8 x9 U5 K
  generalize after (opsStep5 (F := Ideal)) U5 = U6 at P K ⊢
  replace P := fold_step6 U6 x0 x1 x2 x3 x4 x5 x6 x7 x8 x9 P K.1 K.2.1 K.2.2.1 K.2.2.2
  replace K := kept_step6 x0 x1 x2 x3 x4 x5 x6 x7 x8 x9 U6 K
  generalize after (opsStep6 (F := Ideal)) U6 = U7 at P K ⊢
  replace P := fold_step7 U7 x0 x1 x2 x3 x4 x5 x6 x7 x8 x9 P K.1 K.2.1 K.2.2.1 K.2.2.2
  replace K := kept_step7 x0 x1 x2 x3 x4 x5 x6 x7 x8 x9 U7 K
  generalize after (opsStep7 (F := Ideal)) U7 = U8 at P K ⊢
  replace P := fold_step8 U8 x0 x1 x2 x3 x4 x5 x6 x7 x8 x9 P K.1 K.2.1 K.2.2.1 K.2.2.2
  replace K := kept_step8 x0 x1 x2 x3 x4 x5 x6 x7 x8 x9 U8 K
  generalize after (opsStep8 (F := Ideal)) U8 = U9 at P K ⊢
  replace P := fold_step9 U9 x0 x1 x2 x3 x4 x5 x6 x7 x8 x9 P K.1 K.2.1 K.2.2.1 K.2.2.2
  replace K := kept_step9 x0 x1 x2 x3 x4 x5 x6 x7 x8 x9 U9 K
  generalize after (opsStep9 (F := Ideal)) U9 = U10 at P K ⊢
  replace P := fold_step10 U10 x0 x1 x2 x3 x4 x5 x6 x7 x8 x9 P K.1 K.2.1 K.2.2.1 K.2.2.2
  generalize after (opsStep10 (F := Ideal)) U10 = U11 at P ⊢
  -- the log-softmax's stretch reads the tenth scores
  exact fold_tail U11 x0 x1 x2 x3 x4 x5 x6 x7 x8 x9 P

end Cert.ReferenceIdeal.RefFold

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.RDefs.lean ====
/-
  The two sparse operations of the network as this program prints them, each as ONE function that is never opened:
  the segment sum of the per-entry contributions into node rows (a scatter-add into zeros at the entries' row
  numbers), and one propagation step's neighbour sum (negative column numbers counted from the end, a row gather
  of the current scores, each row times its edge's weight, a scatter-add into zeros at the edges' row numbers).
-/
import proofs.«407666_j24318104830502_3_alg».proof.ReferenceIdeal
import proofs.«407666_j24318104830502_3_alg».proof.Proof.Gen.ReferenceIdeal
import proofs.«407666_j24318104830502_3_alg».proof.Proof.Spec

noncomputable section

open Idealize.ShloMosaic

namespace Cert.ReferenceIdeal.Sparse

open Cert.ReferenceIdeal Cert.ReferenceIdeal.Facts₀ Cert.ReferenceIdeal.Facts

/-- The segment sum of the entries' contributions: zeros, plus contribution e added into the row numbered `rows e`. -/
def seg (rows : IVec S2000000 32) (u : FVec Ideal S2000000x64 .f32) : FVec Ideal S100000x64 .f32 :=
  Host.scatterAdd scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 rows) u

/-- One propagation step's neighbour sum of the scores `p`. -/
def edge (rows cols : IVec S1600000 32) (w : FVec Ideal S1600000 .f32) (p : FVec Ideal S100000x40 .f32) :
    FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 rows)
    (mulf
      (Host.gather gather_S100000x40_S1600000x1_S1600000x40_1_0_n_n_0_1_140 p
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x40 ![0, 1] bcast_S1600000x1_S1600000x40_0_1
        (broadcastInDim S1600000x1 ![0] bcast_S1600000_S1600000x1_0 w)))

end Cert.ReferenceIdeal.Sparse

end
-- ==== Proof.RefHead.lean ====
/-
  The reference's dense output as the dense head of the segment sum of the entries' contributions. A column word
  whose unsigned value is below 2048 is not negative as a signed integer, so it is not wrapped from the end, and
  the gather's clamp into [0, 2047] leaves it: the gathered row is the table's row at the column. The rectifier
  is an outlined maximum with a broadcast zero; the dense layer's product is a sum over the 64 hidden units.

  The road. Three facts about one word below 2048 (signed reading, no wrap, no clamp). Then the stages are read at
  explicit coordinates: the wrapped column laid out as a column gives back the column word; the row gather at (e, k)
  is the table at (row of entry e's column, k); the values broadcast along the places give entry e's value; so the
  product stage is, entry by entry and place by place, the specification's array of contributions. The scatter-add
  stage is the segment sum applied to that product stage: the same zeros and the same column of row numbers, and
  the segment sum itself is never opened, only its argument is rewritten. After it everything is pointwise except
  the dense product, which at (r, c) is the sum over k of the hidden unit (r, k) times the weight (k, c); the two
  biases are row broadcasts read at place k and place c, and the zero of the rectifier stays the zero word's value.
-/
import proofs.«407666_j24318104830502_3_alg».proof.Proof.LibGatherScatter
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

/-! ## A column word whose unsigned value is below 2048 -/

/-- Below 2048 the top bit is clear, so the word read as a signed integer is the same number. -/
theorem toInt_of_lt_2048 (w : BitVec 32) (h : w.toNat < 2048) : w.toInt = (w.toNat : Int) := by
  rw [BitVec.toInt_eq_toNat_cond, if_pos (by omega)]

/-- It is not below zero as a signed integer, so counting a negative column from the end keeps it, whatever the
    length n that would have been added. -/
theorem wrap_of_lt_2048 (n w : BitVec 32) (h : w.toNat < 2048) :
    Scalar.select (IntOp.cmpi .slt w 0#32) (IntOp.addi w n) w = w := by
  have hc : IntOp.cmpi .slt w 0#32 = 0#1 := by
    refine eq_zero_of_ne_one fun h1 => ?_
    have hlt := IntOp.cmpi_slt.mp h1
    have h0 : (0#32 : BitVec 32).toInt = 0 := by decide
    rw [toInt_of_lt_2048 w h, h0] at hlt
    omega
  rw [hc, select_zero]

/-- The gather's clamp into [0, 2047] leaves it as well: the clamped row is the row the specification names. -/
theorem clampRow_of_lt_2048 (w : BitVec 32) (h : w.toNat < 2048) :
    Cert.Lib.clampRow 2048 (by norm_num) w = Cert.Spec.rowOfWord w := by
  refine Fin.ext ?_
  show min w.toInt.toNat (2048 - 1) = w.toNat % 2048
  rw [toInt_of_lt_2048 w h]
  omega

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-! ## The entries' contributions -/

/-- The wrapped column words laid out as a column: at entry e, the column word itself. -/
theorem wrapped_col_at (hcols : ∀ e : Fin 2000000, (x1 (ix1 e)).toNat < 2048) (e : Fin 2000000) (z : Fin 1) :
    val_main_v5 (F := Ideal) x1 (ix2 e z) = x1 (ix1 e) := by
  have e5 : idx_main_v5 (ix2 e z) = ix1 e := funext fun a => Fin.ext (by match a with | ⟨0, _⟩ => rfl)
  rw [val_main_v5_apply, e5, val_main_v4_apply, val_main_v1_apply, val_main_v3_apply, val_main_v0_apply,
    val_main_v2_apply, val_main_c_apply, val_main_c_0_apply]
  exact wrap_of_lt_2048 _ _ (hcols e)

/-- The row gather at (e, k): the table's row at entry e's column, place k. -/
theorem gathered_row_at (hcols : ∀ e : Fin 2000000, (x1 (ix1 e)).toNat < 2048) (e : Fin 2000000) (k : Fin 64) :
    val_main_v6 (F := Ideal) x1 x6 (ix2 e k) = x6 (ix2 (Cert.Spec.rowOfWord (x1 (ix1 e))) k) := by
  unfold val_main_v6
  show Host.gather (Cert.Lib.rowGatherDims 2048 64 2000000
      Cert.ReferenceIdeal.Gen.gather_S2048x64_S2000000x1_S2000000x64_1_0_n_n_0_1_164_wf) x6
      (val_main_v5 (F := Ideal) x1) (ix2 e k) = _
  rw [Cert.Lib.gather_rows_apply (by norm_num), wrapped_col_at x1 hcols, clampRow_of_lt_2048 _ (hcols e)]

/-- The entries' values broadcast along the 64 places: at (e, k), entry e's value. -/
theorem value_bcast_at (e : Fin 2000000) (k : Fin 64) : val_main_v8 (F := Ideal) x2 (ix2 e k) = x2 (ix1 e) := by
  have e8 : idx_main_v8 (ix2 e k) = ix2 e (0 : Fin 1) :=
    funext fun a => Fin.ext (by match a with | ⟨0, _⟩ => rfl | ⟨1, _⟩ => rfl)
  have e7 : idx_main_v7 (ix2 e (0 : Fin 1)) = ix1 e := funext fun a => Fin.ext (by match a with | ⟨0, _⟩ => rfl)
  rw [val_main_v8_apply, e8, val_main_v7_apply, e7]

/-- The product of the two is the specification's array of contributions. -/
theorem contributions_eq (hcols : ∀ e : Fin 2000000, (x1 (ix1 e)).toNat < 2048) :
    val_main_v9 (F := Ideal) x1 x2 x6 = Cert.Spec.gathered x1 x2 x6 := by
  funext j
  obtain ⟨e, k, rfl⟩ : ∃ (e : Fin 2000000) (k : Fin 64), j = ix2 e k := ⟨j 0, j 1, eq_ix2 j⟩
  rw [val_main_v9_apply, Ideal.mulf_def, gathered_row_at x1 x6 hcols, value_bcast_at x2]
  rfl

/-! ## The segment sum, unopened -/

/-- The scatter-add stage is the segment sum of the product stage, with the same zeros and the same row column. -/
theorem segsum_stage : val_main_v12 (F := Ideal) x0 x1 x2 x6 = Sparse.seg x0 (val_main_v9 (F := Ideal) x1 x2 x6) := by
  unfold val_main_v12 val_main_v10 val_main_v11 val_main_cst Sparse.seg
  rfl

/-! ## The dense head at an index -/

/-- First bias and rectifier at (r, k): the maximum of the segment sum plus the bias with the zero word's value. -/
theorem hidden_at (r : Fin 100000) (k : Fin 64) :
    val_main_v16 (F := Ideal) x0 x1 x2 x6 x7 (ix2 r k)
      = max (val_main_v12 (F := Ideal) x0 x1 x2 x6 (ix2 r k) + x7 (ix1 k)) (Ideal.ofBits .f32 0x00000000#32) := by
  have e14 : idx_main_v14 (ix2 r k) = ix2 (0 : Fin 1) k :=
    funext fun a => Fin.ext (by match a with | ⟨0, _⟩ => rfl | ⟨1, _⟩ => rfl)
  have e13 : idx_main_v13 (ix2 (0 : Fin 1) k) = ix1 k := funext fun a => Fin.ext (by match a with | ⟨0, _⟩ => rfl)
  rw [val_main_v16_apply, val_main_v15_apply, val_main_v14_apply, e14, val_main_v13_apply, e13, val_main_call0_v0_apply,
    val_main_call0_cst_apply, Ideal.maximumf_def, Ideal.addf_def, Ideal.ofBits_def]

/-- The second bias broadcast along the rows: at (r, c), place c of the bias. -/
theorem bias2_at (r : Fin 100000) (c : Fin 40) : val_main_v19 (F := Ideal) x9 (ix2 r c) = x9 (ix1 c) := by
  have e19 : idx_main_v19 (ix2 r c) = ix2 (0 : Fin 1) c :=
    funext fun a => Fin.ext (by match a with | ⟨0, _⟩ => rfl | ⟨1, _⟩ => rfl)
  have e18 : idx_main_v18 (ix2 (0 : Fin 1) c) = ix1 c := funext fun a => Fin.ext (by match a with | ⟨0, _⟩ => rfl)
  rw [val_main_v19_apply, e19, val_main_v18_apply, e18]

/-- The dense output at (r, c): the sum over the 64 hidden units of the rectified unit times the weight, plus the bias. -/
theorem dense_at (r : Fin 100000) (c : Fin 40) :
    val_main_v20 (F := Ideal) x0 x1 x2 x6 x7 x8 x9 (ix2 r c)
      = (∑ k : Fin 64, max (val_main_v12 (F := Ideal) x0 x1 x2 x6 (ix2 r k) + x7 (ix1 k)) (Ideal.ofBits .f32 0x00000000#32)
          * x8 (ix2 k c)) + x9 (ix1 c) := by
  rw [val_main_v20_apply, val_main_v17_apply, bias2_at x9, Ideal.addf_def]
  refine congrArg (· + x9 (ix1 c)) (Finset.sum_congr rfl fun k _ => ?_)
  have el : lidx_main_v17 (ix2 r c) k = ix2 r k :=
    funext fun a => Fin.ext (by match a with | ⟨0, _⟩ => rfl | ⟨1, _⟩ => rfl)
  have er : ridx_main_v17 (ix2 r c) k = ix2 k c :=
    funext fun a => Fin.ext (by match a with | ⟨0, _⟩ => rfl | ⟨1, _⟩ => rfl)
  rw [el, er, hidden_at x0 x1 x2 x6 x7]

/-! ## The reference's dense output -/

theorem ref_head (hcols : ∀ e : Fin 2000000, (x1 (ix1 e)).toNat < 2048) :
    val_main_v20 (F := Ideal) x0 x1 x2 x6 x7 x8 x9 = (Cert.Spec.mlp (Sparse.seg x0 (Cert.Spec.gathered x1 x2 x6)) x7 x8 x9) := by
  have hseg : val_main_v12 (F := Ideal) x0 x1 x2 x6 = Sparse.seg x0 (Cert.Spec.gathered x1 x2 x6) :=
    (segsum_stage x0 x1 x2 x6).trans (congrArg (Sparse.seg x0) (contributions_eq x1 x2 x6 hcols))
  funext j
  obtain ⟨r, c, rfl⟩ : ∃ (r : Fin 100000) (c : Fin 40), j = ix2 r c := ⟨j 0, j 1, eq_ix2 j⟩
  rw [dense_at x0 x1 x2 x6 x7 x8 x9, hseg]
  rfl

end Cert.ReferenceIdeal.RefValue

end
-- ==== Proof.RefStep1.lean ====
/-
  The first propagation step of the reference. Its scores are the dense output itself, which does not depend on
  the edge list; the neighbour sum is the unopened edge operation applied to the dense output (stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the dense output. -/
theorem edge_step1 :
    val_main_v33 (F := Ideal) x0 x1 x2 x3 x4 x5 x6 x7 x8 x9
      = Sparse.edge x3 x4 x5 (val_main_v20 (F := Ideal) x0 x1 x2 x6 x7 x8 x9) := by
  unfold Sparse.edge val_main_v33 val_main_v31 val_main_cst_3 val_main_v32 val_main_v30 val_main_v27 val_main_v26
    val_main_v25 val_main_v22 val_main_v21 val_main_c_1 val_main_v24 val_main_v23 val_main_c_2 val_main_v29 val_main_v28
  rfl

/-- The step's last stage mixes the neighbour sum with the dense output, place by place. -/
theorem mix_step1 :
    val_main_v39 (F := Ideal) x0 x1 x2 x3 x4 x5 x6 x7 x8 x9
      = Cert.Spec.combine (val_main_v33 (F := Ideal) x0 x1 x2 x3 x4 x5 x6 x7 x8 x9)
          (val_main_v20 (F := Ideal) x0 x1 x2 x6 x7 x8 x9) := by
  funext j
  rw [val_main_v39_apply, val_main_v38_apply, val_main_v35_apply, val_main_v34_apply, val_main_cst_4_apply,
    val_main_v37_apply, val_main_v36_apply, val_main_cst_5_apply]
  simp only [Ideal.hostUnary_tanh_def, Ideal.addf_def, Ideal.mulf_def, Ideal.ofBits_def]
  rfl

/-- The first step: the scores after it are the mixing of the edge operation of the dense output with the dense output. -/
theorem step1 :
    val_main_v39 (F := Ideal) x0 x1 x2 x3 x4 x5 x6 x7 x8 x9
      = Cert.Spec.combine (Sparse.edge x3 x4 x5 (val_main_v20 (F := Ideal) x0 x1 x2 x6 x7 x8 x9))
          (val_main_v20 (F := Ideal) x0 x1 x2 x6 x7 x8 x9) := by
  rw [mix_step1, edge_step1]

end Cert.ReferenceIdeal.RefValue

end
-- ==== Proof.RefStep2.lean ====
/-
  One propagation step of the reference, the second: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step2 :
    val_main_v52 (F := Ideal) x0 x1 x2 x3 x4 x5 x6 x7 x8 x9
      = Sparse.edge x3 x4 x5 (val_main_v39 (F := Ideal) x0 x1 x2 x3 x4 x5 x6 x7 x8 x9) := by
  unfold Sparse.edge val_main_v52 val_main_v50 val_main_cst_8 val_main_v51 val_main_v49 val_main_v46 val_main_v45
    val_main_v44 val_main_v41 val_main_v40 val_main_c_6 val_main_v43 val_main_v42 val_main_c_7 val_main_v48 val_main_v47
  rfl

/-- The step's last stage mixes the neighbour sum with the dense output, place by place. -/
theorem mix_step2 :
    val_main_v58 (F := Ideal) x0 x1 x2 x3 x4 x5 x6 x7 x8 x9
      = Cert.Spec.combine (val_main_v52 (F := Ideal) x0 x1 x2 x3 x4 x5 x6 x7 x8 x9)
          (val_main_v20 (F := Ideal) x0 x1 x2 x6 x7 x8 x9) := by
  funext j
  rw [val_main_v58_apply, val_main_v57_apply, val_main_v54_apply, val_main_v53_apply, val_main_cst_9_apply,
    val_main_v56_apply, val_main_v55_apply, val_main_cst_10_apply]
  simp only [Ideal.hostUnary_tanh_def, Ideal.addf_def, Ideal.mulf_def, Ideal.ofBits_def]
  rfl

/-- The second step: the scores after it are the mixing of the edge operation of the scores before it. -/
theorem step2 :
    val_main_v58 (F := Ideal) x0 x1 x2 x3 x4 x5 x6 x7 x8 x9
      = Cert.Spec.combine (Sparse.edge x3 x4 x5 (val_main_v39 (F := Ideal) x0 x1 x2 x3 x4 x5 x6 x7 x8 x9))
          (val_main_v20 (F := Ideal) x0 x1 x2 x6 x7 x8 x9) := by
  rw [mix_step2, edge_step2]

end Cert.ReferenceIdeal.RefValue

end
-- ==== Proof.RefStep3.lean ====
/-
  One propagation step of the reference, the third: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step3 :
    val_main_v71 (F := Ideal) x0 x1 x2 x3 x4 x5 x6 x7 x8 x9
      = Sparse.edge x3 x4 x5 (val_main_v58 (F := Ideal) x0 x1 x2 x3 x4 x5 x6 x7 x8 x9) := by
  unfold Sparse.edge val_main_v71 val_main_v69 val_main_cst_13 val_main_v70 val_main_v68 val_main_v65 val_main_v64
    val_main_v63 val_main_v60 val_main_v59 val_main_c_11 val_main_v62 val_main_v61 val_main_c_12 val_main_v67 val_main_v66
  rfl

/-- The step's last stage mixes the neighbour sum with the dense output, place by place. -/
theorem mix_step3 :
    val_main_v77 (F := Ideal) x0 x1 x2 x3 x4 x5 x6 x7 x8 x9
      = Cert.Spec.combine (val_main_v71 (F := Ideal) x0 x1 x2 x3 x4 x5 x6 x7 x8 x9)
          (val_main_v20 (F := Ideal) x0 x1 x2 x6 x7 x8 x9) := by
  funext j
  rw [val_main_v77_apply, val_main_v76_apply, val_main_v73_apply, val_main_v72_apply, val_main_cst_14_apply,
    val_main_v75_apply, val_main_v74_apply, val_main_cst_15_apply]
  simp only [Ideal.hostUnary_tanh_def, Ideal.addf_def, Ideal.mulf_def, Ideal.ofBits_def]
  rfl

/-- The third step: the scores after it are the mixing of the edge operation of the scores before it. -/
theorem step3 :
    val_main_v77 (F := Ideal) x0 x1 x2 x3 x4 x5 x6 x7 x8 x9
      = Cert.Spec.combine (Sparse.edge x3 x4 x5 (val_main_v58 (F := Ideal) x0 x1 x2 x3 x4 x5 x6 x7 x8 x9))
          (val_main_v20 (F := Ideal) x0 x1 x2 x6 x7 x8 x9) := by
  rw [mix_step3, edge_step3]

end Cert.ReferenceIdeal.RefValue

end
-- ==== Proof.RefStep4.lean ====
/-
  One propagation step of the reference, the fourth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step4 :
    val_main_v90 (F := Ideal) x0 x1 x2 x3 x4 x5 x6 x7 x8 x9
      = Sparse.edge x3 x4 x5 (val_main_v77 (F := Ideal) x0 x1 x2 x3 x4 x5 x6 x7 x8 x9) := by
  unfold Sparse.edge val_main_v90 val_main_v88 val_main_cst_18 val_main_v89 val_main_v87 val_main_v84 val_main_v83
    val_main_v82 val_main_v79 val_main_v78 val_main_c_16 val_main_v81 val_main_v80 val_main_c_17 val_main_v86 val_main_v85
  rfl

/-- The step's last stage mixes the neighbour sum with the dense output, place by place. -/
theorem mix_step4 :
    val_main_v96 (F := Ideal) x0 x1 x2 x3 x4 x5 x6 x7 x8 x9
      = Cert.Spec.combine (val_main_v90 (F := Ideal) x0 x1 x2 x3 x4 x5 x6 x7 x8 x9)
          (val_main_v20 (F := Ideal) x0 x1 x2 x6 x7 x8 x9) := by
  funext j
  rw [val_main_v96_apply, val_main_v95_apply, val_main_v92_apply, val_main_v91_apply, val_main_cst_19_apply,
    val_main_v94_apply, val_main_v93_apply, val_main_cst_20_apply]
  simp only [Ideal.hostUnary_tanh_def, Ideal.addf_def, Ideal.mulf_def, Ideal.ofBits_def]
  rfl

/-- The fourth step: the scores after it are the mixing of the edge operation of the scores before it. -/
theorem step4 :
    val_main_v96 (F := Ideal) x0 x1 x2 x3 x4 x5 x6 x7 x8 x9
      = Cert.Spec.combine (Sparse.edge x3 x4 x5 (val_main_v77 (F := Ideal) x0 x1 x2 x3 x4 x5 x6 x7 x8 x9))
          (val_main_v20 (F := Ideal) x0 x1 x2 x6 x7 x8 x9) := by
  rw [mix_step4, edge_step4]

end Cert.ReferenceIdeal.RefValue

end
-- ==== Proof.RefStep5.lean ====
/-
  One propagation step of the reference, the fifth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step5 :
    val_main_v109 (F := Ideal) x0 x1 x2 x3 x4 x5 x6 x7 x8 x9
      = Sparse.edge x3 x4 x5 (val_main_v96 (F := Ideal) x0 x1 x2 x3 x4 x5 x6 x7 x8 x9) := by
  unfold Sparse.edge val_main_v109 val_main_v107 val_main_cst_23 val_main_v108 val_main_v106 val_main_v103 val_main_v102
    val_main_v101 val_main_v98 val_main_v97 val_main_c_21 val_main_v100 val_main_v99 val_main_c_22 val_main_v105 val_main_v104
  rfl

/-- The step's last stage mixes the neighbour sum with the dense output, place by place. -/
theorem mix_step5 :
    val_main_v115 (F := Ideal) x0 x1 x2 x3 x4 x5 x6 x7 x8 x9
      = Cert.Spec.combine (val_main_v109 (F := Ideal) x0 x1 x2 x3 x4 x5 x6 x7 x8 x9)
          (val_main_v20 (F := Ideal) x0 x1 x2 x6 x7 x8 x9) := by
  funext j
  rw [val_main_v115_apply, val_main_v114_apply, val_main_v111_apply, val_main_v110_apply, val_main_cst_24_apply,
    val_main_v113_apply, val_main_v112_apply, val_main_cst_25_apply]
  simp only [Ideal.hostUnary_tanh_def, Ideal.addf_def, Ideal.mulf_def, Ideal.ofBits_def]
  rfl

/-- The fifth step: the scores after it are the mixing of the edge operation of the scores before it. -/
theorem step5 :
    val_main_v115 (F := Ideal) x0 x1 x2 x3 x4 x5 x6 x7 x8 x9
      = Cert.Spec.combine (Sparse.edge x3 x4 x5 (val_main_v96 (F := Ideal) x0 x1 x2 x3 x4 x5 x6 x7 x8 x9))
          (val_main_v20 (F := Ideal) x0 x1 x2 x6 x7 x8 x9) := by
  rw [mix_step5, edge_step5]

end Cert.ReferenceIdeal.RefValue

end
-- ==== Proof.RefStep6.lean ====
/-
  One propagation step of the reference, the sixth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step6 :
    val_main_v128 (F := Ideal) x0 x1 x2 x3 x4 x5 x6 x7 x8 x9
      = Sparse.edge x3 x4 x5 (val_main_v115 (F := Ideal) x0 x1 x2 x3 x4 x5 x6 x7 x8 x9) := by
  unfold Sparse.edge val_main_v128 val_main_v126 val_main_cst_28 val_main_v127 val_main_v125 val_main_v122 val_main_v121
    val_main_v120 val_main_v117 val_main_v116 val_main_c_26 val_main_v119 val_main_v118 val_main_c_27 val_main_v124 val_main_v123
  rfl

/-- The step's last stage mixes the neighbour sum with the dense output, place by place. -/
theorem mix_step6 :
    val_main_v134 (F := Ideal) x0 x1 x2 x3 x4 x5 x6 x7 x8 x9
      = Cert.Spec.combine (val_main_v128 (F := Ideal) x0 x1 x2 x3 x4 x5 x6 x7 x8 x9)
          (val_main_v20 (F := Ideal) x0 x1 x2 x6 x7 x8 x9) := by
  funext j
  rw [val_main_v134_apply, val_main_v133_apply, val_main_v130_apply, val_main_v129_apply, val_main_cst_29_apply,
    val_main_v132_apply, val_main_v131_apply, val_main_cst_30_apply]
  simp only [Ideal.hostUnary_tanh_def, Ideal.addf_def, Ideal.mulf_def, Ideal.ofBits_def]
  rfl

/-- The sixth step: the scores after it are the mixing of the edge operation of the scores before it. -/
theorem step6 :
    val_main_v134 (F := Ideal) x0 x1 x2 x3 x4 x5 x6 x7 x8 x9
      = Cert.Spec.combine (Sparse.edge x3 x4 x5 (val_main_v115 (F := Ideal) x0 x1 x2 x3 x4 x5 x6 x7 x8 x9))
          (val_main_v20 (F := Ideal) x0 x1 x2 x6 x7 x8 x9) := by
  rw [mix_step6, edge_step6]

end Cert.ReferenceIdeal.RefValue

end
-- ==== Proof.RefStep7.lean ====
/-
  One propagation step of the reference, the seventh: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step7 :
    val_main_v147 (F := Ideal) x0 x1 x2 x3 x4 x5 x6 x7 x8 x9
      = Sparse.edge x3 x4 x5 (val_main_v134 (F := Ideal) x0 x1 x2 x3 x4 x5 x6 x7 x8 x9) := by
  unfold Sparse.edge val_main_v147 val_main_v145 val_main_cst_33 val_main_v146 val_main_v144 val_main_v141 val_main_v140
    val_main_v139 val_main_v136 val_main_v135 val_main_c_31 val_main_v138 val_main_v137 val_main_c_32 val_main_v143 val_main_v142
  rfl

/-- The step's last stage mixes the neighbour sum with the dense output, place by place. -/
theorem mix_step7 :
    val_main_v153 (F := Ideal) x0 x1 x2 x3 x4 x5 x6 x7 x8 x9
      = Cert.Spec.combine (val_main_v147 (F := Ideal) x0 x1 x2 x3 x4 x5 x6 x7 x8 x9)
          (val_main_v20 (F := Ideal) x0 x1 x2 x6 x7 x8 x9) := by
  funext j
  rw [val_main_v153_apply, val_main_v152_apply, val_main_v149_apply, val_main_v148_apply, val_main_cst_34_apply,
    val_main_v151_apply, val_main_v150_apply, val_main_cst_35_apply]
  simp only [Ideal.hostUnary_tanh_def, Ideal.addf_def, Ideal.mulf_def, Ideal.ofBits_def]
  rfl

/-- The seventh step: the scores after it are the mixing of the edge operation of the scores before it. -/
theorem step7 :
    val_main_v153 (F := Ideal) x0 x1 x2 x3 x4 x5 x6 x7 x8 x9
      = Cert.Spec.combine (Sparse.edge x3 x4 x5 (val_main_v134 (F := Ideal) x0 x1 x2 x3 x4 x5 x6 x7 x8 x9))
          (val_main_v20 (F := Ideal) x0 x1 x2 x6 x7 x8 x9) := by
  rw [mix_step7, edge_step7]

end Cert.ReferenceIdeal.RefValue

end
-- ==== Proof.RefStep8.lean ====
/-
  One propagation step of the reference, the eighth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step8 :
    val_main_v166 (F := Ideal) x0 x1 x2 x3 x4 x5 x6 x7 x8 x9
      = Sparse.edge x3 x4 x5 (val_main_v153 (F := Ideal) x0 x1 x2 x3 x4 x5 x6 x7 x8 x9) := by
  unfold Sparse.edge val_main_v166 val_main_v164 val_main_cst_38 val_main_v165 val_main_v163 val_main_v160 val_main_v159
    val_main_v158 val_main_v155 val_main_v154 val_main_c_36 val_main_v157 val_main_v156 val_main_c_37 val_main_v162 val_main_v161
  rfl

/-- The step's last stage mixes the neighbour sum with the dense output, place by place. -/
theorem mix_step8 :
    val_main_v172 (F := Ideal) x0 x1 x2 x3 x4 x5 x6 x7 x8 x9
      = Cert.Spec.combine (val_main_v166 (F := Ideal) x0 x1 x2 x3 x4 x5 x6 x7 x8 x9)
          (val_main_v20 (F := Ideal) x0 x1 x2 x6 x7 x8 x9) := by
  funext j
  rw [val_main_v172_apply, val_main_v171_apply, val_main_v168_apply, val_main_v167_apply, val_main_cst_39_apply,
    val_main_v170_apply, val_main_v169_apply, val_main_cst_40_apply]
  simp only [Ideal.hostUnary_tanh_def, Ideal.addf_def, Ideal.mulf_def, Ideal.ofBits_def]
  rfl

/-- The eighth step: the scores after it are the mixing of the edge operation of the scores before it. -/
theorem step8 :
    val_main_v172 (F := Ideal) x0 x1 x2 x3 x4 x5 x6 x7 x8 x9
      = Cert.Spec.combine (Sparse.edge x3 x4 x5 (val_main_v153 (F := Ideal) x0 x1 x2 x3 x4 x5 x6 x7 x8 x9))
          (val_main_v20 (F := Ideal) x0 x1 x2 x6 x7 x8 x9) := by
  rw [mix_step8, edge_step8]

end Cert.ReferenceIdeal.RefValue

end
-- ==== Proof.RefStep9.lean ====
/-
  One propagation step of the reference, the ninth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step9 :
    val_main_v185 (F := Ideal) x0 x1 x2 x3 x4 x5 x6 x7 x8 x9
      = Sparse.edge x3 x4 x5 (val_main_v172 (F := Ideal) x0 x1 x2 x3 x4 x5 x6 x7 x8 x9) := by
  unfold Sparse.edge val_main_v185 val_main_v183 val_main_cst_43 val_main_v184 val_main_v182 val_main_v179 val_main_v178
    val_main_v177 val_main_v174 val_main_v173 val_main_c_41 val_main_v176 val_main_v175 val_main_c_42 val_main_v181 val_main_v180
  rfl

/-- The step's last stage mixes the neighbour sum with the dense output, place by place. -/
theorem mix_step9 :
    val_main_v191 (F := Ideal) x0 x1 x2 x3 x4 x5 x6 x7 x8 x9
      = Cert.Spec.combine (val_main_v185 (F := Ideal) x0 x1 x2 x3 x4 x5 x6 x7 x8 x9)
          (val_main_v20 (F := Ideal) x0 x1 x2 x6 x7 x8 x9) := by
  funext j
  rw [val_main_v191_apply, val_main_v190_apply, val_main_v187_apply, val_main_v186_apply, val_main_cst_44_apply,
    val_main_v189_apply, val_main_v188_apply, val_main_cst_45_apply]
  simp only [Ideal.hostUnary_tanh_def, Ideal.addf_def, Ideal.mulf_def, Ideal.ofBits_def]
  rfl

/-- The ninth step: the scores after it are the mixing of the edge operation of the scores before it. -/
theorem step9 :
    val_main_v191 (F := Ideal) x0 x1 x2 x3 x4 x5 x6 x7 x8 x9
      = Cert.Spec.combine (Sparse.edge x3 x4 x5 (val_main_v172 (F := Ideal) x0 x1 x2 x3 x4 x5 x6 x7 x8 x9))
          (val_main_v20 (F := Ideal) x0 x1 x2 x6 x7 x8 x9) := by
  rw [mix_step9, edge_step9]

end Cert.ReferenceIdeal.RefValue

end
-- ==== Proof.RefStep10.lean ====
/-
  One propagation step of the reference, the tenth: from the scores the step before it left, the neighbour sum is the
  unopened edge operation applied to them (the column numbers wrapped from the end where negative, the rows of the
  scores gathered, each times its edge's weight, added into zeros at the edges' row numbers: stage by stage the
  very term that names the operation), and the new scores are, at every place, tanh of the 9/10 word's value times
  the neighbour sum plus the 1/10 word's value times the dense output. The two words are carried, not evaluated.
-/
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.PureOps.Ideal

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The step's scatter-add stage is the edge operation of the scores before the step. -/
theorem edge_step10 :
    val_main_v204 (F := Ideal) x0 x1 x2 x3 x4 x5 x6 x7 x8 x9
      = Sparse.edge x3 x4 x5 (val_main_v191 (F := Ideal) x0 x1 x2 x3 x4 x5 x6 x7 x8 x9) := by
  unfold Sparse.edge val_main_v204 val_main_v202 val_main_cst_48 val_main_v203 val_main_v201 val_main_v198 val_main_v197
    val_main_v196 val_main_v193 val_main_v192 val_main_c_46 val_main_v195 val_main_v194 val_main_c_47 val_main_v200 val_main_v199
  rfl

/-- The step's last stage mixes the neighbour sum with the dense output, place by place. -/
theorem mix_step10 :
    val_main_v210 (F := Ideal) x0 x1 x2 x3 x4 x5 x6 x7 x8 x9
      = Cert.Spec.combine (val_main_v204 (F := Ideal) x0 x1 x2 x3 x4 x5 x6 x7 x8 x9)
          (val_main_v20 (F := Ideal) x0 x1 x2 x6 x7 x8 x9) := by
  funext j
  rw [val_main_v210_apply, val_main_v209_apply, val_main_v206_apply, val_main_v205_apply, val_main_cst_49_apply,
    val_main_v208_apply, val_main_v207_apply, val_main_cst_50_apply]
  simp only [Ideal.hostUnary_tanh_def, Ideal.addf_def, Ideal.mulf_def, Ideal.ofBits_def]
  rfl

/-- The tenth step: the scores after it are the mixing of the edge operation of the scores before it. -/
theorem step10 :
    val_main_v210 (F := Ideal) x0 x1 x2 x3 x4 x5 x6 x7 x8 x9
      = Cert.Spec.combine (Sparse.edge x3 x4 x5 (val_main_v191 (F := Ideal) x0 x1 x2 x3 x4 x5 x6 x7 x8 x9))
          (val_main_v20 (F := Ideal) x0 x1 x2 x6 x7 x8 x9) := by
  rw [mix_step10, edge_step10]

end Cert.ReferenceIdeal.RefValue

end
-- ==== Proof.RefLogSoftmax.lean ====
/-
  The reference's closing log-softmax, read at a place (r, c) of the tenth iterate p. The outlined function takes
  each row's maximum as a fold of max over the row's 40 places from the minus-infinity word's value, then once more
  the maximum of that with the same word's value: the fold is at least its starting value, so the second maximum
  changes nothing, and the word is never evaluated. It subtracts the maximum, exponentiates, sums each row from
  a zero word (whose value is the extended reals' zero, which adds nothing), takes the logarithm and subtracts.
-/
import proofs.«407666_j24318104830502_3_alg».proof.Proof.RefRead
import proofs.«407666_j24318104830502_3_alg».proof.Proof.Spec
import Idealize.ShloMosaic.Lib.ValueIdx
import Idealize.ShloMosaic.PureOps.Reduce
import Idealize.ShloMosaic.PureOps.Ideal
import Idealize.ShloMosaic.PureOps.Ideal.Laws
import Mathlib.Data.Finset.Fold

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

/-- The host's reduce with a maximum body over axis 1, from the minus-infinity word, at row r: the row's maximum. -/
theorem reduce_max_row (p : FVec Ideal S100000x40 .f32) (r : Fin 100000) :
    Host.reduce FloatOps.maximumf p (constant (F := Ideal) S_ .f32 0xFF800000#32) reducesTo_S100000x40_S100000_d1 h_S_ (ix1 r)
      = Cert.Spec.rowMax p r := by
  have hred : S100000x40.Reduces [1] S100000 := by decide
  rw [Host.reduce_eq_fold_single FloatOps.maximumf p _ reducesTo_S100000x40_S100000_d1 hred h_S_]
  have hf : (p ∘ hred.lift (ix1 r)) = fun k : Fin 40 => p (ix2 r k) :=
    funext fun k => congrArg p (funext fun a => Fin.ext (by match a with | ⟨0, _⟩ => rfl | ⟨1, _⟩ => rfl))
  unfold Cert.Spec.rowMax
  exact congrArg (fun f => Finset.fold max (Ideal.ofBits .f32 0xFF800000#32) f (Finset.univ : Finset (Fin 40))) hf

/-- A fold of max is at least the value it starts from, so the maximum with that value is the fold. -/
theorem max_rowMax (p : FVec Ideal S100000x40 .f32) (r : Fin 100000) :
    max (Ideal.ofBits .f32 0xFF800000#32) (Cert.Spec.rowMax p r) = Cert.Spec.rowMax p r :=
  max_eq_right ((Finset.le_fold_max _).2 (Or.inl le_rfl))

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The outlined function's first stage at row r is the row maximum of the tenth iterate. -/
theorem call1_v0_row (r : Fin 100000) :
    val_main_call1_v0 (F := Ideal) x0 x1 x2 x3 x4 x5 x6 x7 x8 x9 (ix1 r)
      = Cert.Spec.rowMax (val_main_v210 (F := Ideal) x0 x1 x2 x3 x4 x5 x6 x7 x8 x9) r := by
  unfold val_main_call1_v0 val_main_call1_cst
  exact reduce_max_row _ r

/-- The outlined function's difference stage at a place (r, k): the entry there less its row's maximum. The second
    maximum, with the word the fold started from, drops out. -/
theorem call1_v5_at (r : Fin 100000) (k : Fin 40) :
    val_main_call1_v5 (F := Ideal) x0 x1 x2 x3 x4 x5 x6 x7 x8 x9 (ix2 r k)
      = val_main_v210 (F := Ideal) x0 x1 x2 x3 x4 x5 x6 x7 x8 x9 (ix2 r k)
          - Cert.Spec.rowMax (val_main_v210 (F := Ideal) x0 x1 x2 x3 x4 x5 x6 x7 x8 x9) r := by
  have e34 : idx_main_call1_v3 (idx_main_call1_v4 (ix2 r k)) = ix1 r :=
    funext fun a => Fin.ext (by match a with | ⟨0, _⟩ => rfl)
  rw [val_main_call1_v5_apply, val_main_call1_v4_apply, val_main_call1_v3_apply, e34, val_main_call1_v2_apply,
    val_main_call1_v1_apply, val_main_call1_cst_0_apply, call1_v0_row]
  generalize val_main_v210 (F := Ideal) x0 x1 x2 x3 x4 x5 x6 x7 x8 x9 = p
  rw [Ideal.subf_def, Ideal.maximumf_def, Ideal.ofBits_def, max_rowMax]

/-- THE CLOSING STAGE is the row-wise log-softmax of the tenth iterate. -/
theorem logSoftmax_reads :
    val_main_v211 (F := Ideal) x0 x1 x2 x3 x4 x5 x6 x7 x8 x9
      = Cert.Spec.logSoftmax (val_main_v210 (F := Ideal) x0 x1 x2 x3 x4 x5 x6 x7 x8 x9) := by
  funext j
  obtain ⟨r, c, rfl⟩ : ∃ (r : Fin 100000) (c : Fin 40), j = ix2 r c := ⟨j 0, j 1, eq_ix2 j⟩
  have e810 : idx_main_call1_v8 (idx_main_call1_v10 (ix2 r c)) = ix1 r :=
    funext fun a => Fin.ext (by match a with | ⟨0, _⟩ => rfl)
  have hexp : ∀ k : Fin 40, val_main_call1_v6 (F := Ideal) x0 x1 x2 x3 x4 x5 x6 x7 x8 x9 (idx_main_call1_v7 (ix1 r) k)
      = Ideal.exp (val_main_v210 (F := Ideal) x0 x1 x2 x3 x4 x5 x6 x7 x8 x9 (ix2 r k)
          - Cert.Spec.rowMax (val_main_v210 (F := Ideal) x0 x1 x2 x3 x4 x5 x6 x7 x8 x9) r) := fun k => by
    have e7 : idx_main_call1_v7 (ix1 r) k = ix2 r k :=
      funext fun a => Fin.ext (by match a with | ⟨0, _⟩ => rfl | ⟨1, _⟩ => rfl)
    rw [e7, val_main_call1_v6_apply, call1_v5_at, Ideal.hostUnary_exp_def]
  rw [val_main_v211_apply, val_main_call1_v10_apply, val_main_call1_v9_apply, val_main_call1_v8_apply, e810,
    val_main_call1_v7_apply, val_main_call1_cst_1_apply, call1_v5_at, Finset.sum_congr rfl (fun k _ => hexp k)]
  generalize val_main_v210 (F := Ideal) x0 x1 x2 x3 x4 x5 x6 x7 x8 x9 = p
  rw [Ideal.subf_def, Ideal.hostUnary_log_def, Ideal.ofBits_def, Ideal.ofBits_zero_f32, zero_add]
  rfl

end Cert.ReferenceIdeal.RefValue

end
-- ==== Proof.RefTail.lean ====
/-
  The reference's result from its dense output on. Each of the ten propagation steps is the neighbour sum of the
  current scores, unopened, and the mixing step read pointwise; the closing log-softmax takes a row's maximum as
  a fold of max from minus infinity (and once more the maximum of that with minus infinity, which changes
  nothing), and the row's sum of exponentials from a zero that adds nothing.

  The ten steps are proved one module each (the first reads its scores from the dense output, every later one from
  the step before it); here they are chained: the tenth stage is the step function, scores ↦ mixing of the edge
  operation of the scores with the dense output, applied ten times to the dense output. The closing stage is the
  log-softmax of that, and the dense output is the dense head of the segment sum: together, the network's definition.
-/
import proofs.«407666_j24318104830502_3_alg».proof.Proof.RefHead
import proofs.«407666_j24318104830502_3_alg».proof.Proof.RefStep1
import proofs.«407666_j24318104830502_3_alg».proof.Proof.RefStep2
import proofs.«407666_j24318104830502_3_alg».proof.Proof.RefStep3
import proofs.«407666_j24318104830502_3_alg».proof.Proof.RefStep4
import proofs.«407666_j24318104830502_3_alg».proof.Proof.RefStep5
import proofs.«407666_j24318104830502_3_alg».proof.Proof.RefStep6
import proofs.«407666_j24318104830502_3_alg».proof.Proof.RefStep7
import proofs.«407666_j24318104830502_3_alg».proof.Proof.RefStep8
import proofs.«407666_j24318104830502_3_alg».proof.Proof.RefStep9
import proofs.«407666_j24318104830502_3_alg».proof.Proof.RefStep10
import proofs.«407666_j24318104830502_3_alg».proof.Proof.RefLogSoftmax
import proofs.«407666_j24318104830502_3_alg».proof.Proof.RefRead
import proofs.«407666_j24318104830502_3_alg».proof.Proof.RDefs
import proofs.«407666_j24318104830502_3_alg».proof.Proof.Spec
import Idealize.ShloMosaic.Lib.ValueIdx
import Idealize.ShloMosaic.Lib.Pipeline.Value
import Idealize.ShloMosaic.PureOps.Ideal.Laws
import Mathlib.Logic.Function.Iterate

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.ReadP

/-- Ten applications of a function, written out. -/
theorem iterate_ten {α : Type} (f : α → α) (a : α) : f^[10] a = f (f (f (f (f (f (f (f (f (f a))))))))) := rfl

variable (x0 x1 : IVec S2000000 32) (x2 : FVec Ideal S2000000 .f32) (x3 x4 : IVec S1600000 32) (x5 : FVec Ideal S1600000 .f32)
  (x6 : FVec Ideal S2048x64 .f32) (x7 : FVec Ideal S64 .f32) (x8 : FVec Ideal S64x40 .f32) (x9 : FVec Ideal S40 .f32)

/-- The tenth step's scores are the step function applied ten times to the dense output. -/
theorem tenth_iterate :
    val_main_v210 (F := Ideal) x0 x1 x2 x3 x4 x5 x6 x7 x8 x9
      = (fun p => Cert.Spec.combine (Sparse.edge x3 x4 x5 p) (val_main_v20 (F := Ideal) x0 x1 x2 x6 x7 x8 x9))^[10]
          (val_main_v20 (F := Ideal) x0 x1 x2 x6 x7 x8 x9) := by
  rw [iterate_ten, step10, step9, step8, step7, step6, step5, step4, step3, step2, step1]

/-- THE REFERENCE'S RESULT is the network's function of its arguments. -/
theorem ref_value (hcols : ∀ e : Fin 2000000, (x1 (ix1 e)).toNat < 2048) :
    val_main_v211 (F := Ideal) x0 x1 x2 x3 x4 x5 x6 x7 x8 x9
      = Cert.Spec.network (Sparse.seg x0) (Sparse.edge x3 x4 x5) x1 x2 x6 x7 x8 x9 := by
  rw [logSoftmax_reads, tenth_iterate, ref_head x0 x1 x2 x6 x7 x8 x9 hcols]
  rfl

end Cert.ReferenceIdeal.RefValue

end
-- ==== Proof.Glue.lean ====
/-
  The kernel's program and the reference print the two sparse operations with the same dimension numbers and the
  same shape facts, so the two programs' copies are one function each.
-/
import proofs.«407666_j24318104830502_3_alg».proof.Proof.KDefs
import proofs.«407666_j24318104830502_3_alg».proof.Proof.RDefs

noncomputable section

open Idealize.ShloMosaic

namespace Cert.Glue

theorem seg_eq : @Cert.KernelIdeal.Sparse.seg = @Cert.ReferenceIdeal.Sparse.seg := rfl

theorem edge_eq : @Cert.KernelIdeal.Sparse.edge = @Cert.ReferenceIdeal.Sparse.edge := rfl

end Cert.Glue

end
-- ==== Proof.PreDecode.lean ====
/-
  What the precondition says of the column words. The printed predicate is a conjunction of all-reductions; its
  last two conjuncts are: every column word is below 2048 as a signed integer, and every column word is at least
  0 as a signed integer. Together: every column word's unsigned value is below 2048.

  The road. The predicate's one result word is an `and` of `and`s; it is 1 exactly when both operands of each
  `and` are 1, so the last two operands are 1. Each of those is an all-reduction by `and` of a vector of
  comparison bits into the one-index result, and an all-reduction that came out 1 met a 1 at every position.
  At position e the comparison bit compares the column word a1[e] with the broadcast scalar (2048, then 0), read
  signed. A 32-bit word whose signed reading is nonnegative has its top bit clear, so its signed and unsigned
  readings agree, and the unsigned one is then below 2048 too.
-/
import proofs.«407666_j24318104830502_3_alg».proof.Pre_finite_inputs
import proofs.«407666_j24318104830502_3_alg».proof.Proof.Gen.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreDecode

open Cert.Pre_finite_inputs

/-- The rank-0 shape has one index: there is no axis to give a coordinate on. -/
instance subsingleton_scalar_idx : Subsingleton S_.Idx := ⟨fun a b => funext fun d => d.elim0⟩

/-- A 32-bit word that reads, signed, at least 0 and below 2048 has unsigned value below 2048: were its top bit
    set the signed reading would be the unsigned one less 2³², which is negative. -/
theorem toNat_lt_of_signed_range (w : BitVec 32) (hlo : (0#32 : BitVec 32).toInt ≤ w.toInt)
    (hhi : w.toInt < (2048#32 : BitVec 32).toInt) : w.toNat < 2048 := by
  have h0 : (0#32 : BitVec 32).toInt = 0 := by decide
  have h2 : (2048#32 : BitVec 32).toInt = 2048 := by decide
  rw [h0] at hlo
  rw [h2] at hhi
  have hw := w.isLt
  rw [BitVec.toInt_eq_toNat_cond] at hlo hhi
  split at hlo <;> omega

/-- The last two all-reductions of the printed predicate, read at one position: the predicate's word being 1 makes
    the signed compare of a1[e] below the broadcast 2048, and the signed compare of a1[e] at least the broadcast 0,
    both 1. -/
theorem cmp_bits_of_pre (a0 : IVec S2000000 32) (a1 : IVec S2000000 32) (a2 : FVec Ideal S2000000 .f32)
    (a3 : IVec S1600000 32) (a4 : IVec S1600000 32) (a5 : FVec Ideal S1600000 .f32) (a6 : FVec Ideal S2048x64 .f32)
    (a7 : FVec Ideal S64 .f32) (a8 : FVec Ideal S64x40 .f32) (a9 : FVec Ideal S40 .f32)
    (h : Cert.Pre_finite_inputs.fn (F := Ideal) a0 a1 a2 a3 a4 a5 a6 a7 a8 a9 = fun _ => 1#1) (e : Fin 2000000) :
    IntOp.cmpi .slt (a1 (ix1 e)) (2048#32) = 1#1 ∧ IntOp.cmpi .sge (a1 (ix1 e)) (0#32) = 1#1 := by
  have h0 := congrFun h ix0
  dsimp only [fn, fn_part1, fn_part2, andi] at h0
  obtain ⟨h1, hge⟩ := IntOp.andi_eq_one.1 h0
  obtain ⟨-, hlt⟩ := IntOp.andi_eq_one.1 h1
  exact ⟨Host.reduce_andi_all _ _ _ _ _ hlt (ix1 e), Host.reduce_andi_all _ _ _ _ _ hge (ix1 e)⟩

theorem cols_lt_of_pre (a0 : IVec S2000000 32) (a1 : IVec S2000000 32) (a2 : FVec Ideal S2000000 .f32)
    (a3 : IVec S1600000 32) (a4 : IVec S1600000 32) (a5 : FVec Ideal S1600000 .f32) (a6 : FVec Ideal S2048x64 .f32)
    (a7 : FVec Ideal S64 .f32) (a8 : FVec Ideal S64x40 .f32) (a9 : FVec Ideal S40 .f32)
    (h : Cert.Pre_finite_inputs.fn (F := Ideal) a0 a1 a2 a3 a4 a5 a6 a7 a8 a9 = fun _ => 1#1) :
    ∀ e : Fin 2000000, (a1 (ix1 e)).toNat < 2048 := by
  intro e
  obtain ⟨hlt, hge⟩ := cmp_bits_of_pre a0 a1 a2 a3 a4 a5 a6 a7 a8 a9 h e
  exact toNat_lt_of_signed_range _ (IntOp.cmpi_sge.1 hge) (IntOp.cmpi_slt.1 hlt)

end Cert.PreDecode

end
-- ==== Proof.lean ====
/-
  The kernel's program and the reference compute one function on the extended reals.

  Both are the same network (Proof/Spec.lean): a sparse feature matrix times a dense table, a bias and a
  rectifier, a dense layer, ten propagation steps mixing a sparse neighbour sum with the dense output under a
  hyperbolic tangent, and a row-wise log-softmax. They differ in one place only. The reference reads the table's
  row at an entry's column by a gather; the kernel multiplies the table by a 0/1 row that has its single one at
  the column, which is the same row of the table exactly when the column lies in [0, 2048): hence the precondition
  on the column words (every float input finite is not used: on the extended reals 0 times anything is 0 and 1
  times anything is itself). The segment sums and the edge gather are the same operations in both programs and
  are never opened; the dense layer is a sum over the hidden units on both sides; the mixing step is pointwise;
  the log-softmax's row maximum is one fold of max on both sides.

  The three frames: the two kernel programs' are the generated frame certificates, the reference's is its run (a
  line of host operations, each buffer ending at the fold of the operations over the launch contents) with the
  result dropped. The reference's result is read off that fold stretch by stretch as the stages of its
  operations, and the stages are the network. The idealization rewrote nothing, so it is preserved trivially.
-/
import proofs.«407666_j24318104830502_3_alg».proof.Defs
import proofs.«407666_j24318104830502_3_alg».proof.Proof.Gen.Kernel
import proofs.«407666_j24318104830502_3_alg».proof.Proof.Gen.Kernel.Frame
import proofs.«407666_j24318104830502_3_alg».proof.Proof.Gen.KernelIdeal
import proofs.«407666_j24318104830502_3_alg».proof.Proof.Gen.KernelIdeal.Frame
import proofs.«407666_j24318104830502_3_alg».proof.Proof.Gen.ReferenceIdeal
import proofs.«407666_j24318104830502_3_alg».proof.Proof.Gen.Pre_finite_inputs
import proofs.«407666_j24318104830502_3_alg».proof.Proof.KernelRun
import proofs.«407666_j24318104830502_3_alg».proof.Proof.ChainTail
import proofs.«407666_j24318104830502_3_alg».proof.Proof.RefRun
import proofs.«407666_j24318104830502_3_alg».proof.Proof.RefFold
import proofs.«407666_j24318104830502_3_alg».proof.Proof.RefTail
import proofs.«407666_j24318104830502_3_alg».proof.Proof.Glue
import proofs.«407666_j24318104830502_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the network's function of the (agreeing) arguments: the kernel's by its run with the
    result named and the walk through its segment boundaries, the reference's by its run read one operation at a
    time over the fold of its operations; the two programs' copies of the sparse operations are one function each. -/
theorem algebraic : Cert.algebraic_KernelIdeal_ReferenceIdeal := by
  intro m ρ m' ρ' hpre hagree
  -- every column word's unsigned value is below 2048, from the precondition's last two conjuncts
  have hcols : ∀ (c : Dev Cert.KernelIdeal.nD) (e : Fin 2000000),
      (((m ((c.tc : Thread Cert.KernelIdeal.nD Cert.KernelIdeal.τ).loc Cert.KernelIdeal.main_arg1)) : IVec Cert.KernelIdeal.S2000000 32) (ix1 e)).toNat < 2048 :=
    fun c => Cert.PreDecode.cols_lt_of_pre _ _ _ _ _ _ _ _ _ _ (hpre c)
  refine ⟨fun c => Cert.Spec.network (Cert.KernelIdeal.Sparse.seg (m ((c.tc : Thread Cert.KernelIdeal.nD Cert.KernelIdeal.τ).loc Cert.KernelIdeal.main_arg0))) (Cert.KernelIdeal.Sparse.edge (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.kernel_value m ρ c (hcols c)), (h c).2⟩)
      (Cert.KernelIdeal.Gen.run_result (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9⟩ := hagree c
    -- the fold at the result buffer is the last stage of the reference's arguments, which are the kernel's
    have hfold := Cert.ReferenceIdeal.RefFold.ref_fold (StableHlo.launchContents m' c)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        e0 e1 e2 e3 e4 e5 e6 e7 e8 e9
    -- the last stage is the network, over the reference's copies of the sparse operations
    have hnet := Cert.ReferenceIdeal.RefValue.ref_value
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (hcols c)
    rw [← Cert.Glue.seg_eq, ← Cert.Glue.edge_eq] at hnet
    exact ((h c).1.trans hfold).trans hnet

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
